-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  main_v3
-- ==== Kernel.lean ====
abbrev S512x256 : Shape := ⟨2, ![512, 256]⟩
abbrev S1x256 : Shape := ⟨2, ![1, 256]⟩
abbrev S8x1x256 : Shape := ⟨3, ![8, 1, 256]⟩
abbrev S8 : Shape := ⟨1, ![8]⟩
abbrev S_ : Shape := ⟨0, ![]⟩
abbrev S256 : Shape := ⟨1, ![256]⟩
abbrev S1x1x256 : Shape := ⟨3, ![1, 1, 256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S8x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v39 : BitVec 32 := Scalar.addi v2 c1_i32_33
  let c8_i32_34 : BitVec 32 := 8#32
  let v40 : BitVec 32 := Scalar.remsi v39 c8_i32_34
  let c1_i32_39 : BitVec 32 := 1#32
  let v41 : BitVec 32 := Scalar.muli v40 c1_i32_39
  let v42 : BitVec 32 := Scalar.addi c0_i32_40 v41
  v42.toNat
def k0_dev9 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_45 : BitVec 32 := 2#32
  let v51 : BitVec 32 := Scalar.addi v2 c2_i32_45
  let c8_i32_46 : BitVec 32 := 8#32
  let v52 : BitVec 32 := Scalar.remsi v51 c8_i32_46
  let c1_i32_51 : BitVec 32 := 1#32
  let v53 : BitVec 32 := Scalar.muli v52 c1_i32_51
  let v54 : BitVec 32 := Scalar.addi c0_i32_52 v53
  v54.toNat
def k0_dev10 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_57 : BitVec 32 := 3#32
  let v63 : BitVec 32 := Scalar.addi v2 c3_i32_57
  let c8_i32_58 : BitVec 32 := 8#32
  let v64 : BitVec 32 := Scalar.remsi v63 c8_i32_58
  let c1_i32_63 : BitVec 32 := 1#32
  let v65 : BitVec 32 := Scalar.muli v64 c1_i32_63
  let v66 : BitVec 32 := Scalar.addi c0_i32_64 v65
  v66.toNat
def k0_dev11 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_69 : BitVec 32 := 4#32
  let v75 : BitVec 32 := Scalar.addi v2 c4_i32_69
  let c8_i32_70 : BitVec 32 := 8#32
  let v76 : BitVec 32 := Scalar.remsi v75 c8_i32_70
  let c1_i32_75 : BitVec 32 := 1#32
  let v77 : BitVec 32 := Scalar.muli v76 c1_i32_75
  let v78 : BitVec 32 := Scalar.addi c0_i32_76 v77
  v78.toNat
def k0_dev12 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_81 : BitVec 32 := 5#32
  let v87 : BitVec 32 := Scalar.addi v2 c5_i32_81
  let c8_i32_82 : BitVec 32 := 8#32
  let v88 : BitVec 32 := Scalar.remsi v87 c8_i32_82
  let c1_i32_87 : BitVec 32 := 1#32
  let v89 : BitVec 32 := Scalar.muli v88 c1_i32_87
  let v90 : BitVec 32 := Scalar.addi c0_i32_88 v89
  v90.toNat
def k0_dev13 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_93 : BitVec 32 := 6#32
  let v99 : BitVec 32 := Scalar.addi v2 c6_i32_93
  let c8_i32_94 : BitVec 32 := 8#32
  let v100 : BitVec 32 := Scalar.remsi v99 c8_i32_94
  let c1_i32_99 : BitVec 32 := 1#32
  let v101 : BitVec 32 := Scalar.muli v100 c1_i32_99
  let v102 : BitVec 32 := Scalar.addi c0_i32_100 v101
  v102.toNat
def k0_dev14 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_105 : BitVec 32 := 7#32
  let v111 : BitVec 32 := Scalar.addi v2 c7_i32_105
  let c8_i32_106 : BitVec 32 := 8#32
  let v112 : BitVec 32 := Scalar.remsi v111 c8_i32_106
  let c1_i32_111 : BitVec 32 := 1#32
  let v113 : BitVec 32 := Scalar.muli v112 c1_i32_111
  let v114 : BitVec 32 := Scalar.addi c0_i32_112 v113
  v114.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S8x1x256_S1x1x256_0_0_0 : ∀ a, (![0, 0, 0] : Fin 3 → Nat) a + S1x1x256.size a ≤ S8x1x256.size a
  h_S1x1x256 : 0 < S1x1x256.numel
  shapeCasts_S1x1x256_S1x256 : S1x1x256.ShapeCasts S1x256
  shapeCasts_S1x256_S1x1x256 : S1x256.ShapeCasts S1x1x256
  hamt_7 : (7#32 : BitVec 32).msb = false
  inb_S8_S1_1 : ∀ a, (![1] : Fin 1 → Nat) a + S1.size a ≤ S8.size a
  squeezes_S1_S_ : S1.Squeezes S_
  inb_S8x1x256_S1x1x256_1_0_0 : ∀ a, (![1, 0, 0] : Fin 3 → Nat) a + S1x1x256.size a ≤ S8x1x256.size a
  squeezes_S1x1x256_S1x256 : S1x1x256.Squeezes S1x256
  inb_S8_S1_2 : ∀ a, (![2] : Fin 1 → Nat) a + S1.size a ≤ S8.size a
  inb_S8x1x256_S1x1x256_2_0_0 : ∀ a, (![2, 0, 0] : Fin 3 → Nat) a + S1x1x256.size a ≤ S8x1x256.size a
  inb_S8_S1_3 : ∀ a, (![3] : Fin 1 → Nat) a + S1.size a ≤ S8.size a
  inb_S8x1x256_S1x1x256_3_0_0 : ∀ a, (![3, 0, 0] : Fin 3 → Nat) a + S1x1x256.size a ≤ S8x1x256.size a
  inb_S8_S1_4 : ∀ a, (![4] : Fin 1 → Nat) a + S1.size a ≤ S8.size a
  inb_S8x1x256_S1x1x256_4_0_0 : ∀ a, (![4, 0, 0] : Fin 3 → Nat) a + S1x1x256.size a ≤ S8x1x256.size a
  inb_S8_S1_5 : ∀ a, (![5] : Fin 1 → Nat) a + S1.size a ≤ S8.size a
  inb_S8x1x256_S1x1x256_5_0_0 : ∀ a, (![5, 0, 0] : Fin 3 → Nat) a + S1x1x256.size a ≤ S8x1x256.size a
  inb_S8_S1_6 : ∀ a, (![6] : Fin 1 → Nat) a + S1.size a ≤ S8.size a
  inb_S8x1x256_S1x1x256_6_0_0 : ∀ a, (![6, 0, 0] : Fin 3 → Nat) a + S1x1x256.size a ≤ S8x1x256.size a
  inb_S8_S1_7 : ∀ a, (![7] : Fin 1 → Nat) a + S1.size a ≤ S8.size a
  inb_S8x1x256_S1x1x256_7_0_0 : ∀ a, (![7, 0, 0] : Fin 3 → Nat) a + S1x1x256.size a ≤ S8x1x256.size a
  inb_S8x1x256_S8x1x256_0_0_0 : ∀ a, (![0, 0, 0] : Fin 3 → Nat) a + S8x1x256.size a ≤ S8x1x256.size a
  h_S8x1x256 : 0 < S8x1x256.numel
  reduces_S8x1x256_S1x256 : S8x1x256.Reduces [0] S1x256
  inb_S1x256_S1x256_0_0 : ∀ a, (![0, 0] : Fin 2 → Nat) a + S1x256.size a ≤ S1x256.size a
  h_S1x256 : 0 < S1x256.numel
  hcc0_scratch1 : 2 + S8.numel ≤ 18
  hcc0_scratch2 : 10 + S8.numel ≤ 18
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch1 : DmaSems sig S8 := SemArray.consecutive 2 S8 hcc0_scratch1
abbrev cc0_scratch2 : DmaSems sig S8 := SemArray.consecutive 10 S8 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S256 : Shape := ⟨1, ![256]⟩
abbrev S1x256 : Shape := ⟨2, ![1, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S_, .f32⟩
  | .hbm, ⟨2, _⟩ => ⟨S256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S4096x256_S256_d0 : S4096x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)

variable [Facts₀]

class Facts : Prop extends Facts₀ where

variable [Facts]
-- ==== Proof.Spec.lean ====
/-
  The mathematics of the kernel, free of the protocol. Eight devices stand on a ring; device `c`'s block of the
  input is `xs c` (512 rows of 256 columns). Each device sums its block's rows (`k0_pay1`), every device receives the
  seven other devices' row sums — slot `d` of device `c`'s table holds the row sum of the device `d` places BEFORE it,
  `src c d`, slot `0` its own —, and the result is the sum of the eight slots scaled by 1/4096 (`k0_pay2`).
-/
import proofs.«900956_g7700000000000957_dist_mean_ax0_shard0_i_m512_n256_v7x_i8_bf16_1_alg».proof.Proof.Gen.KernelIdeal.Skeleton

noncomputable section

namespace Cert.KernelIdeal.Spec

open Cert.KernelIdeal Cert.KernelIdeal.Gen
open Idealize.ShloMosaic Idealize.ShloMosaic.TcCoe Idealize.SL.Sem

variable {F : FTy → Type} [FloatOps F]

/-- The device `d` places after `c` on the ring of eight. -/
def peer (c : Dev nD) (d : Fin 8) : Dev nD := ⟨(c.val + d.val) % 8, Nat.mod_lt _ (by decide)⟩
/-- The device `d` places before `c`. -/
def src (c : Dev nD) (d : Fin 8) : Dev nD := ⟨(c.val + 8 - d.val) % 8, Nat.mod_lt _ (by decide)⟩
/-- The offset that undoes `d`: `8 - d` on the ring. -/
def neg (d : Fin 8) : Fin 8 := ⟨(8 - d.val) % 8, Nat.mod_lt _ (by decide)⟩

theorem peer_src (c : Dev nD) (d : Fin 8) : peer (src c d) d = c := by revert c d; decide
theorem src_peer (c : Dev nD) (d : Fin 8) : src (peer c d) d = c := by revert c d; decide
theorem peer_peer_neg (c : Dev nD) (d : Fin 8) : peer (peer c d) (neg d) = c := by revert c d; decide
theorem src_eq_peer_neg (c : Dev nD) (d : Fin 8) : src c d = peer c (neg d) := by revert c d; decide
theorem peer_zero (c : Dev nD) : peer c 0 = c := by revert c; decide
theorem src_zero (c : Dev nD) : src c 0 = c := by revert c; decide
theorem neg_neg (d : Fin 8) : neg (neg d) = d := by revert d; decide
theorem neg_ne_zero {d : Fin 8} (h : d ≠ 0) : neg d ≠ 0 := by revert d; decide
theorem peer_inj (c : Dev nD) {d d' : Fin 8} (h : peer c d = peer c d') : d = d' := by revert c d d'; decide
theorem peer_left_inj (d : Fin 8) {c c' : Dev nD} (h : peer c d = peer c' d) : c = c' := by revert c c' d; decide

/-- An index of the table of eight slots, read inside its slot. -/
def low (i : S8x1x256.Idx) : S1x1x256.Idx := fun a => match a with
  | ⟨0, _⟩ => ⟨0, show 0 < 1 from Nat.one_pos⟩
  | ⟨1, _⟩ => i 1
  | ⟨2, _⟩ => i 2

/-- Device `c`'s table once every row sum has arrived: slot `d` is the row sum of the block of `src c d`. -/
def commAt (xs : Dev nD → Vec F S512x256 .f32) (c : Dev nD) : Vec F S8x1x256 .f32 :=
  fun i => k0_pay1 (xs (src c (i 0))) (low i)

/-- Device `c`'s result: the eight slots summed and scaled. -/
def outAt (xs : Dev nD → Vec F S512x256 .f32) (c : Dev nD) : FVec F S1x256 .f32 := k0_pay2 (commAt xs c)

end Cert.KernelIdeal.Spec

end
-- ==== Proof.Mem.lean ====
/-
  The kernel's memory, named once: the staged input block, the staged result row, the table of eight slots, the slot
  `d` of the table as the one-row memref the transfers and the waits address, and the send and receive semaphores of
  offset `d`. Each is stated for a variable offset `d : Fin 8`; the kernel's text is the instance at a literal `d`.
-/
import proofs.«900956_g7700000000000957_dist_mean_ax0_shard0_i_m512_n256_v7x_i8_bf16_1_alg».proof.Proof.Spec
import Idealize.ShloMosaic.Lib.Pipeline.Value

set_option maxRecDepth 16384

noncomputable section

namespace Cert.KernelIdeal.Mem

open Cert.KernelIdeal Cert.KernelIdeal.Gen Cert.KernelIdeal.Spec
open Idealize.ShloMosaic Idealize.ShloMosaic.TcCoe Idealize.SL.Sem

/-- The staged input block, the staged result row, the table. -/
abbrev xM : Memref sig .tc .vmem S512x256 .f32 := Memref.whole cc0_stg0_0
abbrev oM : Memref sig .tc .vmem S1x256 .f32 := Memref.whole cc0_stg1_0
abbrev cM : Memref sig .tc .vmem S8x1x256 .f32 := Memref.whole cc0_scratch0

theorem inbSlot (d : Fin 8) : ∀ a, (![d.val, 0, 0] : Fin 3 → Nat) a + S1x1x256.size a ≤ S8x1x256.size a := by revert d; decide
theorem inbSem (d : Fin 8) : ∀ a, (![d.val] : Fin 1 → Nat) a + S1.size a ≤ S8.size a := by revert d; decide

/-- Slot `d` of the table: the rectangle, and the one-row memref over it. -/
abbrev slotR (d : Fin 8) : Rect S8x1x256 := Rect.unit (s := S8x1x256) ![d.val, 0, 0] S1x1x256.size (inbSlot d)
abbrev slotM (d : Fin 8) : Memref sig .tc .vmem S1x256 .f32 :=
  ((cM : Memref sig .tc .vmem S8x1x256 .f32).slice (slotR d) (fun _ => rfl)).squeeze S1x256 squeezes_S1x1x256_S1x256
/-- The send and the receive semaphore of offset `d`. -/
abbrev sendQ (d : Fin 8) : DmaSem sig := ((cc0_scratch1.slice (Rect.unit (s := S8) ![d.val] S1.size (inbSem d))).squeeze S_ squeezes_S1_S_).sem
abbrev recvQ (d : Fin 8) : DmaSem sig := ((cc0_scratch2.slice (Rect.unit (s := S8) ![d.val] S1.size (inbSem d))).squeeze S_ squeezes_S1_S_).sem

theorem sendQ_val (d : Fin 8) : (sendQ d).val = 2 + d.val := by revert d; decide
theorem recvQ_val (d : Fin 8) : (recvQ d).val = 10 + d.val := by revert d; decide

/-- The indices of slot `d`: those whose leading coordinate is `d`. -/
abbrev K (d : Fin 8) : Finset (S8x1x256.Idx) := (slotR d).set
theorem slot_set (d : Fin 8) : (slotM d).view.set = K d := by
  simp only [Memref.view_squeeze, Memref.view_slice, Memref.view_whole, View.set_reshape, View.set_slice_whole]
theorem mem_K (d : Fin 8) (i : S8x1x256.Idx) : i ∈ K d ↔ (i 0).val = d.val := by
  rw [Rect.mem_set_unit]
  constructor
  · intro h; have := h 0; simp at this; omega
  · intro h a; fin_cases a <;> simp <;> omega

end Cert.KernelIdeal.Mem

end
-- ==== Proof.Proto.lean ====
/-
  The protocol of the eight devices, as a schedule of rounds. Every device `c` has fifteen cells that matter: its barrier
  cell, and for each offset `d = 1 … 7` a send cell and a receive cell. All have one round.
  * The barrier cell of `p` has seven duties of one unit, named by the offset `e` of the payer: duty `e` is paid by the
    device `peer p e`, and hands `p` slot `e` of THAT device's table (the slot `p` will write remotely) together with
    the fact that that device stands at round 0 of its receive cell `e`.
  * The receive cell `d` of `c` has one duty of a row's credit, paid by the transfer of `src c d`: it hands `c` its slot
    `d` holding that device's row sum — stated as: slot `d` holds the final table `commAt` there.
  * The send cell `d` of `c` has one duty of a row's credit, paid by `c`'s own transfer: it hands back the read share
    of slot `0` the transfer was lent.
  A device signals the seven barriers, waits for its own seven units owing only receive credit (barrier cells lie below
  receive cells), transfers, and from then on owes nothing.
-/
import proofs.«900956_g7700000000000957_dist_mean_ax0_shard0_i_m512_n256_v7x_i8_bf16_1_alg».proof.Proof.Mem
import proofs.«900956_g7700000000000957_dist_mean_ax0_shard0_i_m512_n256_v7x_i8_bf16_1_alg».proof.Proof.Gen.KernelIdeal.Launch
import proofs.«900956_g7700000000000957_dist_mean_ax0_shard0_i_m512_n256_v7x_i8_bf16_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic
import Mathlib.Tactic.Abel

set_option maxRecDepth 16384

noncomputable section

namespace Cert.KernelIdeal.Proto

open Cert.KernelIdeal Cert.KernelIdeal.Gen Cert.KernelIdeal.Spec Cert.KernelIdeal.Mem
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st0 : MemSt nD τ sig (Elt F) := ⟨m, fun _ => 0, ρ⟩

/-! ## The cells -/

/-- The runtime's barrier semaphore of collective id 0. -/
abbrev barS : Sem sig := (SemArray.scalar (sig.barrier 0 rfl) : Sems sig S_).sem

abbrev barCell (c : Dev nD) : GSem nD τ sig := ((c : Thread nD τ), .reg barS)
abbrev sendCell (c : Dev nD) (d : Fin 8) : GSem nD τ sig := ((c : Thread nD τ), .dma (sendQ d))
abbrev recvCell (c : Dev nD) (d : Fin 8) : GSem nD τ sig := ((c : Thread nD τ), .dma (recvQ d))

/-- The offsets that are used: all but `0`. -/
abbrev ds : Finset (Fin 8) := Finset.univ.erase 0

/-- One row's credit. -/
abbrev N : ℕ := (slotM 0).view.dmaCredit
theorem N_pos : 0 < N := View.dmaCredit_pos _ (by decide)

/-! ## Contents -/

/-- Device `c`'s staged block of the input. -/
def xstg (c : Dev nD) : Vec F S512x256 .f32 :=
  (win0_0.blk (0 : Fin 1)).view.read (Elt F) (m ((c : Thread nD τ).loc main_arg0))

/-- Device `c`'s table when every row sum has arrived. -/
abbrev tbl (c : Dev nD) : Vec F S8x1x256 .f32 := commAt (xstg m) c

/-- Slot `d` of device `c`'s table, held whole at contents `f`. -/
def slotPts (c : Dev nD) (d : Fin 8) (f : Buf (Elt F) ((slotM d).view.loc (c : Thread nD τ))) : sProp 𝕄 :=
  (slotM d).view.loc (c : Thread nD τ) ↦[(slotM d).view.set]{fullShare} f

/-- The read share of slot `0` lent to the transfer of offset `d`, and the one the device keeps. -/
abbrev qTok (d : Fin 8) : PosShare TreeShare := Transfers.shareTok fullShare 8 d
abbrev qKeep : PosShare TreeShare := Transfers.shareDrop fullShare 8

/-- Slot `0` of device `c`, holding its row sum, at the read share of offset `d`. -/
def srcPts (c : Dev nD) (d : Fin 8) : sProp 𝕄 :=
  (slotM 0).view.loc (c : Thread nD τ) ↦[(slotM 0).view.set]{qTok d} tbl m c

omit [FloatOps F] in
instance slotPts_storable (c : Dev nD) (d : Fin 8) (f) : BI.Storable (upEmb : UEmb _ 𝕄) (slotPts (F := F) c d f) := by unfold slotPts; infer_instance
instance srcPts_storable (c : Dev nD) (d : Fin 8) : BI.Storable (upEmb : UEmb _ 𝕄) (srcPts (F := F) m c d) := by unfold srcPts; infer_instance

/-! ## The schedule -/

/-- What the signal of `peer p e` hands `p`: that device's slot `e`, and that it stands at round 0 of its receive cell `e`. -/
def barPay (p : Dev nD) (e : Fin 8) : sProp 𝕄 := iprop((∃ f, slotPts (peer p e) e f) ∗ reached ER (recvCell (peer p e) e) 0)
def recvPay (c : Dev nD) (d : Fin 8) : sProp 𝕄 := slotPts c d (tbl m c)
def sendPay (c : Dev nD) (d : Fin 8) : sProp 𝕄 := srcPts m c d

/-- What a semaphore is to the protocol. -/
inductive Kind where
  | bar | send (d : Fin 8) | recv (d : Fin 8) | other
deriving DecidableEq

def kindOf : SemLoc sig → Kind
  | .reg s => if s = barS then .bar else .other
  | .dma q => if h : 3 ≤ q.val ∧ q.val ≤ 9 then .send ⟨q.val - 2, by omega⟩
      else if h' : 11 ≤ q.val ∧ q.val ≤ 17 then .recv ⟨q.val - 10, by omega⟩ else .other

theorem kindOf_bar : kindOf (.reg barS) = .bar := by decide
theorem kindOf_send {d : Fin 8} (h : d ≠ 0) : kindOf (.dma (sendQ d)) = .send d := by revert d; decide
theorem kindOf_recv {d : Fin 8} (h : d ≠ 0) : kindOf (.dma (recvQ d)) = .recv d := by revert d; decide
theorem kindOf_send0 : kindOf (.dma (sendQ 0)) = .other := by decide
theorem kindOf_recv0 : kindOf (.dma (recvQ 0)) = .other := by decide

/-- One round, round 0: a barrier cell has the seven duties `1 … 7` of one unit each; a send or receive cell of a used
    offset the duty `0` of a row's credit. -/
def Rd : Rounds.Schedule (GSem nD τ sig) (Fin 8) 𝕄 where
  duties g r := if r = 0 ∧ g.1.2 = .tc then
      (match kindOf g.2 with | .bar => ds | .send _ => {0} | .recv _ => {0} | .other => ∅) else ∅
  unitless _ := False
  amount g _ _ := match kindOf g.2 with | .bar => 1 | _ => N
  payload g _ e := match kindOf g.2 with
    | .bar => barPay g.1.1 e
    | .send d => sendPay m g.1.1 d
    | .recv d => recvPay m g.1.1 d
    | .other => iprop(emp)
  amount_pos g _ _ _ := by
    cases h : kindOf g.2 <;> simp only [h] <;> first | exact Nat.one_pos | exact N_pos

instance Rd_payload_storable (g : GSem nD τ sig) (r : ℕ) (e : Fin 8) :
    BI.Storable (upEmb : UEmb _ 𝕄) ((Rd (F := F) m).payload g r e) := by
  show BI.Storable upEmb (match kindOf g.2 with
    | .bar => barPay g.1.1 e | .send d => sendPay m g.1.1 d | .recv d => recvPay m g.1.1 d | .other => iprop(emp))
  unfold barPay recvPay sendPay
  split <;> infer_instance

section Sched
variable (c : Dev nD) {d : Fin 8} (hd : d ≠ 0)

theorem duties_bar : (Rd (F := F) m).duties (barCell c) 0 = ds := by
  dsimp only [Rd]; rw [if_pos ⟨rfl, rfl⟩, kindOf_bar]
include hd in
theorem duties_send : (Rd (F := F) m).duties (sendCell c d) 0 = {0} := by
  dsimp only [Rd]; rw [if_pos ⟨rfl, rfl⟩, kindOf_send hd]
include hd in
theorem duties_recv : (Rd (F := F) m).duties (recvCell c d) 0 = {0} := by
  dsimp only [Rd]; rw [if_pos ⟨rfl, rfl⟩, kindOf_recv hd]
theorem duties_send0 (r : ℕ) : (Rd (F := F) m).duties (sendCell c 0) r = ∅ := by
  dsimp only [Rd]; split
  · rw [kindOf_send0]
  · rfl
theorem duties_recv0 (r : ℕ) : (Rd (F := F) m).duties (recvCell c 0) r = ∅ := by
  dsimp only [Rd]; split
  · rw [kindOf_recv0]
  · rfl
theorem duties_later (g : GSem nD τ sig) : ∀ r, 1 ≤ r → (Rd (F := F) m).duties g r = ∅ :=
  fun r hr => by dsimp only [Rd]; rw [if_neg fun h => by omega]

theorem amount_bar (e : Fin 8) : (Rd (F := F) m).amount (barCell c) 0 e = 1 := by dsimp only [Rd]; rw [kindOf_bar]
include hd in
theorem amount_send (e : Fin 8) : (Rd (F := F) m).amount (sendCell c d) 0 e = N := by dsimp only [Rd]; rw [kindOf_send hd]
include hd in
theorem amount_recv (e : Fin 8) : (Rd (F := F) m).amount (recvCell c d) 0 e = N := by dsimp only [Rd]; rw [kindOf_recv hd]

theorem expect_bar : (Rd (F := F) m).expect (barCell c) 0 = 7 := by
  unfold Schedule.expect Schedule.amountOf
  rw [duties_bar, Finset.sum_congr rfl fun e _ => amount_bar m c e, Finset.sum_const, smul_eq_mul]; decide
include hd in
theorem expect_send : (Rd (F := F) m).expect (sendCell c d) 0 = N := by
  unfold Schedule.expect Schedule.amountOf; rw [duties_send m c hd, Finset.sum_singleton, amount_send m c hd]
include hd in
theorem expect_recv : (Rd (F := F) m).expect (recvCell c d) 0 = N := by
  unfold Schedule.expect Schedule.amountOf; rw [duties_recv m c hd, Finset.sum_singleton, amount_recv m c hd]

theorem payload_bar (e : Fin 8) : (Rd (F := F) m).payload (barCell c) 0 e = barPay c e := by dsimp only [Rd]; rw [kindOf_bar]
include hd in
theorem payload_send (e : Fin 8) : (Rd (F := F) m).payload (sendCell c d) 0 e = sendPay m c d := by dsimp only [Rd]; rw [kindOf_send hd]
include hd in
theorem payload_recv (e : Fin 8) : (Rd (F := F) m).payload (recvCell c d) 0 e = recvPay m c d := by dsimp only [Rd]; rw [kindOf_recv hd]

/-- The rest of the barrier cell's round, no duty taken: the seven devices' slots. -/
theorem rest_bar : bigSep ((Rd (F := F) m).duties (barCell c) 0 \ ∅) (fun e => (Rd (F := F) m).payload (barCell c) 0 e) = bigSep ds (fun e => barPay (F := F) c e) := by
  rw [Finset.sdiff_empty, duties_bar]; exact bigSep_congr fun e _ => payload_bar m c e
include hd in
theorem rest_send : bigSep ((Rd (F := F) m).duties (sendCell c d) 0 \ ∅) (fun e => (Rd (F := F) m).payload (sendCell c d) 0 e) = sendPay m c d := by
  rw [Finset.sdiff_empty, duties_send m c hd, bigSep_singleton, payload_send m c hd]
include hd in
theorem rest_recv : bigSep ((Rd (F := F) m).duties (recvCell c d) 0 \ ∅) (fun e => (Rd (F := F) m).payload (recvCell c d) 0 e) = recvPay m c d := by
  rw [Finset.sdiff_empty, duties_recv m c hd, bigSep_singleton, payload_recv m c hd]

end Sched

/-! ## What each core owes at launch; the levels -/

/-- The row's credit device `c` owes the receive cell `d` of `peer c d`, and the unit it owes that device's barrier. -/
def Rt (c : Dev nD) (d : Fin 8) : CellTallies nD τ sig Unit := tallyAt (recvCell (peer c d) d) () N
def Bt (c : Dev nD) (d : Fin 8) : CellTallies nD τ sig Unit := tallyAt (barCell (peer c d)) () 1

/-- What a device owes once it has signalled: the seven rows' credit, summed so that the transfer of offset 1 peels the
    last summand, that of offset 2 the one before, and so on. -/
def OR (c : Dev nD) : CellTallies nD τ sig Unit := 0 + Rt c 7 + Rt c 6 + Rt c 5 + Rt c 4 + Rt c 3 + Rt c 2 + Rt c 1
/-- What it owes at launch: that and the seven barrier units, the signal of offset 1 peeling the last summand. -/
def O₀ (c : Dev nD) : CellTallies nD τ sig Unit := OR c + Bt c 7 + Bt c 6 + Bt c 5 + Bt c 4 + Bt c 3 + Bt c 2 + Bt c 1

theorem ds_eq : ds = ({1, 2, 3, 4, 5, 6, 7} : Finset (Fin 8)) := by decide

/-- The same as a sum over the offsets. -/
theorem O₀_eq_sum (c : Dev nD) : O₀ c = ∑ d ∈ ds, (Rt c d + Bt c d) := by
  rw [ds_eq]
  simp only [Finset.sum_insert, Finset.mem_insert, Finset.mem_singleton, Finset.sum_singleton, Fin.reduceEq, or_self, not_false_eq_true]
  unfold O₀ OR
  abel

def L (g : GSem nD τ sig) : Finset Unit := if g.1.2 = .tc then {()} else ∅
/-- barrier cells at 1, receive cells at 2, everything else (staging, send) at 0. -/
def lv (g : GSem nD τ sig) (_ : Unit) : ℕ := match kindOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; rw [kindOf_bar]
theorem lv_recv (c : Dev nD) {d : Fin 8} (hd : d ≠ 0) (u : Unit) : lv (recvCell c d) u = 2 := by unfold lv; rw [kindOf_recv hd]

/-- Where the seven rows' credit is positive: at a receive cell of a used offset. -/
theorem OR_pos {c : Dev nD} {g : GSem nD τ sig} {u : Unit} (h : 0 < OR c g u) : ∃ d : Fin 8, d ≠ 0 ∧ g = recvCell (peer c d) d := by
  unfold OR at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  · exact absurd h (Nat.lt_irrefl 0)
  all_goals first
    | exact ⟨7, by decide, (Pipeline.tallyAt_pos h).1⟩ | exact ⟨6, by decide, (Pipeline.tallyAt_pos h).1⟩
    | exact ⟨5, by decide, (Pipeline.tallyAt_pos h).1⟩ | exact ⟨4, by decide, (Pipeline.tallyAt_pos h).1⟩
    | exact ⟨3, by decide, (Pipeline.tallyAt_pos h).1⟩ | exact ⟨2, by decide, (Pipeline.tallyAt_pos h).1⟩
    | exact ⟨1, by decide, (Pipeline.tallyAt_pos h).1⟩

theorem O₀_pos {c : Dev nD} {g : GSem nD τ sig} {u : Unit} (h : 0 < O₀ c g u) :
    ∃ d : Fin 8, d ≠ 0 ∧ (g = recvCell (peer c d) d ∨ g = barCell (peer c d)) := by
  rw [O₀_eq_sum] at h
  obtain ⟨d, hd, h⟩ := Pipeline.sum_pos_exists h
  refine ⟨d, (Finset.mem_erase.mp hd).1, ?_⟩
  rcases Pipeline.add_pos_cases h with h | h
  · exact .inl (Pipeline.tallyAt_pos h).1
  · exact .inr (Pipeline.tallyAt_pos h).1

omit [FloatOps F] in
/-- A wait on a cell at level 0 (a staging cell, a send cell) is below everything a device may owe. -/
theorem mayWait_low (c : Dev nD) (sm : SemLoc sig) (hq : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (by rw [L_tc]; exact Finset.mem_singleton_self _) fun g u hg => ?_
    obtain ⟨d, hd, rfl | rfl⟩ := O₀_pos hg
    · exact ⟨by rw [L_tc]; exact Finset.mem_singleton_self _, by rw [hq, lv_recv _ hd]; decide⟩
    · exact ⟨by rw [L_tc]; exact Finset.mem_singleton_self _, by rw [hq, lv_bar]; decide⟩
  · rw [MayWait_zero]; iintro -; iempintro

omit [FloatOps F] in
/-- At its barrier wait a device owes rows' credit only: receive cells, above its barrier cell. -/
theorem mayWait_bar (c : Dev nD) : (levAts L lv : sProp 𝕄) ⊢ MayWait (c : Thread nD τ) (.reg barS) () (OR c) :=
  Pipeline.mayWait_of_levAts (by rw [L_tc]; exact Finset.mem_singleton_self _) fun g u hg => by
    obtain ⟨d, hd, rfl⟩ := OR_pos hg
    exact ⟨by rw [L_tc]; exact Finset.mem_singleton_self _, by rw [lv_bar, lv_recv _ hd]; decide⟩

/-! ## The ghost state -/

/-- The cells of one device, as the launch indexes them: the barrier, the eight send, the eight receive. -/
abbrev CI : Type := Unit ⊕ (Fin 8 ⊕ Fin 8)
abbrev csem : CI → SemLoc sig
  | .inl _ => .reg barS
  | .inr (.inl d) => .dma (sendQ d)
  | .inr (.inr d) => .dma (recvQ d)
abbrev kcell (ck : Dev nD × CI) : GSem nD τ sig := ((ck.1 : Thread nD τ), csem ck.2)
abbrev kBar : CI := .inl ()
abbrev kSend (d : Fin 8) : CI := .inr (.inl d)
abbrev kRecv (d : Fin 8) : CI := .inr (.inr d)

/-- Every cell's invariant, under the names `K` the launch allocated them at, and that every cell stands at round 0 or
    later: persistent, so every device has all of it. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) : records m K ⊢ cellInv ER (Rd m) (K ck) (kcell ck) := by
  unfold records
  exact Laws.sep_and.trans (and_elimL.trans (bigSep_elim (Φ := fun ck : Dev nD × CI => (cellInv ER (Rd m) (K ck) (kcell ck) : sProp 𝕄)) (Finset.mem_univ ck)))
theorem reached_at (K : Dev nD × CI → ℕ) (ck : Dev nD × CI) : records m K ⊢ reached ER (kcell ck) 0 := by
  unfold records
  exact Laws.sep_and.trans (and_elimR.trans (bigSep_elim (Φ := fun ck : Dev nD × CI => (reached ER (kcell ck) 0 : sProp 𝕄)) (Finset.mem_univ ck)))

/-- Where device `c` stands on its own cells. -/
def positions (c : Dev nD) : sProp 𝕄 :=
  iprop(atPos ER (barCell c) 0 ∅ 0 ∗ (bigSep Finset.univ fun d : Fin 8 => atPos ER (sendCell c d) 0 ∅ 0)
    ∗ (bigSep Finset.univ fun d : Fin 8 => atPos ER (recvCell c d) 0 ∅ 0))

/-- The tokens of the duties device `c` pays: on the barrier of `peer c d` the duty `neg d` (it is `neg d` places after
    that device), on the receive cell `d` of `peer c d` and on its own send cell `d` the duty `0`. -/
def payToks (c : Dev nD) : sProp 𝕄 :=
  iprop((bigSep ds fun d => dutyTok ER (barCell (peer c d)) 0 (neg d)) ∗ (bigSep ds fun d => dutyTok ER (recvCell (peer c d) d) 0 (0 : Fin 8))
    ∗ (bigSep ds fun d => dutyTok ER (sendCell c d) 0 (0 : Fin 8)))

def ghost (K : Dev nD × CI → ℕ) (c : Dev nD) : sProp 𝕄 := iprop(records m K ∗ positions c ∗ payToks c)

/-- What device `c`'s body starts from: that at some names, its credit tokens (its barrier's seven units, a row's credit on
    each receive cell) and the level facts. -/
def start (c : Dev nD) : sProp 𝕄 :=
  iprop((∃ K, ghost m K c) ∗ cred (tallyAt (barCell c) () 7) ∗ (bigSep ds fun d => cred (tallyAt (recvCell c d) () N)) ∗ levAts L lv)

/-- The table, whole, at some contents. -/
def tblAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ tblAny c)
/-- After the point: the table back whole, the sixteen own cells at zero, closed. -/
def Φ₁ (c : Dev nD) : sProp 𝕄 :=
  iprop(tblAny (F := F) c ∗ (bigSep Finset.univ fun d : Fin 8 => semVal (sendCell c d) 0) ∗ (bigSep Finset.univ fun d : Fin 8 => semVal (recvCell c d) 0))

/-! ## The pipeline's proof data -/

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m c
    | ⟨1, _⟩ => outAt (xstg m) c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

end Cert.KernelIdeal.Proto

end
-- ==== Proof.Slots.lean ====
/-
  Pure facts about the table of eight slots and the views the kernel reads and writes it through: the slots
  partition the table, a whole-buffer access at zero offsets reads and writes the whole buffer, the store of a
  device's own row sum fills slot 0 of its table, and slot 0 of a sender landing on slot d of the device d places
  after it is that receiver's table there.
-/
import proofs.«900956_g7700000000000957_dist_mean_ax0_shard0_i_m512_n256_v7x_i8_bf16_1_alg».proof.Proof.Mem
import Idealize.ShloMosaic.Signature.View
import Idealize.ShloMosaic.Signature.Memref
import Idealize.ShloMosaic.Lib.Pipeline.Value

set_option maxRecDepth 16384

noncomputable section

namespace Cert.KernelIdeal.Slots

open Cert.KernelIdeal Cert.KernelIdeal.Gen Cert.KernelIdeal.Spec Cert.KernelIdeal.Mem
open Idealize.ShloMosaic Idealize.ShloMosaic.TcCoe Idealize.SL.Sem

variable {F : FTy → Type} [FloatOps F]

/-! ## The slots partition the table -/

/-- Two different slots share no index: an index's leading coordinate names its slot. -/
theorem K_disjoint {d d' : Fin 8} (h : d ≠ d') : Disjoint (K d) (K d') := by
  rw [Finset.disjoint_left]
  intro i hi hi'
  rw [mem_K] at hi hi'
  exact h (Fin.ext (hi.symm.trans hi'))

/-- Every index of the table lies in the slot its leading coordinate names. -/
theorem K_cover : (Finset.univ : Finset (Fin 8)).biUnion K = (Finset.univ : Finset S8x1x256.Idx) := by
  ext i
  simp only [Finset.mem_biUnion, Finset.mem_univ, true_and, iff_true]
  exact ⟨i 0, (mem_K (i 0) i).mpr rfl⟩

/-! ## Whole-buffer reads and writes -/

theorem hz3 : (![0, 0, 0] : Fin 3 → Nat) = fun _ => 0 := funext fun a => by fin_cases a <;> rfl
theorem hz2 : (![0, 0] : Fin 2 → Nat) = fun _ => 0 := funext fun a => by fin_cases a <;> rfl

omit [FloatOps F] in
/-- A load of the whole table returns the table. -/
theorem read_comm (f : Vec F S8x1x256 .f32) :
    (cM : Memref sig .tc .vmem S8x1x256 .f32).view.readAt (Elt F)
      (Rect.unit (s := S8x1x256) ![0, 0, 0] S8x1x256.size inb_S8x1x256_S8x1x256_0_0_0).toLoadRect f = f :=
  Memref.readAt_unit_zero (Elt F) cc0_scratch0 hz3 _ f

omit [FloatOps F] in
/-- A load of the whole input block returns the block. -/
theorem read_x (f : Vec F S512x256 .f32) :
    (xM : Memref sig .tc .vmem S512x256 .f32).view.readAt (Elt F)
      (Rect.unit (s := S512x256) ![0, 0] S512x256.size inb_S512x256_S512x256_0_0).toLoadRect f = f :=
  Memref.readAt_unit_zero (Elt F) cc0_stg0_0 hz2 _ f

omit [FloatOps F] in
/-- An unmasked store over the whole result row leaves the stored row. -/
theorem write_out (f w : Vec F S1x256 .f32) :
    ((oM : Memref sig .tc .vmem S1x256 .f32).access
        (Rect.unit (s := S1x256) ![0, 0] S1x256.size inb_S1x256_S1x256_0_0) : View sig .tc _ _ _).write (Elt F) f w Finset.univ = w :=
  Memref.write_access_unit_zero_univ (Elt F) cc0_stg1_0 hz2 _ f w

/-! ## An index of the table and its place inside its slot -/

/-- Slot `d`'s rectangle places the in-slot index `y` at `d` on the leading axis and at `y`'s own
    coordinates on the other two. -/
theorem emb_val (d : Fin 8) (y : S1x1x256.Idx) (a : Fin 3) :
    (((slotR d).emb y) a : Nat) = (![d.val, 0, 0] : Fin 3 → Nat) a + (y a).val := by
  rw [Rect.emb_apply]
  simp only [Rect.off_unit, Rect.stride_unit, Nat.one_mul]

/-- The placed index lies in slot `d`, -/
theorem emb_zero (d : Fin 8) (y : S1x1x256.Idx) : ((slotR d).emb y) 0 = d := by
  apply Fin.ext
  have h : (((slotR d).emb y) 0 : Nat) = d.val + (y 0).val := emb_val d y 0
  have h0 : (y 0).val < 1 := (y 0).isLt
  show (((slotR d).emb y) 0 : Nat) = d.val
  omega

/-- and read inside its slot it is `y` again. -/
theorem low_emb (d : Fin 8) (y : S1x1x256.Idx) : low ((slotR d).emb y) = y := by
  funext a
  apply Fin.ext
  fin_cases a
  · have h0 : (y 0).val < 1 := (y 0).isLt
    show (0 : Nat) = (y 0).val
    omega
  · have h : (((slotR d).emb y) 1 : Nat) = 0 + (y 1).val := emb_val d y 1
    show (((slotR d).emb y) 1 : Nat) = (y 1).val
    omega
  · have h : (((slotR d).emb y) 2 : Nat) = 0 + (y 2).val := emb_val d y 2
    show (((slotR d).emb y) 2 : Nat) = (y 2).val
    omega

/-- An index of slot `d` is where the rectangle places its in-slot reading. -/
theorem emb_low (d : Fin 8) {i : S8x1x256.Idx} (hi : i ∈ K d) : (slotR d).emb (low i) = i := by
  rw [mem_K] at hi
  funext a
  apply Fin.ext
  fin_cases a
  · have h : (((slotR d).emb (low i)) 0 : Nat) = d.val + 0 := emb_val d (low i) 0
    show (((slotR d).emb (low i)) 0 : Nat) = (i 0).val
    omega
  · have h : (((slotR d).emb (low i)) 1 : Nat) = 0 + (i 1).val := emb_val d (low i) 1
    show (((slotR d).emb (low i)) 1 : Nat) = (i 1).val
    omega
  · have h : (((slotR d).emb (low i)) 2 : Nat) = 0 + (i 2).val := emb_val d (low i) 2
    show (((slotR d).emb (low i)) 2 : Nat) = (i 2).val
    omega

/-! ## The store into slot 0 -/

/-- A device's own row sum, stored unmasked over slot 0 of its table, is its table there: slot 0 of device `c`
    holds the row sum of `src c 0 = c`. -/
theorem store_slot0 (xs : Dev nD → Vec F S512x256 .f32) (c : Dev nD) (f : Vec F S8x1x256 .f32)
    {i : S8x1x256.Idx} (hi : i ∈ K 0) :
    ((cM : Memref sig .tc .vmem S8x1x256 .f32).access (slotR 0) : View sig .tc _ _ _).write (Elt F) f
        (k0_pay1 (xs c)) Finset.univ i = commAt xs c i := by
  have he : ((cM : Memref sig .tc .vmem S8x1x256 .f32).access (slotR 0) : View sig .tc _ _ _).emb (low i) = i :=
    emb_low 0 hi
  have hw := View.write_emb_of_mem (v := ((cM : Memref sig .tc .vmem S8x1x256 .f32).access (slotR 0) : View sig .tc _ _ _))
    (Val := Elt F) f (k0_pay1 (xs c)) (M := Finset.univ) (x := low i) (Finset.mem_univ _)
  rw [he] at hw
  rw [hw]
  have hs : src c (i 0) = c := by
    have h0 : (i 0 : Fin 8) = (0 : Fin 8) := Fin.ext ((mem_K 0 i).mp hi)
    exact (congrArg (src c) h0).trans (src_zero c)
  show k0_pay1 (xs c) (low i) = k0_pay1 (xs (src c (i 0))) (low i)
  rw [hs]

/-- The same fact with slot 0's rectangle spelt by its literal offsets. -/
theorem store_slot0_lit (xs : Dev nD → Vec F S512x256 .f32) (c : Dev nD) (f : Vec F S8x1x256 .f32)
    {i : S8x1x256.Idx} (hi : i ∈ K 0) :
    ((cM : Memref sig .tc .vmem S8x1x256 .f32).access
        (Rect.unit (s := S8x1x256) ![0, 0, 0] S1x1x256.size inb_S8x1x256_S1x1x256_0_0_0) : View sig .tc _ _ _).write (Elt F) f
        (k0_pay1 (xs c)) Finset.univ i = commAt xs c i :=
  store_slot0 xs c f hi

/-! ## The landing -/

/-- Slot 0 of the sender `c`, landed on slot `d` of the device `d` places after it, is that receiver's table
    there: both are the row sum of `c`'s block, since `c` is the device `d` places before `peer c d`. -/
theorem landing (xs : Dev nD → Vec F S512x256 .f32) (c : Dev nD) (d : Fin 8) (fd : Vec F S8x1x256 .f32)
    {i : S8x1x256.Idx} (hi : i ∈ K d) :
    (slotM d).view.write (Elt F) fd ((slotM 0).view.read (Elt F) (commAt xs c)) Finset.univ i
      = commAt xs (peer c d) i := by
  -- the one-row index matched with `i`'s in-slot reading (row-major numbering of the two shapes agrees)
  obtain ⟨z, hz⟩ : ∃ z : S1x256.Idx, Shape.reshapeEquiv squeezes_S1x1x256_S1x256.numel_eq z = low i :=
    ⟨(Shape.reshapeEquiv squeezes_S1x1x256_S1x256.numel_eq).symm (low i), Equiv.apply_symm_apply _ _⟩
  have he : (slotM d).view.emb z = i := by
    show (slotR d).emb (Shape.reshapeEquiv squeezes_S1x1x256_S1x256.numel_eq z) = i
    rw [hz]; exact emb_low d hi
  have he0 : (slotM 0).view.emb z = (slotR 0).emb (low i) := by
    show (slotR 0).emb (Shape.reshapeEquiv squeezes_S1x1x256_S1x256.numel_eq z) = _
    rw [hz]
  have hw := View.write_emb_of_mem (v := (slotM d).view) (Val := Elt F) fd
    ((slotM 0).view.read (Elt F) (commAt xs c)) (M := Finset.univ) (x := z) (Finset.mem_univ _)
  rw [he] at hw
  rw [hw, View.read_apply, he0]
  have hd : i 0 = d := Fin.ext ((mem_K d i).mp hi)
  show k0_pay1 (xs (src c (((slotR 0).emb (low i)) 0))) (low ((slotR 0).emb (low i)))
    = k0_pay1 (xs (src (peer c d) (i 0))) (low i)
  rw [emb_zero, low_emb, src_zero, hd, src_peer]

end Cert.KernelIdeal.Slots

end
-- ==== Proof.TblMem.lean ====
/-
  The table's memory, cut and rejoined. A device's table is one buffer of eight slots; the protocol holds it slot by
  slot, and slot 0 share by share (one read share per transfer that reads it, and the share the device keeps). Here
  are the cuts and the joins: the whole table into its eight slots, slot 0 into its read shares, the whole table at
  the one kept read share out of what the device holds while its transfers fly (and the way back), and everything
  rejoined at the end.
-/
import proofs.«900956_g7700000000000957_dist_mean_ax0_shard0_i_m512_n256_v7x_i8_bf16_1_alg».proof.Proof.Proto
import proofs.«900956_g7700000000000957_dist_mean_ax0_shard0_i_m512_n256_v7x_i8_bf16_1_alg».proof.Proof.Slots
import Idealize.ShloMosaic.Rules.PointsTo
import Idealize.ShloMosaic.Lib.Transfers
import Idealize.ShloMosaic.Lib.Pipeline.Kit

set_option maxRecDepth 16384

noncomputable section

namespace Cert.KernelIdeal.TblMem

open Cert.KernelIdeal Cert.KernelIdeal.Gen Cert.KernelIdeal.Spec Cert.KernelIdeal.Mem Cert.KernelIdeal.Proto
open Cert.KernelIdeal.Slots
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The location of device `c`'s table. -/
abbrev ℓt (c : Dev nD) : Loc nD τ sig := (c : Thread nD τ).loc cc0_scratch0

/-! ## Accesses to slot 0 through the whole table's memref stay inside slot 0 -/

/-- A load of slot 0's rectangle through the whole table reads only slot 0's elements. -/
theorem load_slot0_sub :
    (cM : Memref sig .tc .vmem S8x1x256 .f32).view.setOn
        (Rect.unit (s := S8x1x256) ![0, 0, 0] S1x1x256.size inb_S8x1x256_S1x1x256_0_0_0).toLoadRect.set
      ⊆ (slotM 0).view.set := by
  rw [slot_set]
  intro i hi
  obtain ⟨x, hx, rfl⟩ := Finset.mem_map.mp hi
  exact hx

/-- An unmasked store over slot 0's rectangle through the whole table writes only slot 0's elements. -/
theorem store_slot0_sub :
    ((cM : Memref sig .tc .vmem S8x1x256 .f32).access
        (Rect.unit (s := S8x1x256) ![0, 0, 0] S1x1x256.size inb_S8x1x256_S1x1x256_0_0_0) : View sig .tc _ _ _).setOn Finset.univ
      ⊆ (slotM 0).view.set := by
  rw [slot_set, View.setOn_univ]
  show ((View.whole cc0_scratch0).slice
    (Rect.unit (s := S8x1x256) ![0, 0, 0] S1x1x256.size inb_S8x1x256_S1x1x256_0_0_0)).set ⊆ K 0
  rw [View.set_slice_whole]
  exact subset_rfl

/-! ## Separating conjunctions over the offsets, written out -/

omit [FloatOps F] in
theorem bigSep_ds (Φ : Fin 8 → sProp 𝕄) : bigSep ds Φ = iprop(Φ 1 ∗ Φ 2 ∗ Φ 3 ∗ Φ 4 ∗ Φ 5 ∗ Φ 6 ∗ Φ 7) := by
  rw [ds_eq, bigSep_insert (by decide), bigSep_insert (by decide), bigSep_insert (by decide), bigSep_insert (by decide),
    bigSep_insert (by decide), bigSep_insert (by decide), bigSep_singleton]
  rfl

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## Slots as element sets of the one buffer -/

omit [FloatOps F] in
/-- Slot `d` held whole is the table's buffer held on the indices of slot `d`. -/
theorem slotPts_eq (c : Dev nD) (d : Fin 8) (f : Buf (Elt F) (ℓt c)) :
    (slotPts c d f : sProp 𝕄) = (ℓt c ↦[K d]{fullShare} f) := by
  unfold slotPts
  rw [slot_set]

/-- Slot 0 at the read share of offset `d`, the same way. -/
theorem srcPts_eq (c : Dev nD) (d : Fin 8) :
    (srcPts m c d : sProp 𝕄) = (ℓt c ↦[K 0]{qTok d} tbl m c) := by
  unfold srcPts
  rw [slot_set]

omit [FloatOps F] in
/-- The whole table at any share is slot 0 and the seven other slots at that share. -/
theorem tbl_cut (c : Dev nD) (q : PosShare TreeShare) (g : Buf (Elt F) (ℓt c)) :
    (ℓt c ↦[Finset.univ]{q} g : sProp 𝕄) = iprop((ℓt c ↦[K 0]{q} g) ∗ bigSep ds fun d => ℓt c ↦[K d]{q} g) := by
  refine Eq.trans (congrArg (fun S => (ℓt c ↦[S]{q} g : sProp 𝕄)) ?_)
    ((pointsTo_biUnion (ℓ := ℓt c) (q := q) (f := g) (Finset.univ : Finset (Fin 8)) K
      (fun t _ t' _ hne => K_disjoint hne)).trans ?_)
  · symm
    ext i
    simp only [Finset.mem_biUnion, Finset.mem_univ, true_and, iff_true]
    exact ⟨i 0, (mem_K (i 0) i).mpr rfl⟩
  · rw [bigSep_univ_split (0 : Fin 8)]
    rfl

omit [FloatOps F] in
/-- A slot held whole is its kept read share and its eight read shares. -/
theorem slot_keep (c : Dev nD) (d : Fin 8) (f : Buf (Elt F) (ℓt c)) :
    (ℓt c ↦[K d]{fullShare} f : sProp 𝕄)
      = iprop((ℓt c ↦[K d]{qKeep} f) ∗ bigSep Finset.univ fun i : Fin 8 => ℓt c ↦[K d]{qTok i} f) := by
  have h : (ℓt c ↦[K d]{fullShare} f : sProp 𝕄)
      ⊣⊢ iprop((ℓt c ↦[K d]{qKeep} f) ∗ bigSep Finset.univ fun i : Fin 8 => ℓt c ↦[K d]{qTok i} f) :=
    Transfers.pointsTo_toks fullShare 8
  exact BI.equiv_iff.mp ⟨h.1, h.2⟩

omit [FloatOps F] in
/-- Slot 0 held whole is the kept read share, the read share of offset 0 (which no transfer uses), and the seven
    read shares the transfers are lent. -/
theorem slot0_shares (c : Dev nD) (f : Buf (Elt F) (ℓt c)) :
    (ℓt c ↦[K 0]{fullShare} f : sProp 𝕄)
      = iprop((ℓt c ↦[K 0]{qKeep} f) ∗ (ℓt c ↦[K 0]{qTok 0} f) ∗ bigSep ds fun d => ℓt c ↦[K 0]{qTok d} f) := by
  rw [slot_keep c 0 f, bigSep_univ_split (0 : Fin 8)]
  rfl

/-! ## The table cut into its eight slots -/

omit [FloatOps F] in
theorem begin0 (c : Dev nD) (g : Buf (Elt F) (ℓt c)) :
    (ℓt c ↦{fullShare} g : sProp 𝕄) ⊢ iprop(slotPts c 0 g ∗ bigSep ds fun d => slotPts c d g) := by
  refine Entails.of_eq ?_
  rw [bigSep_congr (fun d _ => slotPts_eq c d g), slotPts_eq]
  exact tbl_cut c fullShare g

/-! ## Slot 0's read shares -/

theorem lend0 (c : Dev nD) :
    (slotPts c 0 (tbl m c) : sProp 𝕄)
      ⊢ iprop((ℓt c ↦[K 0]{qKeep} tbl m c) ∗ (ℓt c ↦[K 0]{qTok 0} tbl m c) ∗ bigSep ds fun d => srcPts m c d) := by
  refine Entails.of_eq ?_
  rw [bigSep_congr (fun d _ => srcPts_eq m c d), slotPts_eq]
  exact slot0_shares c (tbl m c)

/-! ## While the transfers fly -/

/-- What a device holds of its table while its transfers fly: of slot 0 the kept read share and the read share of
    offset 0 (which no transfer uses), and the seven other slots whole. -/
def Held (c : Dev nD) : sProp 𝕄 :=
  iprop((ℓt c ↦[K 0]{qKeep} tbl m c) ∗ (ℓt c ↦[K 0]{qTok 0} tbl m c) ∗ bigSep ds fun d => slotPts c d (tbl m c))

/-- What stays behind while the whole table is read at the kept read share: slot 0's unused read share and the
    eight read shares of each other slot. -/
def Rest (c : Dev nD) : sProp 𝕄 :=
  iprop((ℓt c ↦[K 0]{qTok 0} tbl m c)
    ∗ bigSep ds fun d => bigSep Finset.univ fun i : Fin 8 => ℓt c ↦[K d]{qTok i} tbl m c)

/-- Each of the slots 1 to 7 cut into its kept read share and its eight read shares, the eight kept parts gathered
    over the partition of the table. -/
theorem Held_split (c : Dev nD) : Held m c ⊢ iprop((ℓt c ↦[Finset.univ]{qKeep} tbl m c) ∗ Rest m c) := by
  unfold Held Rest
  rw [bigSep_congr (fun d _ => (slotPts_eq c d (tbl m c)).trans (slot_keep c d (tbl m c))), bigSep_sep',
    tbl_cut c qKeep (tbl m c)]
  iintro ⟨A, B, X, Y⟩
  isplitl [A X]
  · isplitl [A]; · iexact A
    iexact X
  · isplitl [B]; · iexact B
    iexact Y

/-- And back. -/
theorem Held_join (c : Dev nD) : iprop((ℓt c ↦[Finset.univ]{qKeep} tbl m c) ∗ Rest m c) ⊢ Held m c := by
  unfold Held Rest
  rw [bigSep_congr (fun d _ => (slotPts_eq c d (tbl m c)).trans (slot_keep c d (tbl m c))), bigSep_sep',
    tbl_cut c qKeep (tbl m c)]
  iintro ⟨⟨A, X⟩, B, Y⟩
  isplitl [A]; · iexact A
  isplitl [B]; · iexact B
  isplitl [X]; · iexact X
  iexact Y

/-- The whole table at the one kept read share, and the way back. -/
theorem load_open (c : Dev nD) :
    Held m c ⊢ iprop((ℓt c ↦[Finset.univ]{qKeep} tbl m c) ∗ ((ℓt c ↦[Finset.univ]{qKeep} tbl m c) -∗ Held m c)) := by
  refine (Held_split m c).trans ?_
  iintro ⟨HW, HR⟩
  isplitl [HW]; · iexact HW
  iintro HW
  iapply (Held_join m c)
  isplitl [HW]; · iexact HW
  iexact HR

/-! ## Everything back -/

/-- Slot 0's shares rejoined, then the eight slots. -/
theorem finish (c : Dev nD) :
    iprop(Held m c ∗ bigSep ds fun d => srcPts m c d) ⊢ (ℓt c ↦{fullShare} tbl m c : sProp 𝕄) := by
  unfold Held
  rw [bigSep_congr (fun d _ => srcPts_eq m c d), bigSep_congr (fun d _ => slotPts_eq c d (tbl m c)),
    tbl_cut c fullShare (tbl m c), slot0_shares c (tbl m c)]
  iintro ⟨⟨A, B, S⟩, R⟩
  isplitl [A B R]
  · isplitl [A]; · iexact A
    isplitl [B]; · iexact B
    iexact R
  · iexact S

end Cert.KernelIdeal.TblMem

end
-- ==== Proof.Body.lean ====
/-
  One device's body, stepped once at a symbolic device `c` of the ring of eight.
  In program order: it tells each of the seven other devices, on that device's barrier cell, that it is inside the kernel,
  and with each of these signals hands over the one slot of its table that device will write; it sums the rows of its block
  into slot 0; it waits until the seven others have told it the same, which brings it their slots; it sends slot 0 into slot
  `d` of the device `d` places after it, lending each of the seven transfers one read share of slot 0; it waits for the seven
  rows addressed to it, after which slot `d` holds the row sum of the device `d` places before it; it reads the whole table
  through the read share it kept, sums the eight slots, scales and stores the result; it waits for its own seven transfers,
  which returns the read shares; and it hands the table back whole with its sixteen own semaphores at zero.
  A transfer is one rule of the rounds discipline stated at a variable offset `d` (`wp_snd`), the program's text its
  instances at the literal offsets; the signals and the waits are read off the schedule's tables, stated as equations with
  the table's entry on the left.
-/
import proofs.«900956_g7700000000000957_dist_mean_ax0_shard0_i_m512_n256_v7x_i8_bf16_1_alg».proof.Proof.Proto
import proofs.«900956_g7700000000000957_dist_mean_ax0_shard0_i_m512_n256_v7x_i8_bf16_1_alg».proof.Proof.Slots
import proofs.«900956_g7700000000000957_dist_mean_ax0_shard0_i_m512_n256_v7x_i8_bf16_1_alg».proof.Proof.TblMem
import proofs.«900956_g7700000000000957_dist_mean_ax0_shard0_i_m512_n256_v7x_i8_bf16_1_alg».proof.Proof.Gen.KernelIdeal.Skeleton
import Idealize.ShloMosaic.Lib.Tactic

set_option maxRecDepth 65536

noncomputable section

namespace Cert.KernelIdeal.Body

open Cert.KernelIdeal Cert.KernelIdeal.Gen Cert.KernelIdeal.Spec Cert.KernelIdeal.Mem Cert.KernelIdeal.Proto Cert.KernelIdeal.Slots Cert.KernelIdeal.TblMem
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 1 := Fin.ext (k0_dev8_eq c)
theorem dev9_eq (c : Dev nD) : (⟨k0_dev9 c, k0_dev9_lt c⟩ : Dev nD) = peer c 2 := Fin.ext (k0_dev9_eq c)
theorem dev10_eq (c : Dev nD) : (⟨k0_dev10 c, k0_dev10_lt c⟩ : Dev nD) = peer c 3 := Fin.ext (k0_dev10_eq c)
theorem dev11_eq (c : Dev nD) : (⟨k0_dev11 c, k0_dev11_lt c⟩ : Dev nD) = peer c 4 := Fin.ext (k0_dev11_eq c)
theorem dev12_eq (c : Dev nD) : (⟨k0_dev12 c, k0_dev12_lt c⟩ : Dev nD) = peer c 5 := Fin.ext (k0_dev12_eq c)
theorem dev13_eq (c : Dev nD) : (⟨k0_dev13 c, k0_dev13_lt c⟩ : Dev nD) = peer c 6 := Fin.ext (k0_dev13_eq c)
theorem dev14_eq (c : Dev nD) : (⟨k0_dev14 c, k0_dev14_lt c⟩ : Dev nD) = peer c 7 := Fin.ext (k0_dev14_eq c)

/-! ## The point, the windows -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The transfer, at a variable offset -/
/-- The transfer of slot `0` into slot `d` of `peer c d`: the read share `d` of slot 0 is lent until the send cell's round
    is waited for, and slot `d` of the receiver lands holding the receiver's final table there. -/
theorem wp_snd (K : Dev nD × CI → ℕ) (c : Dev nD) (d : Fin 8) (hd : d ≠ 0) (n : Dev nD) (hn : n = peer c d)
    {hsc : (slotM d : Memref sig (Dev.tc n : Thread nD τ).2.kind .vmem S1x256 .f32).view.ref.isScScratch = false}
    {hsrc : (slotM 0 : Memref sig .tc .vmem S1x256 .f32).view.WordExact} {hdst : (slotM d : Memref sig .tc .vmem S1x256 .f32).view.WordExact}
    {hsem : DmaTarget.Typed .vmem (.dma (recvQ d)) (.remote (Dev.tc n : Thread nD τ) (slotM d : Memref sig .tc .vmem S1x256 .f32) (.dma (sendQ d)) hsc)}
    {α : Type} {Q : α → sProp 𝕄} {k : PUnit → Prog (TpuEff nD τ sig (Elt F) Λ₀ .tc) α}
    (fn : Buf (Elt F) ((slotM d).view.loc (peer c d : Thread nD τ))) (O : CellTallies nD τ sig Unit) (W : Waits sig Unit) :
    iprop(records m K ∗ srcPts m c d ∗ slotPts (peer c d) d fn ∗ owes (c : Thread nD τ) (O + Rt c d) W
        ∗ dutyTok ER (sendCell c d) 0 (0 : Fin 8) ∗ dutyTok ER (recvCell (peer c d) d) 0 (0 : Fin 8))
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM d) (.dma (sendQ d)) hsc) (.dma (recvQ d)) hsrc hdst hsem) k) Q) := by
  subst hn
  unfold srcPts slotPts
  refine BIBase.Entails.trans ?_ (Rounds.wp_send_pointsTo 𝒱₀ ER (Rd m) (c : Thread nD τ) none (c' := (peer c d : Thread nD τ))
    (src := slotM 0) (dst := slotM d) (q := qTok d) (fs := tbl m c) (κ₁ := K (c, kSend d)) (κ₂ := K (peer c d, kRecv d))
    (r₁ := 0) (r₂ := 0) (d₁ := 0) (d₂ := 0) (fd := fn)
    (by rw [duties_send m c hd]; exact Finset.mem_singleton_self _) (by rw [duties_recv m (peer c d) hd]; exact Finset.mem_singleton_self _)
    () () N rfl (amount_send m c hd 0) (amount_recv m (peer c d) hd 0) O rfl (W := W)
    (by rw [payload_send m c hd]; unfold sendPay srcPts; exact BI.Entails.refl _)
    (by
      rw [payload_recv m (peer c d) hd]; unfold recvPay slotPts
      exact Entails.of_eq (pointsTo_congr fun i hi => landing (xstg m) c d fn (slot_set d ▸ hi))))
  iintro ⟨#HR, Hsrc, Hdst, HO, Ht1, Ht2⟩
  isplitr; · iapply (inv_at m K (c, kSend d)); iexact HR
  isplitr; · iapply (inv_at m K (peer c d, kRecv d)); iexact HR
  isplitl [Hsrc]; · iexact Hsrc
  isplitl [Hdst]; · iexact Hdst
  isplitl [HO]; · iexact HO
  isplitl [Ht1]; · iexact Ht1
  isplitr; · iapply (reached_at m K (c, kSend d)); iexact HR
  isplitl [Ht2]; · iexact Ht2
  iapply (reached_at m K (peer c d, kRecv d)); iexact HR

/-- Slot 0 once the row sum is stored: it holds the final table there. -/
theorem slot0_stored (c : Dev nD) (f0 : Buf (Elt F) ((slotM 0).view.loc (c : Thread nD τ))) :
    ((slotM 0).view.loc (c : Thread nD τ)
        ↦[(slotM 0).view.set]{fullShare}
          (((cM : Memref sig .tc .vmem S8x1x256 .f32).access (Rect.unit (s := S8x1x256) ![0, 0, 0] S1x1x256.size inb_S8x1x256_S1x1x256_0_0_0) : View sig .tc _ _ _).write (Elt F) f0 (k0_pay1 (xstg m c)) Finset.univ) : sProp 𝕄)
      ⊢ slotPts c 0 (tbl m c) := by
  unfold slotPts
  exact Entails.of_eq (pointsTo_congr fun i hi => store_slot0_lit (xstg m) c f0 (slot_set 0 ▸ hi))

omit [FloatOps F] in
/-- The one store over the whole result row, as a one-piece list of writes, leaves the stored row. -/
theorem writes_out (f w : Vec F S1x256 .f32) :
    (oM : Memref sig .tc .vmem S1x256 .f32).view.writes (Elt F) f
      [⟨Rect.unit (s := S1x256) ![0, 0] S1x256.size inb_S1x256_S1x256_0_0, w⟩] = w :=
  write_out f w

/-! ## The cells' invariants and marks by name, and the schedule's tables as equations with the entry on the left -/

attribute [local sl_canon] dev1_eq dev2_eq dev3_eq dev4_eq dev5_eq dev6_eq dev7_eq

theorem neg1 : neg 1 = 7 := by decide
theorem neg2 : neg 2 = 6 := by decide
theorem neg3 : neg 3 = 5 := by decide
theorem neg4 : neg 4 = 4 := by decide
theorem neg5 : neg 5 = 3 := by decide
theorem neg6 : neg 6 = 2 := by decide
theorem neg7 : neg 7 = 1 := by decide

section Tables
variable (K : Dev nD × CI → ℕ)

theorem inv_bar (p : Dev nD) : records m K ⊢ cellInv ER (Rd m) (K (p, kBar)) (barCell p) := inv_at m K (p, kBar)
theorem inv_send (c : Dev nD) (d : Fin 8) : records m K ⊢ cellInv ER (Rd m) (K (c, kSend d)) (sendCell c d) := inv_at m K (c, kSend d)
theorem inv_recv (p : Dev nD) (d : Fin 8) : records m K ⊢ cellInv ER (Rd m) (K (p, kRecv d)) (recvCell p d) := inv_at m K (p, kRecv d)
theorem reached_bar (p : Dev nD) : records m K ⊢ reached ER (barCell p) 0 := reached_at m K (p, kBar)
theorem reached_recv (p : Dev nD) (d : Fin 8) : records m K ⊢ reached ER (recvCell p d) 0 := reached_at m K (p, kRecv d)

/-- A barrier cell's duties, listed. -/
theorem duties_barL (p : Dev nD) : (Rd (F := F) m).duties (barCell p) 0 = ({1, 2, 3, 4, 5, 6, 7} : Finset (Fin 8)) := (duties_bar m p).trans ds_eq

/-- What the device `e` places after `p` hands `p` with its signal, that device named `q`. -/
theorem barPay_at (p q : Dev nD) (e : Fin 8) (h : peer p e = q) :
    barPay (F := F) p e = iprop((∃ f, (slotM e).view.loc (q : Thread nD τ) ↦[(slotM e).view.set]{fullShare} f) ∗ reached ER (recvCell q e) 0) := by
  subst h; rfl

/-- The payload of duty `e` on device `c`'s own barrier cell. -/
theorem pay_own (c : Dev nD) (e : Fin 8) : (Rd (F := F) m).payload (barCell c) 0 e
    = iprop((∃ f, (slotM e).view.loc (peer c e : Thread nD τ) ↦[(slotM e).view.set]{fullShare} f) ∗ reached ER (recvCell (peer c e) e) 0) :=
  (payload_bar m c e).trans (barPay_at _ _ e rfl)
-- The payload of the duty device `c` pays on the barrier cell of `peer c d`: the payer is `c` itself.
theorem pay1 (c : Dev nD) : (Rd (F := F) m).payload (barCell (peer c 1)) 0 7
    = iprop((∃ f, (slotM 7).view.loc (c : Thread nD τ) ↦[(slotM 7).view.set]{fullShare} f) ∗ reached ER (recvCell c 7) 0) :=
  (payload_bar m (peer c 1) 7).trans (barPay_at _ _ 7 (peer_peer_neg c 1))
theorem pay2 (c : Dev nD) : (Rd (F := F) m).payload (barCell (peer c 2)) 0 6
    = iprop((∃ f, (slotM 6).view.loc (c : Thread nD τ) ↦[(slotM 6).view.set]{fullShare} f) ∗ reached ER (recvCell c 6) 0) :=
  (payload_bar m (peer c 2) 6).trans (barPay_at _ _ 6 (peer_peer_neg c 2))
theorem pay3 (c : Dev nD) : (Rd (F := F) m).payload (barCell (peer c 3)) 0 5
    = iprop((∃ f, (slotM 5).view.loc (c : Thread nD τ) ↦[(slotM 5).view.set]{fullShare} f) ∗ reached ER (recvCell c 5) 0) :=
  (payload_bar m (peer c 3) 5).trans (barPay_at _ _ 5 (peer_peer_neg c 3))
theorem pay4 (c : Dev nD) : (Rd (F := F) m).payload (barCell (peer c 4)) 0 4
    = iprop((∃ f, (slotM 4).view.loc (c : Thread nD τ) ↦[(slotM 4).view.set]{fullShare} f) ∗ reached ER (recvCell c 4) 0) :=
  (payload_bar m (peer c 4) 4).trans (barPay_at _ _ 4 (peer_peer_neg c 4))
theorem pay5 (c : Dev nD) : (Rd (F := F) m).payload (barCell (peer c 5)) 0 3
    = iprop((∃ f, (slotM 3).view.loc (c : Thread nD τ) ↦[(slotM 3).view.set]{fullShare} f) ∗ reached ER (recvCell c 3) 0) :=
  (payload_bar m (peer c 5) 3).trans (barPay_at _ _ 3 (peer_peer_neg c 5))
theorem pay6 (c : Dev nD) : (Rd (F := F) m).payload (barCell (peer c 6)) 0 2
    = iprop((∃ f, (slotM 2).view.loc (c : Thread nD τ) ↦[(slotM 2).view.set]{fullShare} f) ∗ reached ER (recvCell c 2) 0) :=
  (payload_bar m (peer c 6) 2).trans (barPay_at _ _ 2 (peer_peer_neg c 6))
theorem pay7 (c : Dev nD) : (Rd (F := F) m).payload (barCell (peer c 7)) 0 1
    = iprop((∃ f, (slotM 1).view.loc (c : Thread nD τ) ↦[(slotM 1).view.set]{fullShare} f) ∗ reached ER (recvCell c 1) 0) :=
  (payload_bar m (peer c 7) 1).trans (barPay_at _ _ 1 (peer_peer_neg c 7))

-- The send and receive cells' tables at the seven offsets in use.
theorem dsend1 (c : Dev nD) : (Rd (F := F) m).duties (sendCell c 1) 0 = {0} := duties_send m c (by decide)
theorem drecv1 (p : Dev nD) : (Rd (F := F) m).duties (recvCell p 1) 0 = {0} := duties_recv m p (by decide)
theorem asend1 (c : Dev nD) (e : Fin 8) : (Rd (F := F) m).amount (sendCell c 1) 0 e = N := amount_send m c (by decide) e
theorem arecv1 (p : Dev nD) (e : Fin 8) : (Rd (F := F) m).amount (recvCell p 1) 0 e = N := amount_recv m p (by decide) e
theorem esend1 (c : Dev nD) : (Rd (F := F) m).expect (sendCell c 1) 0 = N := expect_send m c (by decide)
theorem erecv1 (p : Dev nD) : (Rd (F := F) m).expect (recvCell p 1) 0 = N := expect_recv m p (by decide)
theorem psend1 (c : Dev nD) (e : Fin 8) : (Rd (F := F) m).payload (sendCell c 1) 0 e
    = ((slotM 0).view.loc (c : Thread nD τ) ↦[(slotM 0).view.set]{qTok 1} tbl m c) := payload_send m c (by decide) e
theorem precv1 (p : Dev nD) (e : Fin 8) : (Rd (F := F) m).payload (recvCell p 1) 0 e
    = ((slotM 1).view.loc (p : Thread nD τ) ↦[(slotM 1).view.set]{fullShare} tbl m p) := payload_recv m p (by decide) e
theorem dsend2 (c : Dev nD) : (Rd (F := F) m).duties (sendCell c 2) 0 = {0} := duties_send m c (by decide)
theorem drecv2 (p : Dev nD) : (Rd (F := F) m).duties (recvCell p 2) 0 = {0} := duties_recv m p (by decide)
theorem asend2 (c : Dev nD) (e : Fin 8) : (Rd (F := F) m).amount (sendCell c 2) 0 e = N := amount_send m c (by decide) e
theorem arecv2 (p : Dev nD) (e : Fin 8) : (Rd (F := F) m).amount (recvCell p 2) 0 e = N := amount_recv m p (by decide) e
theorem esend2 (c : Dev nD) : (Rd (F := F) m).expect (sendCell c 2) 0 = N := expect_send m c (by decide)
theorem erecv2 (p : Dev nD) : (Rd (F := F) m).expect (recvCell p 2) 0 = N := expect_recv m p (by decide)
theorem psend2 (c : Dev nD) (e : Fin 8) : (Rd (F := F) m).payload (sendCell c 2) 0 e
    = ((slotM 0).view.loc (c : Thread nD τ) ↦[(slotM 0).view.set]{qTok 2} tbl m c) := payload_send m c (by decide) e
theorem precv2 (p : Dev nD) (e : Fin 8) : (Rd (F := F) m).payload (recvCell p 2) 0 e
    = ((slotM 2).view.loc (p : Thread nD τ) ↦[(slotM 2).view.set]{fullShare} tbl m p) := payload_recv m p (by decide) e
theorem dsend3 (c : Dev nD) : (Rd (F := F) m).duties (sendCell c 3) 0 = {0} := duties_send m c (by decide)
theorem drecv3 (p : Dev nD) : (Rd (F := F) m).duties (recvCell p 3) 0 = {0} := duties_recv m p (by decide)
theorem asend3 (c : Dev nD) (e : Fin 8) : (Rd (F := F) m).amount (sendCell c 3) 0 e = N := amount_send m c (by decide) e
theorem arecv3 (p : Dev nD) (e : Fin 8) : (Rd (F := F) m).amount (recvCell p 3) 0 e = N := amount_recv m p (by decide) e
theorem esend3 (c : Dev nD) : (Rd (F := F) m).expect (sendCell c 3) 0 = N := expect_send m c (by decide)
theorem erecv3 (p : Dev nD) : (Rd (F := F) m).expect (recvCell p 3) 0 = N := expect_recv m p (by decide)
theorem psend3 (c : Dev nD) (e : Fin 8) : (Rd (F := F) m).payload (sendCell c 3) 0 e
    = ((slotM 0).view.loc (c : Thread nD τ) ↦[(slotM 0).view.set]{qTok 3} tbl m c) := payload_send m c (by decide) e
theorem precv3 (p : Dev nD) (e : Fin 8) : (Rd (F := F) m).payload (recvCell p 3) 0 e
    = ((slotM 3).view.loc (p : Thread nD τ) ↦[(slotM 3).view.set]{fullShare} tbl m p) := payload_recv m p (by decide) e
theorem dsend4 (c : Dev nD) : (Rd (F := F) m).duties (sendCell c 4) 0 = {0} := duties_send m c (by decide)
theorem drecv4 (p : Dev nD) : (Rd (F := F) m).duties (recvCell p 4) 0 = {0} := duties_recv m p (by decide)
theorem asend4 (c : Dev nD) (e : Fin 8) : (Rd (F := F) m).amount (sendCell c 4) 0 e = N := amount_send m c (by decide) e
theorem arecv4 (p : Dev nD) (e : Fin 8) : (Rd (F := F) m).amount (recvCell p 4) 0 e = N := amount_recv m p (by decide) e
theorem esend4 (c : Dev nD) : (Rd (F := F) m).expect (sendCell c 4) 0 = N := expect_send m c (by decide)
theorem erecv4 (p : Dev nD) : (Rd (F := F) m).expect (recvCell p 4) 0 = N := expect_recv m p (by decide)
theorem psend4 (c : Dev nD) (e : Fin 8) : (Rd (F := F) m).payload (sendCell c 4) 0 e
    = ((slotM 0).view.loc (c : Thread nD τ) ↦[(slotM 0).view.set]{qTok 4} tbl m c) := payload_send m c (by decide) e
theorem precv4 (p : Dev nD) (e : Fin 8) : (Rd (F := F) m).payload (recvCell p 4) 0 e
    = ((slotM 4).view.loc (p : Thread nD τ) ↦[(slotM 4).view.set]{fullShare} tbl m p) := payload_recv m p (by decide) e
theorem dsend5 (c : Dev nD) : (Rd (F := F) m).duties (sendCell c 5) 0 = {0} := duties_send m c (by decide)
theorem drecv5 (p : Dev nD) : (Rd (F := F) m).duties (recvCell p 5) 0 = {0} := duties_recv m p (by decide)
theorem asend5 (c : Dev nD) (e : Fin 8) : (Rd (F := F) m).amount (sendCell c 5) 0 e = N := amount_send m c (by decide) e
theorem arecv5 (p : Dev nD) (e : Fin 8) : (Rd (F := F) m).amount (recvCell p 5) 0 e = N := amount_recv m p (by decide) e
theorem esend5 (c : Dev nD) : (Rd (F := F) m).expect (sendCell c 5) 0 = N := expect_send m c (by decide)
theorem erecv5 (p : Dev nD) : (Rd (F := F) m).expect (recvCell p 5) 0 = N := expect_recv m p (by decide)
theorem psend5 (c : Dev nD) (e : Fin 8) : (Rd (F := F) m).payload (sendCell c 5) 0 e
    = ((slotM 0).view.loc (c : Thread nD τ) ↦[(slotM 0).view.set]{qTok 5} tbl m c) := payload_send m c (by decide) e
theorem precv5 (p : Dev nD) (e : Fin 8) : (Rd (F := F) m).payload (recvCell p 5) 0 e
    = ((slotM 5).view.loc (p : Thread nD τ) ↦[(slotM 5).view.set]{fullShare} tbl m p) := payload_recv m p (by decide) e
theorem dsend6 (c : Dev nD) : (Rd (F := F) m).duties (sendCell c 6) 0 = {0} := duties_send m c (by decide)
theorem drecv6 (p : Dev nD) : (Rd (F := F) m).duties (recvCell p 6) 0 = {0} := duties_recv m p (by decide)
theorem asend6 (c : Dev nD) (e : Fin 8) : (Rd (F := F) m).amount (sendCell c 6) 0 e = N := amount_send m c (by decide) e
theorem arecv6 (p : Dev nD) (e : Fin 8) : (Rd (F := F) m).amount (recvCell p 6) 0 e = N := amount_recv m p (by decide) e
theorem esend6 (c : Dev nD) : (Rd (F := F) m).expect (sendCell c 6) 0 = N := expect_send m c (by decide)
theorem erecv6 (p : Dev nD) : (Rd (F := F) m).expect (recvCell p 6) 0 = N := expect_recv m p (by decide)
theorem psend6 (c : Dev nD) (e : Fin 8) : (Rd (F := F) m).payload (sendCell c 6) 0 e
    = ((slotM 0).view.loc (c : Thread nD τ) ↦[(slotM 0).view.set]{qTok 6} tbl m c) := payload_send m c (by decide) e
theorem precv6 (p : Dev nD) (e : Fin 8) : (Rd (F := F) m).payload (recvCell p 6) 0 e
    = ((slotM 6).view.loc (p : Thread nD τ) ↦[(slotM 6).view.set]{fullShare} tbl m p) := payload_recv m p (by decide) e
theorem dsend7 (c : Dev nD) : (Rd (F := F) m).duties (sendCell c 7) 0 = {0} := duties_send m c (by decide)
theorem drecv7 (p : Dev nD) : (Rd (F := F) m).duties (recvCell p 7) 0 = {0} := duties_recv m p (by decide)
theorem asend7 (c : Dev nD) (e : Fin 8) : (Rd (F := F) m).amount (sendCell c 7) 0 e = N := amount_send m c (by decide) e
theorem arecv7 (p : Dev nD) (e : Fin 8) : (Rd (F := F) m).amount (recvCell p 7) 0 e = N := amount_recv m p (by decide) e
theorem esend7 (c : Dev nD) : (Rd (F := F) m).expect (sendCell c 7) 0 = N := expect_send m c (by decide)
theorem erecv7 (p : Dev nD) : (Rd (F := F) m).expect (recvCell p 7) 0 = N := expect_recv m p (by decide)
theorem psend7 (c : Dev nD) (e : Fin 8) : (Rd (F := F) m).payload (sendCell c 7) 0 e
    = ((slotM 0).view.loc (c : Thread nD τ) ↦[(slotM 0).view.set]{qTok 7} tbl m c) := payload_send m c (by decide) e
theorem precv7 (p : Dev nD) (e : Fin 8) : (Rd (F := F) m).payload (recvCell p 7) 0 e
    = ((slotM 7).view.loc (p : Thread nD τ) ↦[(slotM 7).view.set]{fullShare} tbl m p) := payload_recv m p (by decide) e

omit [FloatOps F] in
/-- The staged block, held through its whole memref's location. -/
theorem hold_x (c : Dev nD) (f : Buf (Elt F) ((c : Thread nD τ).loc cc0_stg0_0)) :
    (((c : Thread nD τ).loc cc0_stg0_0) ↦{fullShare} f : sProp 𝕄) ⊢ ((xM).view.loc (c : Thread nD τ) ↦{fullShare} f) := BI.Entails.refl _
omit [FloatOps F] in
theorem hold_o (c : Dev nD) (f : Buf (Elt F) ((c : Thread nD τ).loc cc0_stg1_0)) :
    (((c : Thread nD τ).loc cc0_stg1_0) ↦{fullShare} f : sProp 𝕄) ⊢ ((oM).view.loc (c : Thread nD τ) ↦{fullShare} f) := BI.Entails.refl _
omit [FloatOps F] in
theorem held_x (c : Dev nD) (f : Buf (Elt F) ((c : Thread nD τ).loc cc0_stg0_0)) :
    ((xM).view.loc (c : Thread nD τ) ↦{fullShare} f : sProp 𝕄) ⊢ (((c : Thread nD τ).loc cc0_stg0_0) ↦{fullShare} f) := BI.Entails.refl _
omit [FloatOps F] in
theorem held_o (c : Dev nD) (f : Buf (Elt F) ((c : Thread nD τ).loc cc0_stg1_0)) :
    ((oM).view.loc (c : Thread nD τ) ↦{fullShare} f : sProp 𝕄) ⊢ (((c : Thread nD τ).loc cc0_stg1_0) ↦{fullShare} f) := BI.Entails.refl _

omit [FloatOps F] in
/-- A chain of seven, re-bracketed. -/
theorem chain7 (A1 A2 A3 A4 A5 A6 A7 : sProp 𝕄) :
    BI.sep A1 (BI.sep A2 (BI.sep A3 (BI.sep A4 (BI.sep A5 (BI.sep A6 A7))))) ⊢ iprop(A1 ∗ A2 ∗ A3 ∗ A4 ∗ A5 ∗ A6 ∗ A7) := BI.Entails.refl _

omit [FloatOps F] in
/-- The table cut into its eight slots, the last slot first. -/
theorem begin7 (c : Dev nD) (g : Buf (Elt F) (ℓt c)) :
    (ℓt c ↦{fullShare} g : sProp 𝕄) ⊢ iprop(slotPts c 7 g ∗ slotPts c 6 g ∗ slotPts c 5 g ∗ slotPts c 4 g ∗ slotPts c 3 g ∗ slotPts c 2 g ∗ slotPts c 1 g ∗ slotPts c 0 g) := by
  refine (begin0 c g).trans ?_
  rw [bigSep_ds]
  iintro ⟨H0, H1, H2, H3, H4, H5, H6, H7⟩
  isplitl [H7]; · iexact H7
  isplitl [H6]; · iexact H6
  isplitl [H5]; · iexact H5
  isplitl [H4]; · iexact H4
  isplitl [H3]; · iexact H3
  isplitl [H2]; · iexact H2
  isplitl [H1]; · iexact H1
  iexact H0

end Tables

attribute [local sl_rounds] duties_barL amount_bar expect_bar pay_own dsend1 drecv1 asend1 arecv1 esend1 erecv1 psend1 precv1 dsend2 drecv2 asend2 arecv2 esend2 erecv2 psend2 precv2 dsend3 drecv3 asend3 arecv3 esend3 erecv3 psend3 precv3 dsend4 drecv4 asend4 arecv4 esend4 erecv4 psend4 precv4 dsend5 drecv5 asend5 arecv5 esend5 erecv5 psend5 precv5 dsend6 drecv6 asend6 arecv6 esend6 erecv6 psend6 precv6 dsend7 drecv7 asend7 arecv7 esend7 erecv7 psend7 precv7
attribute [local sl_rounds high] pay1 pay2 pay3 pay4 pay5 pay6 pay7

/-! ## The body -/

section Body

variable (K : Dev nD × CI → ℕ)

def bodyPre (c : Dev nD) : sProp 𝕄 :=
  iprop((ghost m K c ∗ cred (tallyAt (barCell c) () 7) ∗ (bigSep ds fun d => cred (tallyAt (recvCell c d) () N)) ∗ levAts L lv ∗ tblAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m c) ∗ stg c cc0_stg1_0 (outAt (xstg m) c))

/-- After the point the device owes nothing, whatever waits it has recorded. -/
theorem owes_done (c : Dev nD) (W' : Waits sig Unit) : owes (c : Thread nD τ) 0 W' ⊢ (dats m ρ 0 c).owesAt () t₀.succ := by
  unfold Dat.owesAt Pipeline.owesWithin
  rw [show (dats m ρ 0 c).owed t₀.succ = 0 from rfl]
  iintro HO
  iexists W'
  isplitr; · ipureintro; exact fun _ _ => Or.inl trivial
  iexact HO

set_option maxHeartbeats 8000000 in
/-- The body on device `c`, in program order: the seven signals (each hands one slot of the table to the device that will
    write it), the row sum stored into slot 0, the wait for the seven peers' units (their slots come with it), the seven
    transfers (each lent one read share of slot 0), the seven receive waits (the slots come back holding the peers' row
    sums), the table read whole at the share the device kept, the result stored, the seven send waits (the read shares come
    back), the sixteen own cells closed and the table put together again. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre ghost positions payToks tblAny
  simp only [bigSep_ds, bigSep_fin8, neg1, neg2, neg3, neg4, neg5, neg6, neg7]
  iintro ⟨⟨⟨⟨#HR, ⟨HatB, ⟨HaS0, HaS1, HaS2, HaS3, HaS4, HaS5, HaS6, HaS7⟩, ⟨HaV0, HaV1, HaV2, HaV3, HaV4, HaV5, HaV6, HaV7⟩⟩, ⟨⟨HtB1, HtB2, HtB3, HtB4, HtB5, HtB6, HtB7⟩, ⟨HtV1, HtV2, HtV3, HtV4, HtV5, HtV6, HtV7⟩, ⟨HtS1, HtS2, HtS3, HtS4, HtS5, HtS6, HtS7⟩⟩⟩, HcB, ⟨HcV1, HcV2, HcV3, HcV4, HcV5, HcV6, HcV7⟩, #Hlev, ⟨%f0, Htbl⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ Bt
  -- the table cut into its eight slots
  ihave Hs := (begin7 c f0) $$ Htbl
  icases Hs with ⟨Hs7, Hs6, Hs5, Hs4, Hs3, Hs2, Hs1, Hs0⟩
  -- the seven peers' barrier invariants and reached marks, this device's own, and its receive cells' marks
  ihave #HIb1 := (inv_bar m K (peer c 1)) $$ HR
  ihave #Hrb1 := (reached_bar m K (peer c 1)) $$ HR
  ihave #Hrv1 := (reached_recv m K c 1) $$ HR
  ihave #HIb2 := (inv_bar m K (peer c 2)) $$ HR
  ihave #Hrb2 := (reached_bar m K (peer c 2)) $$ HR
  ihave #Hrv2 := (reached_recv m K c 2) $$ HR
  ihave #HIb3 := (inv_bar m K (peer c 3)) $$ HR
  ihave #Hrb3 := (reached_bar m K (peer c 3)) $$ HR
  ihave #Hrv3 := (reached_recv m K c 3) $$ HR
  ihave #HIb4 := (inv_bar m K (peer c 4)) $$ HR
  ihave #Hrb4 := (reached_bar m K (peer c 4)) $$ HR
  ihave #Hrv4 := (reached_recv m K c 4) $$ HR
  ihave #HIb5 := (inv_bar m K (peer c 5)) $$ HR
  ihave #Hrb5 := (reached_bar m K (peer c 5)) $$ HR
  ihave #Hrv5 := (reached_recv m K c 5) $$ HR
  ihave #HIb6 := (inv_bar m K (peer c 6)) $$ HR
  ihave #Hrb6 := (reached_bar m K (peer c 6)) $$ HR
  ihave #Hrv6 := (reached_recv m K c 6) $$ HR
  ihave #HIb7 := (inv_bar m K (peer c 7)) $$ HR
  ihave #Hrb7 := (reached_bar m K (peer c 7)) $$ HR
  ihave #Hrv7 := (reached_recv m K c 7) $$ HR
  ihave #HIb0 := (inv_bar m K c) $$ HR
  unfold slotPts
  ihave Hx := (hold_x c _) $$ Hx
  ihave Hout := (hold_o c _) $$ Hout
  have hmw := mayWait_bar (F := F) c
  -- the seven signals (to the barrier of `peer c d`, handing over slot `8 - d`), the block loaded, slot 0 loaded and
  -- overwritten with the block's row sum, the wait for the seven units on its own barrier owing the seven rows' credit
  sl_exec
  -- slot 0 holds the final table there
  sl_unfold_run_names
  rw [read_x]
  ihave Hs0 := (slot0_stored m c f0) $$ Hs0
  -- the seven peers' slots, out of the barrier round's payloads
  ihave Hp := (chain7 _ _ _ _ _ _ _) $$ HatB_pay1
  icases Hp with ⟨⟨⟨%fn1, Hn1⟩, -⟩, ⟨⟨%fn2, Hn2⟩, -⟩, ⟨⟨%fn3, Hn3⟩, -⟩, ⟨⟨%fn4, Hn4⟩, -⟩, ⟨⟨%fn5, Hn5⟩, -⟩, ⟨⟨%fn6, Hn6⟩, -⟩, ⟨⟨%fn7, Hn7⟩, -⟩⟩
  -- slot 0's read shares
  ihave H0 := (lend0 m c) $$ Hs0
  rw [bigSep_ds]
  icases H0 with ⟨Hk0, Hq0, Hsr1, Hsr2, Hsr3, Hsr4, Hsr5, Hsr6, Hsr7⟩
  unfold OR
  -- the seven transfers
  iapply (wp_snd m K c 1 (by decide) _ (dev8_eq c) fn1 _ _) $$ [HO Hsr1 Hn1 HtS1 HtV1]
  · unfold slotPts srcPts
    isplitr; · iexact HR
    isplitl [Hsr1]; · iexact Hsr1
    isplitl [Hn1]; · iexact Hn1
    isplitl [HO]; · iexact HO
    isplitl [HtS1]; · iexact HtS1
    iexact HtV1
  iintro ⟨HcS1, HO⟩
  iapply (wp_snd m K c 2 (by decide) _ (dev9_eq c) fn2 _ _) $$ [HO Hsr2 Hn2 HtS2 HtV2]
  · unfold slotPts srcPts
    isplitr; · iexact HR
    isplitl [Hsr2]; · iexact Hsr2
    isplitl [Hn2]; · iexact Hn2
    isplitl [HO]; · iexact HO
    isplitl [HtS2]; · iexact HtS2
    iexact HtV2
  iintro ⟨HcS2, HO⟩
  iapply (wp_snd m K c 3 (by decide) _ (dev10_eq c) fn3 _ _) $$ [HO Hsr3 Hn3 HtS3 HtV3]
  · unfold slotPts srcPts
    isplitr; · iexact HR
    isplitl [Hsr3]; · iexact Hsr3
    isplitl [Hn3]; · iexact Hn3
    isplitl [HO]; · iexact HO
    isplitl [HtS3]; · iexact HtS3
    iexact HtV3
  iintro ⟨HcS3, HO⟩
  iapply (wp_snd m K c 4 (by decide) _ (dev11_eq c) fn4 _ _) $$ [HO Hsr4 Hn4 HtS4 HtV4]
  · unfold slotPts srcPts
    isplitr; · iexact HR
    isplitl [Hsr4]; · iexact Hsr4
    isplitl [Hn4]; · iexact Hn4
    isplitl [HO]; · iexact HO
    isplitl [HtS4]; · iexact HtS4
    iexact HtV4
  iintro ⟨HcS4, HO⟩
  iapply (wp_snd m K c 5 (by decide) _ (dev12_eq c) fn5 _ _) $$ [HO Hsr5 Hn5 HtS5 HtV5]
  · unfold slotPts srcPts
    isplitr; · iexact HR
    isplitl [Hsr5]; · iexact Hsr5
    isplitl [Hn5]; · iexact Hn5
    isplitl [HO]; · iexact HO
    isplitl [HtS5]; · iexact HtS5
    iexact HtV5
  iintro ⟨HcS5, HO⟩
  iapply (wp_snd m K c 6 (by decide) _ (dev13_eq c) fn6 _ _) $$ [HO Hsr6 Hn6 HtS6 HtV6]
  · unfold slotPts srcPts
    isplitr; · iexact HR
    isplitl [Hsr6]; · iexact Hsr6
    isplitl [Hn6]; · iexact Hn6
    isplitl [HO]; · iexact HO
    isplitl [HtS6]; · iexact HtS6
    iexact HtV6
  iintro ⟨HcS6, HO⟩
  iapply (wp_snd m K c 7 (by decide) _ (dev14_eq c) fn7 _ _) $$ [HO Hsr7 Hn7 HtS7 HtV7]
  · unfold slotPts srcPts
    isplitr; · iexact HR
    isplitl [Hsr7]; · iexact Hsr7
    isplitl [Hn7]; · iexact Hn7
    isplitl [HO]; · iexact HO
    isplitl [HtS7]; · iexact HtS7
    iexact HtV7
  iintro ⟨HcS7, HO⟩
  -- the seven receive waits: slot `d` comes back holding the final table there
  ihave #HIv1 := (inv_recv m K c 1) $$ HR
  ihave #HIv2 := (inv_recv m K c 2) $$ HR
  ihave #HIv3 := (inv_recv m K c 3) $$ HR
  ihave #HIv4 := (inv_recv m K c 4) $$ HR
  ihave #HIv5 := (inv_recv m K c 5) $$ HR
  ihave #HIv6 := (inv_recv m K c 6) $$ HR
  ihave #HIv7 := (inv_recv m K c 7) $$ HR
  sl_exec
  -- the table read whole, at the share the device kept
  ihave HH := (load_open m c) $$ [Hk0 Hq0 HaV1_pay1 HaV2_pay1 HaV3_pay1 HaV4_pay1 HaV5_pay1 HaV6_pay1 HaV7_pay1]
  · unfold Held slotPts; rw [bigSep_ds]
    isplitl [Hk0]; · iexact Hk0
    isplitl [Hq0]; · iexact Hq0
    isplitl [HaV1_pay1]; · iexact HaV1_pay1
    isplitl [HaV2_pay1]; · iexact HaV2_pay1
    isplitl [HaV3_pay1]; · iexact HaV3_pay1
    isplitl [HaV4_pay1]; · iexact HaV4_pay1
    isplitl [HaV5_pay1]; · iexact HaV5_pay1
    isplitl [HaV6_pay1]; · iexact HaV6_pay1
    iexact HaV7_pay1
  icases HH with ⟨Hall, Hback⟩
  iapply (wp_load 𝒱₀ (c : Thread nD τ) none Set.univ (m := cM) (Finset.subset_univ _)) $$ Hall; iintro Hall
  rw [read_comm]
  ihave HH := Hback $$ Hall
  -- the result row loaded and stored, and the seven send waits: the read shares of slot 0 come back
  ihave #HIs1 := (inv_send m K c 1) $$ HR
  ihave #HIs2 := (inv_send m K c 2) $$ HR
  ihave #HIs3 := (inv_send m K c 3) $$ HR
  ihave #HIs4 := (inv_send m K c 4) $$ HR
  ihave #HIs5 := (inv_send m K c 5) $$ HR
  ihave #HIs6 := (inv_send m K c 6) $$ HR
  ihave #HIs7 := (inv_send m K c 7) $$ HR
  sl_exec
  rw [writes_out]
  ihave Hx := (held_x c _) $$ Hx
  ihave Hout := (held_o c _) $$ Hout
  -- the sixteen own cells close
  imod (Rounds.cell_close ER (Rd m) (Set.mem_univ (K (c, kSend 0))) (fun h => h) (R := 0) (fun r _ => duties_send0 m c r)) $$ [HaS0] with HzS0
  · isplitr; · iapply (inv_at m K (c, kSend 0)); iexact HR
    iexact HaS0
  imod (Rounds.cell_close ER (Rd m) (Set.mem_univ (K (c, kSend 1))) (fun h => h) (R := 1) (duties_later m (sendCell c 1))) $$ [HaS1] with HzS1
  · isplitr; · iapply (inv_at m K (c, kSend 1)); iexact HR
    iexact HaS1
  imod (Rounds.cell_close ER (Rd m) (Set.mem_univ (K (c, kSend 2))) (fun h => h) (R := 1) (duties_later m (sendCell c 2))) $$ [HaS2] with HzS2
  · isplitr; · iapply (inv_at m K (c, kSend 2)); iexact HR
    iexact HaS2
  imod (Rounds.cell_close ER (Rd m) (Set.mem_univ (K (c, kSend 3))) (fun h => h) (R := 1) (duties_later m (sendCell c 3))) $$ [HaS3] with HzS3
  · isplitr; · iapply (inv_at m K (c, kSend 3)); iexact HR
    iexact HaS3
  imod (Rounds.cell_close ER (Rd m) (Set.mem_univ (K (c, kSend 4))) (fun h => h) (R := 1) (duties_later m (sendCell c 4))) $$ [HaS4] with HzS4
  · isplitr; · iapply (inv_at m K (c, kSend 4)); iexact HR
    iexact HaS4
  imod (Rounds.cell_close ER (Rd m) (Set.mem_univ (K (c, kSend 5))) (fun h => h) (R := 1) (duties_later m (sendCell c 5))) $$ [HaS5] with HzS5
  · isplitr; · iapply (inv_at m K (c, kSend 5)); iexact HR
    iexact HaS5
  imod (Rounds.cell_close ER (Rd m) (Set.mem_univ (K (c, kSend 6))) (fun h => h) (R := 1) (duties_later m (sendCell c 6))) $$ [HaS6] with HzS6
  · isplitr; · iapply (inv_at m K (c, kSend 6)); iexact HR
    iexact HaS6
  imod (Rounds.cell_close ER (Rd m) (Set.mem_univ (K (c, kSend 7))) (fun h => h) (R := 1) (duties_later m (sendCell c 7))) $$ [HaS7] with HzS7
  · isplitr; · iapply (inv_at m K (c, kSend 7)); iexact HR
    iexact HaS7
  imod (Rounds.cell_close ER (Rd m) (Set.mem_univ (K (c, kRecv 0))) (fun h => h) (R := 0) (fun r _ => duties_recv0 m c r)) $$ [HaV0] with HzV0
  · isplitr; · iapply (inv_at m K (c, kRecv 0)); iexact HR
    iexact HaV0
  imod (Rounds.cell_close ER (Rd m) (Set.mem_univ (K (c, kRecv 1))) (fun h => h) (R := 1) (duties_later m (recvCell c 1))) $$ [HaV1] with HzV1
  · isplitr; · iapply (inv_at m K (c, kRecv 1)); iexact HR
    iexact HaV1
  imod (Rounds.cell_close ER (Rd m) (Set.mem_univ (K (c, kRecv 2))) (fun h => h) (R := 1) (duties_later m (recvCell c 2))) $$ [HaV2] with HzV2
  · isplitr; · iapply (inv_at m K (c, kRecv 2)); iexact HR
    iexact HaV2
  imod (Rounds.cell_close ER (Rd m) (Set.mem_univ (K (c, kRecv 3))) (fun h => h) (R := 1) (duties_later m (recvCell c 3))) $$ [HaV3] with HzV3
  · isplitr; · iapply (inv_at m K (c, kRecv 3)); iexact HR
    iexact HaV3
  imod (Rounds.cell_close ER (Rd m) (Set.mem_univ (K (c, kRecv 4))) (fun h => h) (R := 1) (duties_later m (recvCell c 4))) $$ [HaV4] with HzV4
  · isplitr; · iapply (inv_at m K (c, kRecv 4)); iexact HR
    iexact HaV4
  imod (Rounds.cell_close ER (Rd m) (Set.mem_univ (K (c, kRecv 5))) (fun h => h) (R := 1) (duties_later m (recvCell c 5))) $$ [HaV5] with HzV5
  · isplitr; · iapply (inv_at m K (c, kRecv 5)); iexact HR
    iexact HaV5
  imod (Rounds.cell_close ER (Rd m) (Set.mem_univ (K (c, kRecv 6))) (fun h => h) (R := 1) (duties_later m (recvCell c 6))) $$ [HaV6] with HzV6
  · isplitr; · iapply (inv_at m K (c, kRecv 6)); iexact HR
    iexact HaV6
  imod (Rounds.cell_close ER (Rd m) (Set.mem_univ (K (c, kRecv 7))) (fun h => h) (R := 1) (duties_later m (recvCell c 7))) $$ [HaV7] with HzV7
  · isplitr; · iapply (inv_at m K (c, kRecv 7)); iexact HR
    iexact HaV7
  -- the table whole again
  ihave Ht := (finish m c) $$ [HH HaS1_pay1 HaS2_pay1 HaS3_pay1 HaS4_pay1 HaS5_pay1 HaS6_pay1 HaS7_pay1]
  · isplitl [HH]; · iexact HH
    rw [bigSep_ds]; unfold srcPts
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    isplitl [HaS6_pay1]; · iexact HaS6_pay1
    iexact HaS7_pay1
  rw [wp_ret]; imodintro
  iapply Hk
  unfold bodyPost Φ₁ tblAny
  rw [bigSep_fin8, bigSep_fin8]
  isplitl [Ht HzS0 HzS1 HzS2 HzS3 HzS4 HzS5 HzS6 HzS7 HzV0 HzV1 HzV2 HzV3 HzV4 HzV5 HzV6 HzV7]
  · isplitl [Ht]; · iexists _; iexact Ht
    isplitl [HzS0 HzS1 HzS2 HzS3 HzS4 HzS5 HzS6 HzS7]
    ·
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      iexact HzS7
    ·
      isplitl [HzV0]; · iexact HzV0
      isplitl [HzV1]; · iexact HzV1
      isplitl [HzV2]; · iexact HzV2
      isplitl [HzV3]; · iexact HzV3
      isplitl [HzV4]; · iexact HzV4
      isplitl [HzV5]; · iexact HzV5
      isplitl [HzV6]; · iexact HzV6
      iexact HzV7
  isplitl [HO]
  · iapply (owes_done m ρ c _); iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Htb⟩, Ho, Hx, Hout⟩
  iapply (sound_body m ρ K c fun _ => bodyPost m ρ c)
  unfold bodyPre
  isplitr []
  · isplitl [Hg Hrest Htb]
    · isplitl [Hg]; · iexact Hg
      icases Hrest with ⟨H1, H2, H3⟩
      isplitl [H1]; · iexact H1
      isplitl [H2]; · iexact H2
      isplitl [H3]; · iexact H3
      iexact Htb
    isplitl [Ho]; · iexact Ho
    isplitl [Hx] <;> iassumption
  · iintro H; iexact H

end Body

end Cert.KernelIdeal.Body
end
-- ==== Proof.Launch.lean ====
/-
  The launch of the eight devices. Every device is dealt, under one update, the round state of its seventeen cells —
  its barrier cell, its eight send cells and its eight receive cells —, its positions on them, and the duty tokens of
  its own cells; with every device's semaphores at zero each cell's invariant is allocated, and the tokens are dealt
  around the ring to the devices that pay the duties: the barrier token of duty `e` of device `p` to `peer p e`, the
  receive token of offset `d` of `p` to `src p d`, the send tokens stay. What the others owe a device at launch is
  seven units on its barrier and a row's credit on each of its seven receive cells. The run then ends with every
  window's array at the contents the proof data name: the input unchanged, the result row the kernel's value.
-/
import proofs.«900956_g7700000000000957_dist_mean_ax0_shard0_i_m512_n256_v7x_i8_bf16_1_alg».proof.Proof.Proto
import Idealize.ShloMosaic.Lib.Pipeline.Launch
import Idealize.ShloMosaic.Lib.Pipeline.Kit
import Idealize.ShloMosaic.Lib.Tactic

set_option maxRecDepth 16384

noncomputable section

namespace Cert.KernelIdeal.Launch

open Cert.KernelIdeal Cert.KernelIdeal.Gen Cert.KernelIdeal.Spec Cert.KernelIdeal.Mem Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the protocol's cells -/

/-- The kernel's own sixteen semaphores: the eight send and the eight receive. -/
abbrev osem : Fin 8 ⊕ Fin 8 → SemLoc sig
  | .inl d => .dma (sendQ d)
  | .inr d => .dma (recvQ d)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's seventeen cells. -/
def protoCells : Finset (GSem nD τ sig) := Finset.univ.map ⟨kcell, kcell_injective⟩

/-! ## The duty tokens -/

/-- The offsets in use, as a type. -/
abbrev D7 : Type := {d : Fin 8 // d ≠ 0}

/-- A sum over the used offsets is a sum over that type. -/
theorem bigSep_ds (Ψ : Fin 8 → sProp 𝕄) : bigSep ds Ψ = bigSep Finset.univ fun x : D7 => Ψ x.1 :=
  (bigSep_subtype_ne (0 : Fin 8) Ψ).symm

/-- A device's own cells' duty tokens as minted: its barrier's duty `e`, its send cell's and its receive cell's duty
    `0` at offset `d`. -/
abbrev TK : Type := D7 ⊕ (D7 ⊕ D7)
abbrev tokOf (cj : Dev nD × TK) : GSem nD τ sig × ℕ × Fin 8 := match cj.2 with
  | .inl e => (barCell cj.1, 0, e.1)
  | .inr (.inl d) => (sendCell cj.1 d.1, 0, 0)
  | .inr (.inr d) => (recvCell cj.1 d.1, 0, 0)

theorem tokOf_injective : Function.Injective (tokOf : Dev nD × TK → GSem nD τ sig × ℕ × Fin 8) := by
  rintro ⟨c, k⟩ ⟨c', k'⟩ h
  have h1 : c = c' := by
    have := congrArg (fun x : GSem nD τ sig × ℕ × Fin 8 => x.1.1.1) h
    rcases k with e | d | d <;> rcases k' with e' | d' | d' <;> exact this
  subst h1
  have hs := congrArg (fun x : GSem nD τ sig × ℕ × Fin 8 => x.1.2) h
  have hd := congrArg (fun x : GSem nD τ sig × ℕ × Fin 8 => x.2.2) h
  rcases k with e | d | d <;> rcases k' with e' | d' | d'
  · rw [Subtype.ext (show e.1 = e'.1 from hd)]
  · exact absurd (csem_injective (a₁ := kBar) (a₂ := kSend d'.1) hs) (by simp)
  · exact absurd (csem_injective (a₁ := kBar) (a₂ := kRecv d'.1) hs) (by simp)
  · exact absurd (csem_injective (a₁ := kSend d.1) (a₂ := kBar) hs) (by simp)
  · have := csem_injective (a₁ := kSend d.1) (a₂ := kSend d'.1) hs
    rw [Subtype.ext (show d.1 = d'.1 from Sum.inl.inj (Sum.inr.inj this))]
  · exact absurd (csem_injective (a₁ := kSend d.1) (a₂ := kRecv d'.1) hs) (by simp)
  · exact absurd (csem_injective (a₁ := kRecv d.1) (a₂ := kBar) hs) (by simp)
  · exact absurd (csem_injective (a₁ := kRecv d.1) (a₂ := kSend d'.1) hs) (by simp)
  · have := csem_injective (a₁ := kRecv d.1) (a₂ := kRecv d'.1) hs
    rw [Subtype.ext (show d.1 = d'.1 from Sum.inr.inj (Sum.inr.inj this))]

def protoToks : Finset (GSem nD τ sig × ℕ × Fin 8) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep ds fun e => dutyTok ER (barCell c) 0 e) ∗ (bigSep ds fun d => dutyTok ER (sendCell c d) 0 (0 : Fin 8))
    ∗ (bigSep ds fun d => dutyTok ER (recvCell c d) 0 (0 : Fin 8)))

/-- What the launch element deals device `c`. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop(∃ K, ghost m K c)

theorem toks_eq (c : Dev nD) :
    (bigSep Finset.univ fun k : TK => (dutyTok ER (tokOf (c, k)).1 (tokOf (c, k)).2.1 (tokOf (c, k)).2.2 : sProp 𝕄)) = toks c := by
  unfold toks
  rw [bigSep_univ_sum, bigSep_univ_sum, bigSep_ds, bigSep_ds, bigSep_ds]
  rfl

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : CI => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => toks_eq c
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun d : Fin 8 => semVal (sendCell c d) 0) ∗ (bigSep Finset.univ fun d : Fin 8 => semVal (recvCell c d) 0)) := by
  unfold Pipeline.ownSems0; rw [bigSep_univ_sum]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a device's cells: the barrier's, the eight send cells', the eight receive cells'. -/
theorem bigSep_CI (Φ : CI → sProp 𝕄) : bigSep Finset.univ Φ
    = iprop(Φ kBar ∗ (bigSep Finset.univ fun d : Fin 8 => Φ (kSend d)) ∗ (bigSep Finset.univ fun d : Fin 8 => Φ (kRecv d))) := by
  rw [bigSep_univ_sum, bigSep_univ_sum, bigSep_univ_of_subsingleton ()]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 := iprop(positions c ∗ payToks c)

theorem ghost_intro (K : Dev nD × CI → ℕ) (c : Dev nD) : iprop(records m K ∗ linear c) ⊢ G' m c := by
  unfold linear G' ghost
  iintro ⟨HR, HL⟩
  iexists K
  isplitl [HR]; · iexact HR
  iexact HL

/-- Offset `d` as a walk around the ring: forwards, with the walk backwards its inverse. -/
def ringAt (d : Fin 8) : Dev nD ≃ Dev nD := ⟨(peer · d), (src · d), fun c => src_peer c d, fun c => peer_src c d⟩
/-- The offset that undoes a used offset is a used offset. -/
def negD : D7 ≃ D7 := ⟨fun d => ⟨neg d.1, neg_ne_zero d.2⟩, fun d => ⟨neg d.1, neg_ne_zero d.2⟩,
  fun d => Subtype.ext (neg_neg d.1), fun d => Subtype.ext (neg_neg d.1)⟩

/-- The barrier tokens dealt around the ring: the token of duty `neg d` of the barrier of `peer c d` goes to `c`. -/
theorem bar_around :
    (bigSep Finset.univ fun c : Dev nD => bigSep ds fun e => (dutyTok ER (barCell c) 0 e : sProp 𝕄))
      = bigSep Finset.univ fun c : Dev nD => bigSep ds fun d => (dutyTok ER (barCell (peer c d)) 0 (neg d) : sProp 𝕄) := by
  simp only [bigSep_ds]
  rw [bigSep_univ_comm (fun (p : Dev nD) (e : D7) => (dutyTok ER (barCell p) 0 e.1 : sProp 𝕄)),
    bigSep_univ_comm (fun (c : Dev nD) (d : D7) => (dutyTok ER (barCell (peer c d.1)) 0 (neg d.1) : sProp 𝕄)),
    bigSep_univ_equiv negD (fun e : D7 => bigSep Finset.univ fun p : Dev nD => (dutyTok ER (barCell p) 0 e.1 : sProp 𝕄))]
  exact bigSep_congr fun d _ => bigSep_univ_equiv (ringAt d.1) (fun p : Dev nD => (dutyTok ER (barCell p) 0 (neg d.1) : sProp 𝕄))

/-- The receive tokens dealt around the ring: the token of the receive cell `d` of `peer c d` goes to `c`. -/
theorem recv_around :
    (bigSep Finset.univ fun c : Dev nD => bigSep ds fun d => (dutyTok ER (recvCell c d) 0 (0 : Fin 8) : sProp 𝕄))
      = bigSep Finset.univ fun c : Dev nD => bigSep ds fun d => (dutyTok ER (recvCell (peer c d) d) 0 (0 : Fin 8) : sProp 𝕄) := by
  simp only [bigSep_ds]
  rw [bigSep_univ_comm (fun (p : Dev nD) (d : D7) => (dutyTok ER (recvCell p d.1) 0 (0 : Fin 8) : sProp 𝕄)),
    bigSep_univ_comm (fun (c : Dev nD) (d : D7) => (dutyTok ER (recvCell (peer c d.1) d.1) 0 (0 : Fin 8) : sProp 𝕄))]
  exact bigSep_congr fun d _ => bigSep_univ_equiv (ringAt d.1) (fun p : Dev nD => (dutyTok ER (recvCell p d.1) 0 (0 : Fin 8) : sProp 𝕄))

theorem toks_around : (bigSep Finset.univ fun c : Dev nD => (toks c : sProp 𝕄)) ⊢ bigSep Finset.univ fun c : Dev nD => payToks c := by
  unfold toks payToks
  rw [bigSep_sep', bigSep_sep', bigSep_sep', bigSep_sep', bar_around, recv_around]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => show _ ⊢ linear c from Entails.of_eq (by unfold linear positions; rw [bigSep_CI])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- Units on one cell, one per member of a set, are that many units. -/
theorem sum_unit (g : GSem nD τ sig) (s : Finset (Fin 8)) :
    ∑ _d ∈ s, (tallyAt g () 1 : CellTallies nD τ sig Unit) = tallyAt g () s.card := by
  induction s using Finset.induction_on with
  | empty => rw [Finset.sum_empty, Finset.card_empty, tallyAt_zero]
  | insert a s ha ih => rw [Finset.sum_insert ha, ih, tallyAt_add, Finset.card_insert_of_notMem ha, Nat.add_comm]

/-- What the others owe device `c` at launch: seven units on its barrier, a row's credit on each receive cell. -/
theorem creds (c : Dev nD) :
    (Pipeline.launchCred O₀ c : sProp 𝕄) ⊢ iprop(cred (tallyAt (barCell c) () 7) ∗ bigSep ds fun d => cred (tallyAt (recvCell c d) () N)) := by
  have hO : (O₀ : Dev nD → CellTallies nD τ sig Unit) = fun c' => ∑ d ∈ ds, (fun (d : Fin 8) (c'' : Dev nD) => Rt c'' d + Bt c'' d) d c' := funext O₀_eq_sum
  rw [hO, Pipeline.launchCred_sum]
  have h1 : ∀ d ∈ ds, (Pipeline.launchCred (fun c'' : Dev nD => Rt c'' d + Bt c'' d) c : sProp 𝕄)
      ⊢ iprop(cred (tallyAt (recvCell c d) () N) ∗ cred (tallyAt (barCell c) () 1)) := fun d _ => by
    rw [Pipeline.launchCred_add (fun c'' : Dev nD => Rt c'' d) (fun c'' : Dev nD => Bt c'' d) c]
    exact BI.sep_mono (Pipeline.launchCred_tallyAt (.dma (recvQ d)) (peer · d) (src · d) (fun c => peer_src c d) (fun c => src_peer c d) () N c)
      (Pipeline.launchCred_tallyAt (.reg barS) (peer · d) (src · d) (fun c => peer_src c d) (fun c => src_peer c d) () 1 c)
  refine (bigSep_mono h1).trans ?_
  rw [bigSep_sep', ← Pipeline.cred_finsetSum ds (fun _ => (tallyAt (barCell c) () 1 : CellTallies nD τ sig Unit)), sum_unit, show ds.card = 7 from by decide]
  exact (sep_symm : iprop((bigSep ds fun d => cred (tallyAt (recvCell c d) () N)) ∗ cred (tallyAt (barCell c) () 7)) ⊢ (iprop(cred (tallyAt (barCell c) () 7) ∗ bigSep ds fun d => cred (tallyAt (recvCell c d) () N)) : sProp 𝕄))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ tblAny
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ tblAny
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
/-- At the compiled mesh of eight devices, for any float values, from any memory with zero counters: every weakly fair
    execution of @main terminates, and every final state has each window's array at the contents the proof data name. -/
theorem run_main (hbody : ∀ c, BodyObligation (dats (F := F) m ρ 0 c) (defs₀ (F := F)) 𝒱₀ () Set.univ) :
    θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

/-- The result array's one block is the whole array: after the run it holds what the body left in the staging buffer. -/
theorem finalA_blk (c : Dev nD) :
    (win0_1.blk (0 : Fin 1)).view.read (Elt F) (finalA m ρ c (1 : Fin 2)) = outAt (xstg m) c := by
  unfold finalA
  rw [show cfg0.N = ((0 : Fin 1) : Fin cfg0.N).val + 1 from rfl, (dats m ρ 0 c).arrAt_succ (1 : Fin 2) (0 : Fin 1)]
  rw [flush0_1 (0 : Fin 1), if_pos rfl]
  exact View.read_write_univ _ _

theorem finalA_out (c : Dev nD) :
    (finalA m ρ c (1 : Fin 2) : S1x256.Idx → Elt F .f32) = outAt (xstg m) c := by
  rw [← finalA_blk m ρ c]
  symm
  exact Memref.read_access_unit_zero (Elt F) main_v1 (off := fun a => win0_1.index (0 : Fin 1) a * win0_1.size a)
    (funext fun a => Nat.zero_mul _) _ _

/-- The staged input block is the device's whole input array: the window's one block covers it. -/
theorem xstg_eq (c : Dev nD) : xstg m c = m ((c : Thread nD τ).loc main_arg0) := by
  unfold xstg
  exact Memref.read_access_unit_zero (Elt F) main_arg0 (off := fun a => win0_0.index (0 : Fin 1) a * win0_0.size a)
    (funext fun a => Nat.zero_mul _) _ _

/-- info: 'Cert.KernelIdeal.Launch.run_main' depends on axioms: [propext, Classical.choice, Quot.sound] -/
#guard_msgs in #print axioms run_main

/-- info: 'Cert.KernelIdeal.Launch.finalA_out' depends on axioms: [propext, Classical.choice, Quot.sound] -/
#guard_msgs in #print axioms finalA_out

end Cert.KernelIdeal.Launch
end
-- ==== Proof.KSpec.lean ====
/-
  The mathematics of the kernel, free of the protocol. Eight devices stand on a ring; device `c`'s block of the
  input is `xs c` (512 rows of 256 columns). Each device sums its block's rows (`k0_pay1`), every device receives the
  seven other devices' row sums — slot `d` of device `c`'s table holds the row sum of the device `d` places BEFORE it,
  `src c d`, slot `0` its own —, and the result is the sum of the eight slots scaled by 1/4096 (`k0_pay2`).
-/
import proofs.«900956_g7700000000000957_dist_mean_ax0_shard0_i_m512_n256_v7x_i8_bf16_1_alg».proof.Proof.Gen.Kernel.Skeleton

noncomputable section

namespace Cert.Kernel.Spec

open Cert.Kernel Cert.Kernel.Gen
open Idealize.ShloMosaic Idealize.ShloMosaic.TcCoe Idealize.SL.Sem

variable {F : FTy → Type} [FloatOps F]

/-- The device `d` places after `c` on the ring of eight. -/
def peer (c : Dev nD) (d : Fin 8) : Dev nD := ⟨(c.val + d.val) % 8, Nat.mod_lt _ (by decide)⟩
/-- The device `d` places before `c`. -/
def src (c : Dev nD) (d : Fin 8) : Dev nD := ⟨(c.val + 8 - d.val) % 8, Nat.mod_lt _ (by decide)⟩
/-- The offset that undoes `d`: `8 - d` on the ring. -/
def neg (d : Fin 8) : Fin 8 := ⟨(8 - d.val) % 8, Nat.mod_lt _ (by decide)⟩

theorem peer_src (c : Dev nD) (d : Fin 8) : peer (src c d) d = c := by revert c d; decide
theorem src_peer (c : Dev nD) (d : Fin 8) : src (peer c d) d = c := by revert c d; decide
theorem peer_peer_neg (c : Dev nD) (d : Fin 8) : peer (peer c d) (neg d) = c := by revert c d; decide
theorem src_eq_peer_neg (c : Dev nD) (d : Fin 8) : src c d = peer c (neg d) := by revert c d; decide
theorem peer_zero (c : Dev nD) : peer c 0 = c := by revert c; decide
theorem src_zero (c : Dev nD) : src c 0 = c := by revert c; decide
theorem neg_neg (d : Fin 8) : neg (neg d) = d := by revert d; decide
theorem neg_ne_zero {d : Fin 8} (h : d ≠ 0) : neg d ≠ 0 := by revert d; decide
theorem peer_inj (c : Dev nD) {d d' : Fin 8} (h : peer c d = peer c d') : d = d' := by revert c d d'; decide
theorem peer_left_inj (d : Fin 8) {c c' : Dev nD} (h : peer c d = peer c' d) : c = c' := by revert c c' d; decide

/-- An index of the table of eight slots, read inside its slot. -/
def low (i : S8x1x256.Idx) : S1x1x256.Idx := fun a => match a with
  | ⟨0, _⟩ => ⟨0, show 0 < 1 from Nat.one_pos⟩
  | ⟨1, _⟩ => i 1
  | ⟨2, _⟩ => i 2

/-- Device `c`'s table once every row sum has arrived: slot `d` is the row sum of the block of `src c d`. -/
def commAt (xs : Dev nD → Vec F S512x256 .f32) (c : Dev nD) : Vec F S8x1x256 .f32 :=
  fun i => k0_pay1 (xs (src c (i 0))) (low i)

/-- Device `c`'s result: the eight slots summed and scaled. -/
def outAt (xs : Dev nD → Vec F S512x256 .f32) (c : Dev nD) : FVec F S1x256 .f32 := k0_pay2 (commAt xs c)

end Cert.Kernel.Spec

end
-- ==== Proof.KMem.lean ====
/-
  The kernel's memory, named once: the staged input block, the staged result row, the table of eight slots, the slot
  `d` of the table as the one-row memref the transfers and the waits address, and the send and receive semaphores of
  offset `d`. Each is stated for a variable offset `d : Fin 8`; the kernel's text is the instance at a literal `d`.
-/
import proofs.«900956_g7700000000000957_dist_mean_ax0_shard0_i_m512_n256_v7x_i8_bf16_1_alg».proof.Proof.KSpec
import Idealize.ShloMosaic.Lib.Pipeline.Value

set_option maxRecDepth 16384

noncomputable section

namespace Cert.Kernel.Mem

open Cert.Kernel Cert.Kernel.Gen Cert.Kernel.Spec
open Idealize.ShloMosaic Idealize.ShloMosaic.TcCoe Idealize.SL.Sem

/-- The staged input block, the staged result row, the table. -/
abbrev xM : Memref sig .tc .vmem S512x256 .f32 := Memref.whole cc0_stg0_0
abbrev oM : Memref sig .tc .vmem S1x256 .f32 := Memref.whole cc0_stg1_0
abbrev cM : Memref sig .tc .vmem S8x1x256 .f32 := Memref.whole cc0_scratch0

theorem inbSlot (d : Fin 8) : ∀ a, (![d.val, 0, 0] : Fin 3 → Nat) a + S1x1x256.size a ≤ S8x1x256.size a := by revert d; decide
theorem inbSem (d : Fin 8) : ∀ a, (![d.val] : Fin 1 → Nat) a + S1.size a ≤ S8.size a := by revert d; decide

/-- Slot `d` of the table: the rectangle, and the one-row memref over it. -/
abbrev slotR (d : Fin 8) : Rect S8x1x256 := Rect.unit (s := S8x1x256) ![d.val, 0, 0] S1x1x256.size (inbSlot d)
abbrev slotM (d : Fin 8) : Memref sig .tc .vmem S1x256 .f32 :=
  ((cM : Memref sig .tc .vmem S8x1x256 .f32).slice (slotR d) (fun _ => rfl)).squeeze S1x256 squeezes_S1x1x256_S1x256
/-- The send and the receive semaphore of offset `d`. -/
abbrev sendQ (d : Fin 8) : DmaSem sig := ((cc0_scratch1.slice (Rect.unit (s := S8) ![d.val] S1.size (inbSem d))).squeeze S_ squeezes_S1_S_).sem
abbrev recvQ (d : Fin 8) : DmaSem sig := ((cc0_scratch2.slice (Rect.unit (s := S8) ![d.val] S1.size (inbSem d))).squeeze S_ squeezes_S1_S_).sem

theorem sendQ_val (d : Fin 8) : (sendQ d).val = 2 + d.val := by revert d; decide
theorem recvQ_val (d : Fin 8) : (recvQ d).val = 10 + d.val := by revert d; decide

/-- The indices of slot `d`: those whose leading coordinate is `d`. -/
abbrev K (d : Fin 8) : Finset (S8x1x256.Idx) := (slotR d).set
theorem slot_set (d : Fin 8) : (slotM d).view.set = K d := by
  simp only [Memref.view_squeeze, Memref.view_slice, Memref.view_whole, View.set_reshape, View.set_slice_whole]
theorem mem_K (d : Fin 8) (i : S8x1x256.Idx) : i ∈ K d ↔ (i 0).val = d.val := by
  rw [Rect.mem_set_unit]
  constructor
  · intro h; have := h 0; simp at this; omega
  · intro h a; fin_cases a <;> simp <;> omega

end Cert.Kernel.Mem

end
-- ==== Proof.KProto.lean ====
/-
  The protocol of the eight devices, as a schedule of rounds. Every device `c` has fifteen cells that matter: its barrier
  cell, and for each offset `d = 1 … 7` a send cell and a receive cell. All have one round.
  * The barrier cell of `p` has seven duties of one unit, named by the offset `e` of the payer: duty `e` is paid by the
    device `peer p e`, and hands `p` slot `e` of THAT device's table (the slot `p` will write remotely) together with
    the fact that that device stands at round 0 of its receive cell `e`.
  * The receive cell `d` of `c` has one duty of a row's credit, paid by the transfer of `src c d`: it hands `c` its slot
    `d` holding that device's row sum — stated as: slot `d` holds the final table `commAt` there.
  * The send cell `d` of `c` has one duty of a row's credit, paid by `c`'s own transfer: it hands back the read share
    of slot `0` the transfer was lent.
  A device signals the seven barriers, waits for its own seven units owing only receive credit (barrier cells lie below
  receive cells), transfers, and from then on owes nothing.
-/
import proofs.«900956_g7700000000000957_dist_mean_ax0_shard0_i_m512_n256_v7x_i8_bf16_1_alg».proof.Proof.KMem
import proofs.«900956_g7700000000000957_dist_mean_ax0_shard0_i_m512_n256_v7x_i8_bf16_1_alg».proof.Proof.Gen.Kernel.Launch
import proofs.«900956_g7700000000000957_dist_mean_ax0_shard0_i_m512_n256_v7x_i8_bf16_1_alg».proof.Proof.Gen.Kernel.Points
import Idealize.ShloMosaic.Lib.Pipeline.Launch
import Idealize.ShloMosaic.Lib.Pipeline.Kit
import Idealize.ShloMosaic.Lib.Transfers
import Idealize.ShloMosaic.Lib.Tactic
import Mathlib.Tactic.Abel

set_option maxRecDepth 16384

noncomputable section

namespace Cert.Kernel.Proto

open Cert.Kernel Cert.Kernel.Gen Cert.Kernel.Spec Cert.Kernel.Mem
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 8`) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st0 : MemSt nD τ sig (Elt F) := ⟨m, fun _ => 0, ρ⟩

/-! ## The cells -/

/-- The runtime's barrier semaphore of collective id 0. -/
abbrev barS : Sem sig := (SemArray.scalar (sig.barrier 0 rfl) : Sems sig S_).sem

abbrev barCell (c : Dev nD) : GSem nD τ sig := ((c : Thread nD τ), .reg barS)
abbrev sendCell (c : Dev nD) (d : Fin 8) : GSem nD τ sig := ((c : Thread nD τ), .dma (sendQ d))
abbrev recvCell (c : Dev nD) (d : Fin 8) : GSem nD τ sig := ((c : Thread nD τ), .dma (recvQ d))

/-- The offsets that are used: all but `0`. -/
abbrev ds : Finset (Fin 8) := Finset.univ.erase 0

/-- One row's credit. -/
abbrev N : ℕ := (slotM 0).view.dmaCredit
theorem N_pos : 0 < N := View.dmaCredit_pos _ (by decide)

/-! ## Contents -/

/-- Device `c`'s staged block of the input. -/
def xstg (c : Dev nD) : Vec F S512x256 .f32 :=
  (win0_0.blk (0 : Fin 1)).view.read (Elt F) (m ((c : Thread nD τ).loc main_arg0))

/-- Device `c`'s table when every row sum has arrived. -/
abbrev tbl (c : Dev nD) : Vec F S8x1x256 .f32 := commAt (xstg m) c

/-- Slot `d` of device `c`'s table, held whole at contents `f`. -/
def slotPts (c : Dev nD) (d : Fin 8) (f : Buf (Elt F) ((slotM d).view.loc (c : Thread nD τ))) : sProp 𝕄 :=
  (slotM d).view.loc (c : Thread nD τ) ↦[(slotM d).view.set]{fullShare} f

/-- The read share of slot `0` lent to the transfer of offset `d`, and the one the device keeps. -/
abbrev qTok (d : Fin 8) : PosShare TreeShare := Transfers.shareTok fullShare 8 d
abbrev qKeep : PosShare TreeShare := Transfers.shareDrop fullShare 8

/-- Slot `0` of device `c`, holding its row sum, at the read share of offset `d`. -/
def srcPts (c : Dev nD) (d : Fin 8) : sProp 𝕄 :=
  (slotM 0).view.loc (c : Thread nD τ) ↦[(slotM 0).view.set]{qTok d} tbl m c

omit [FloatOps F] in
instance slotPts_storable (c : Dev nD) (d : Fin 8) (f) : BI.Storable (upEmb : UEmb _ 𝕄) (slotPts (F := F) c d f) := by unfold slotPts; infer_instance
instance srcPts_storable (c : Dev nD) (d : Fin 8) : BI.Storable (upEmb : UEmb _ 𝕄) (srcPts (F := F) m c d) := by unfold srcPts; infer_instance

/-! ## The schedule -/

/-- What the signal of `peer p e` hands `p`: that device's slot `e`, and that it stands at round 0 of its receive cell `e`. -/
def barPay (p : Dev nD) (e : Fin 8) : sProp 𝕄 := iprop((∃ f, slotPts (peer p e) e f) ∗ reached ER (recvCell (peer p e) e) 0)
def recvPay (c : Dev nD) (d : Fin 8) : sProp 𝕄 := slotPts c d (tbl m c)
def sendPay (c : Dev nD) (d : Fin 8) : sProp 𝕄 := srcPts m c d

/-- What a semaphore is to the protocol. -/
inductive Kind where
  | bar | send (d : Fin 8) | recv (d : Fin 8) | other
deriving DecidableEq

def kindOf : SemLoc sig → Kind
  | .reg s => if s = barS then .bar else .other
  | .dma q => if h : 3 ≤ q.val ∧ q.val ≤ 9 then .send ⟨q.val - 2, by omega⟩
      else if h' : 11 ≤ q.val ∧ q.val ≤ 17 then .recv ⟨q.val - 10, by omega⟩ else .other

theorem kindOf_bar : kindOf (.reg barS) = .bar := by decide
theorem kindOf_send {d : Fin 8} (h : d ≠ 0) : kindOf (.dma (sendQ d)) = .send d := by revert d; decide
theorem kindOf_recv {d : Fin 8} (h : d ≠ 0) : kindOf (.dma (recvQ d)) = .recv d := by revert d; decide
theorem kindOf_send0 : kindOf (.dma (sendQ 0)) = .other := by decide
theorem kindOf_recv0 : kindOf (.dma (recvQ 0)) = .other := by decide

/-- One round, round 0: a barrier cell has the seven duties `1 … 7` of one unit each; a send or receive cell of a used
    offset the duty `0` of a row's credit. -/
def Rd : Rounds.Schedule (GSem nD τ sig) (Fin 8) 𝕄 where
  duties g r := if r = 0 ∧ g.1.2 = .tc then
      (match kindOf g.2 with | .bar => ds | .send _ => {0} | .recv _ => {0} | .other => ∅) else ∅
  unitless _ := False
  amount g _ _ := match kindOf g.2 with | .bar => 1 | _ => N
  payload g _ e := match kindOf g.2 with
    | .bar => barPay g.1.1 e
    | .send d => sendPay m g.1.1 d
    | .recv d => recvPay m g.1.1 d
    | .other => iprop(emp)
  amount_pos g _ _ _ := by
    cases h : kindOf g.2 <;> simp only [h] <;> first | exact Nat.one_pos | exact N_pos

instance Rd_payload_storable (g : GSem nD τ sig) (r : ℕ) (e : Fin 8) :
    BI.Storable (upEmb : UEmb _ 𝕄) ((Rd (F := F) m).payload g r e) := by
  show BI.Storable upEmb (match kindOf g.2 with
    | .bar => barPay g.1.1 e | .send d => sendPay m g.1.1 d | .recv d => recvPay m g.1.1 d | .other => iprop(emp))
  unfold barPay recvPay sendPay
  split <;> infer_instance

section Sched
variable (c : Dev nD) {d : Fin 8} (hd : d ≠ 0)

theorem duties_bar : (Rd (F := F) m).duties (barCell c) 0 = ds := by
  dsimp only [Rd]; rw [if_pos ⟨rfl, rfl⟩, kindOf_bar]
include hd in
theorem duties_send : (Rd (F := F) m).duties (sendCell c d) 0 = {0} := by
  dsimp only [Rd]; rw [if_pos ⟨rfl, rfl⟩, kindOf_send hd]
include hd in
theorem duties_recv : (Rd (F := F) m).duties (recvCell c d) 0 = {0} := by
  dsimp only [Rd]; rw [if_pos ⟨rfl, rfl⟩, kindOf_recv hd]
theorem duties_send0 (r : ℕ) : (Rd (F := F) m).duties (sendCell c 0) r = ∅ := by
  dsimp only [Rd]; split
  · rw [kindOf_send0]
  · rfl
theorem duties_recv0 (r : ℕ) : (Rd (F := F) m).duties (recvCell c 0) r = ∅ := by
  dsimp only [Rd]; split
  · rw [kindOf_recv0]
  · rfl
theorem duties_later (g : GSem nD τ sig) : ∀ r, 1 ≤ r → (Rd (F := F) m).duties g r = ∅ :=
  fun r hr => by dsimp only [Rd]; rw [if_neg fun h => by omega]

theorem amount_bar (e : Fin 8) : (Rd (F := F) m).amount (barCell c) 0 e = 1 := by dsimp only [Rd]; rw [kindOf_bar]
include hd in
theorem amount_send (e : Fin 8) : (Rd (F := F) m).amount (sendCell c d) 0 e = N := by dsimp only [Rd]; rw [kindOf_send hd]
include hd in
theorem amount_recv (e : Fin 8) : (Rd (F := F) m).amount (recvCell c d) 0 e = N := by dsimp only [Rd]; rw [kindOf_recv hd]

theorem expect_bar : (Rd (F := F) m).expect (barCell c) 0 = 7 := by
  unfold Schedule.expect Schedule.amountOf
  rw [duties_bar, Finset.sum_congr rfl fun e _ => amount_bar m c e, Finset.sum_const, smul_eq_mul]; decide
include hd in
theorem expect_send : (Rd (F := F) m).expect (sendCell c d) 0 = N := by
  unfold Schedule.expect Schedule.amountOf; rw [duties_send m c hd, Finset.sum_singleton, amount_send m c hd]
include hd in
theorem expect_recv : (Rd (F := F) m).expect (recvCell c d) 0 = N := by
  unfold Schedule.expect Schedule.amountOf; rw [duties_recv m c hd, Finset.sum_singleton, amount_recv m c hd]

theorem payload_bar (e : Fin 8) : (Rd (F := F) m).payload (barCell c) 0 e = barPay c e := by dsimp only [Rd]; rw [kindOf_bar]
include hd in
theorem payload_send (e : Fin 8) : (Rd (F := F) m).payload (sendCell c d) 0 e = sendPay m c d := by dsimp only [Rd]; rw [kindOf_send hd]
include hd in
theorem payload_recv (e : Fin 8) : (Rd (F := F) m).payload (recvCell c d) 0 e = recvPay m c d := by dsimp only [Rd]; rw [kindOf_recv hd]

/-- The rest of the barrier cell's round, no duty taken: the seven devices' slots. -/
theorem rest_bar : bigSep ((Rd (F := F) m).duties (barCell c) 0 \ ∅) (fun e => (Rd (F := F) m).payload (barCell c) 0 e) = bigSep ds (fun e => barPay (F := F) c e) := by
  rw [Finset.sdiff_empty, duties_bar]; exact bigSep_congr fun e _ => payload_bar m c e
include hd in
theorem rest_send : bigSep ((Rd (F := F) m).duties (sendCell c d) 0 \ ∅) (fun e => (Rd (F := F) m).payload (sendCell c d) 0 e) = sendPay m c d := by
  rw [Finset.sdiff_empty, duties_send m c hd, bigSep_singleton, payload_send m c hd]
include hd in
theorem rest_recv : bigSep ((Rd (F := F) m).duties (recvCell c d) 0 \ ∅) (fun e => (Rd (F := F) m).payload (recvCell c d) 0 e) = recvPay m c d := by
  rw [Finset.sdiff_empty, duties_recv m c hd, bigSep_singleton, payload_recv m c hd]

end Sched

/-! ## What each core owes at launch; the levels -/

/-- The row's credit device `c` owes the receive cell `d` of `peer c d`, and the unit it owes that device's barrier. -/
def Rt (c : Dev nD) (d : Fin 8) : CellTallies nD τ sig Unit := tallyAt (recvCell (peer c d) d) () N
def Bt (c : Dev nD) (d : Fin 8) : CellTallies nD τ sig Unit := tallyAt (barCell (peer c d)) () 1

/-- What a device owes once it has signalled: the seven rows' credit, summed so that the transfer of offset 1 peels the
    last summand, that of offset 2 the one before, and so on. -/
def OR (c : Dev nD) : CellTallies nD τ sig Unit := 0 + Rt c 7 + Rt c 6 + Rt c 5 + Rt c 4 + Rt c 3 + Rt c 2 + Rt c 1
/-- What it owes at launch: that and the seven barrier units, the signal of offset 1 peeling the last summand. -/
def O₀ (c : Dev nD) : CellTallies nD τ sig Unit := OR c + Bt c 7 + Bt c 6 + Bt c 5 + Bt c 4 + Bt c 3 + Bt c 2 + Bt c 1

theorem ds_eq : ds = ({1, 2, 3, 4, 5, 6, 7} : Finset (Fin 8)) := by decide

/-- The same as a sum over the offsets. -/
theorem O₀_eq_sum (c : Dev nD) : O₀ c = ∑ d ∈ ds, (Rt c d + Bt c d) := by
  rw [ds_eq]
  simp only [Finset.sum_insert, Finset.mem_insert, Finset.mem_singleton, Finset.sum_singleton, Fin.reduceEq, or_self, not_false_eq_true]
  unfold O₀ OR
  abel

def L (g : GSem nD τ sig) : Finset Unit := if g.1.2 = .tc then {()} else ∅
/-- barrier cells at 1, receive cells at 2, everything else (staging, send) at 0. -/
def lv (g : GSem nD τ sig) (_ : Unit) : ℕ := match kindOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; rw [kindOf_bar]
theorem lv_recv (c : Dev nD) {d : Fin 8} (hd : d ≠ 0) (u : Unit) : lv (recvCell c d) u = 2 := by unfold lv; rw [kindOf_recv hd]

/-- Where the seven rows' credit is positive: at a receive cell of a used offset. -/
theorem OR_pos {c : Dev nD} {g : GSem nD τ sig} {u : Unit} (h : 0 < OR c g u) : ∃ d : Fin 8, d ≠ 0 ∧ g = recvCell (peer c d) d := by
  unfold OR at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  · exact absurd h (Nat.lt_irrefl 0)
  all_goals first
    | exact ⟨7, by decide, (Pipeline.tallyAt_pos h).1⟩ | exact ⟨6, by decide, (Pipeline.tallyAt_pos h).1⟩
    | exact ⟨5, by decide, (Pipeline.tallyAt_pos h).1⟩ | exact ⟨4, by decide, (Pipeline.tallyAt_pos h).1⟩
    | exact ⟨3, by decide, (Pipeline.tallyAt_pos h).1⟩ | exact ⟨2, by decide, (Pipeline.tallyAt_pos h).1⟩
    | exact ⟨1, by decide, (Pipeline.tallyAt_pos h).1⟩

theorem O₀_pos {c : Dev nD} {g : GSem nD τ sig} {u : Unit} (h : 0 < O₀ c g u) :
    ∃ d : Fin 8, d ≠ 0 ∧ (g = recvCell (peer c d) d ∨ g = barCell (peer c d)) := by
  rw [O₀_eq_sum] at h
  obtain ⟨d, hd, h⟩ := Pipeline.sum_pos_exists h
  refine ⟨d, (Finset.mem_erase.mp hd).1, ?_⟩
  rcases Pipeline.add_pos_cases h with h | h
  · exact .inl (Pipeline.tallyAt_pos h).1
  · exact .inr (Pipeline.tallyAt_pos h).1

omit [FloatOps F] in
/-- A wait on a cell at level 0 (a staging cell, a send cell) is below everything a device may owe. -/
theorem mayWait_low (c : Dev nD) (sm : SemLoc sig) (hq : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (by rw [L_tc]; exact Finset.mem_singleton_self _) fun g u hg => ?_
    obtain ⟨d, hd, rfl | rfl⟩ := O₀_pos hg
    · exact ⟨by rw [L_tc]; exact Finset.mem_singleton_self _, by rw [hq, lv_recv _ hd]; decide⟩
    · exact ⟨by rw [L_tc]; exact Finset.mem_singleton_self _, by rw [hq, lv_bar]; decide⟩
  · rw [MayWait_zero]; iintro -; iempintro

omit [FloatOps F] in
/-- At its barrier wait a device owes rows' credit only: receive cells, above its barrier cell. -/
theorem mayWait_bar (c : Dev nD) : (levAts L lv : sProp 𝕄) ⊢ MayWait (c : Thread nD τ) (.reg barS) () (OR c) :=
  Pipeline.mayWait_of_levAts (by rw [L_tc]; exact Finset.mem_singleton_self _) fun g u hg => by
    obtain ⟨d, hd, rfl⟩ := OR_pos hg
    exact ⟨by rw [L_tc]; exact Finset.mem_singleton_self _, by rw [lv_bar, lv_recv _ hd]; decide⟩

/-! ## The ghost state -/

/-- The cells of one device, as the launch indexes them: the barrier, the eight send, the eight receive. -/
abbrev CI : Type := Unit ⊕ (Fin 8 ⊕ Fin 8)
abbrev csem : CI → SemLoc sig
  | .inl _ => .reg barS
  | .inr (.inl d) => .dma (sendQ d)
  | .inr (.inr d) => .dma (recvQ d)
abbrev kcell (ck : Dev nD × CI) : GSem nD τ sig := ((ck.1 : Thread nD τ), csem ck.2)
abbrev kBar : CI := .inl ()
abbrev kSend (d : Fin 8) : CI := .inr (.inl d)
abbrev kRecv (d : Fin 8) : CI := .inr (.inr d)

/-- Every cell's invariant, under the names `K` the launch allocated them at, and that every cell stands at round 0 or
    later: persistent, so every device has all of it. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) : records m K ⊢ cellInv ER (Rd m) (K ck) (kcell ck) := by
  unfold records
  exact Laws.sep_and.trans (and_elimL.trans (bigSep_elim (Φ := fun ck : Dev nD × CI => (cellInv ER (Rd m) (K ck) (kcell ck) : sProp 𝕄)) (Finset.mem_univ ck)))
theorem reached_at (K : Dev nD × CI → ℕ) (ck : Dev nD × CI) : records m K ⊢ reached ER (kcell ck) 0 := by
  unfold records
  exact Laws.sep_and.trans (and_elimR.trans (bigSep_elim (Φ := fun ck : Dev nD × CI => (reached ER (kcell ck) 0 : sProp 𝕄)) (Finset.mem_univ ck)))

/-- Where device `c` stands on its own cells. -/
def positions (c : Dev nD) : sProp 𝕄 :=
  iprop(atPos ER (barCell c) 0 ∅ 0 ∗ (bigSep Finset.univ fun d : Fin 8 => atPos ER (sendCell c d) 0 ∅ 0)
    ∗ (bigSep Finset.univ fun d : Fin 8 => atPos ER (recvCell c d) 0 ∅ 0))

/-- The tokens of the duties device `c` pays: on the barrier of `peer c d` the duty `neg d` (it is `neg d` places after
    that device), on the receive cell `d` of `peer c d` and on its own send cell `d` the duty `0`. -/
def payToks (c : Dev nD) : sProp 𝕄 :=
  iprop((bigSep ds fun d => dutyTok ER (barCell (peer c d)) 0 (neg d)) ∗ (bigSep ds fun d => dutyTok ER (recvCell (peer c d) d) 0 (0 : Fin 8))
    ∗ (bigSep ds fun d => dutyTok ER (sendCell c d) 0 (0 : Fin 8)))

def ghost (K : Dev nD × CI → ℕ) (c : Dev nD) : sProp 𝕄 := iprop(records m K ∗ positions c ∗ payToks c)

/-- What device `c`'s body starts from: that at some names, its credit tokens (its barrier's seven units, a row's credit on
    each receive cell) and the level facts. -/
def start (c : Dev nD) : sProp 𝕄 :=
  iprop((∃ K, ghost m K c) ∗ cred (tallyAt (barCell c) () 7) ∗ (bigSep ds fun d => cred (tallyAt (recvCell c d) () N)) ∗ levAts L lv)

/-- The table, whole, at some contents. -/
def tblAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ tblAny c)
/-- After the point: the table back whole, the sixteen own cells at zero, closed. -/
def Φ₁ (c : Dev nD) : sProp 𝕄 :=
  iprop(tblAny (F := F) c ∗ (bigSep Finset.univ fun d : Fin 8 => semVal (sendCell c d) 0) ∗ (bigSep Finset.univ fun d : Fin 8 => semVal (recvCell c d) 0))

/-! ## The pipeline's proof data -/

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m c
    | ⟨1, _⟩ => outAt (xstg m) c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

end Cert.Kernel.Proto

end
-- ==== Proof.KSlots.lean ====
/-
  Pure facts about the table of eight slots and the views the kernel reads and writes it through: the slots
  partition the table, a whole-buffer access at zero offsets reads and writes the whole buffer, the store of a
  device's own row sum fills slot 0 of its table, and slot 0 of a sender landing on slot d of the device d places
  after it is that receiver's table there.
-/
import proofs.«900956_g7700000000000957_dist_mean_ax0_shard0_i_m512_n256_v7x_i8_bf16_1_alg».proof.Proof.KMem
import Idealize.ShloMosaic.Signature.View
import Idealize.ShloMosaic.Signature.Memref
import Idealize.ShloMosaic.Lib.Pipeline.Value

set_option maxRecDepth 16384

noncomputable section

namespace Cert.Kernel.Slots

open Cert.Kernel Cert.Kernel.Gen Cert.Kernel.Spec Cert.Kernel.Mem
open Idealize.ShloMosaic Idealize.ShloMosaic.TcCoe Idealize.SL.Sem

variable {F : FTy → Type} [FloatOps F]

/-! ## The slots partition the table -/

/-- Two different slots share no index: an index's leading coordinate names its slot. -/
theorem K_disjoint {d d' : Fin 8} (h : d ≠ d') : Disjoint (K d) (K d') := by
  rw [Finset.disjoint_left]
  intro i hi hi'
  rw [mem_K] at hi hi'
  exact h (Fin.ext (hi.symm.trans hi'))

/-- Every index of the table lies in the slot its leading coordinate names. -/
theorem K_cover : (Finset.univ : Finset (Fin 8)).biUnion K = (Finset.univ : Finset S8x1x256.Idx) := by
  ext i
  simp only [Finset.mem_biUnion, Finset.mem_univ, true_and, iff_true]
  exact ⟨i 0, (mem_K (i 0) i).mpr rfl⟩

/-! ## Whole-buffer reads and writes -/

theorem hz3 : (![0, 0, 0] : Fin 3 → Nat) = fun _ => 0 := funext fun a => by fin_cases a <;> rfl
theorem hz2 : (![0, 0] : Fin 2 → Nat) = fun _ => 0 := funext fun a => by fin_cases a <;> rfl

omit [FloatOps F] in
/-- A load of the whole table returns the table. -/
theorem read_comm (f : Vec F S8x1x256 .f32) :
    (cM : Memref sig .tc .vmem S8x1x256 .f32).view.readAt (Elt F)
      (Rect.unit (s := S8x1x256) ![0, 0, 0] S8x1x256.size inb_S8x1x256_S8x1x256_0_0_0).toLoadRect f = f :=
  Memref.readAt_unit_zero (Elt F) cc0_scratch0 hz3 _ f

omit [FloatOps F] in
/-- A load of the whole input block returns the block. -/
theorem read_x (f : Vec F S512x256 .f32) :
    (xM : Memref sig .tc .vmem S512x256 .f32).view.readAt (Elt F)
      (Rect.unit (s := S512x256) ![0, 0] S512x256.size inb_S512x256_S512x256_0_0).toLoadRect f = f :=
  Memref.readAt_unit_zero (Elt F) cc0_stg0_0 hz2 _ f

omit [FloatOps F] in
/-- An unmasked store over the whole result row leaves the stored row. -/
theorem write_out (f w : Vec F S1x256 .f32) :
    ((oM : Memref sig .tc .vmem S1x256 .f32).access
        (Rect.unit (s := S1x256) ![0, 0] S1x256.size inb_S1x256_S1x256_0_0) : View sig .tc _ _ _).write (Elt F) f w Finset.univ = w :=
  Memref.write_access_unit_zero_univ (Elt F) cc0_stg1_0 hz2 _ f w

/-! ## An index of the table and its place inside its slot -/

/-- Slot `d`'s rectangle places the in-slot index `y` at `d` on the leading axis and at `y`'s own
    coordinates on the other two. -/
theorem emb_val (d : Fin 8) (y : S1x1x256.Idx) (a : Fin 3) :
    (((slotR d).emb y) a : Nat) = (![d.val, 0, 0] : Fin 3 → Nat) a + (y a).val := by
  rw [Rect.emb_apply]
  simp only [Rect.off_unit, Rect.stride_unit, Nat.one_mul]

/-- The placed index lies in slot `d`, -/
theorem emb_zero (d : Fin 8) (y : S1x1x256.Idx) : ((slotR d).emb y) 0 = d := by
  apply Fin.ext
  have h : (((slotR d).emb y) 0 : Nat) = d.val + (y 0).val := emb_val d y 0
  have h0 : (y 0).val < 1 := (y 0).isLt
  show (((slotR d).emb y) 0 : Nat) = d.val
  omega

/-- and read inside its slot it is `y` again. -/
theorem low_emb (d : Fin 8) (y : S1x1x256.Idx) : low ((slotR d).emb y) = y := by
  funext a
  apply Fin.ext
  fin_cases a
  · have h0 : (y 0).val < 1 := (y 0).isLt
    show (0 : Nat) = (y 0).val
    omega
  · have h : (((slotR d).emb y) 1 : Nat) = 0 + (y 1).val := emb_val d y 1
    show (((slotR d).emb y) 1 : Nat) = (y 1).val
    omega
  · have h : (((slotR d).emb y) 2 : Nat) = 0 + (y 2).val := emb_val d y 2
    show (((slotR d).emb y) 2 : Nat) = (y 2).val
    omega

/-- An index of slot `d` is where the rectangle places its in-slot reading. -/
theorem emb_low (d : Fin 8) {i : S8x1x256.Idx} (hi : i ∈ K d) : (slotR d).emb (low i) = i := by
  rw [mem_K] at hi
  funext a
  apply Fin.ext
  fin_cases a
  · have h : (((slotR d).emb (low i)) 0 : Nat) = d.val + 0 := emb_val d (low i) 0
    show (((slotR d).emb (low i)) 0 : Nat) = (i 0).val
    omega
  · have h : (((slotR d).emb (low i)) 1 : Nat) = 0 + (i 1).val := emb_val d (low i) 1
    show (((slotR d).emb (low i)) 1 : Nat) = (i 1).val
    omega
  · have h : (((slotR d).emb (low i)) 2 : Nat) = 0 + (i 2).val := emb_val d (low i) 2
    show (((slotR d).emb (low i)) 2 : Nat) = (i 2).val
    omega

/-! ## The store into slot 0 -/

/-- A device's own row sum, stored unmasked over slot 0 of its table, is its table there: slot 0 of device `c`
    holds the row sum of `src c 0 = c`. -/
theorem store_slot0 (xs : Dev nD → Vec F S512x256 .f32) (c : Dev nD) (f : Vec F S8x1x256 .f32)
    {i : S8x1x256.Idx} (hi : i ∈ K 0) :
    ((cM : Memref sig .tc .vmem S8x1x256 .f32).access (slotR 0) : View sig .tc _ _ _).write (Elt F) f
        (k0_pay1 (xs c)) Finset.univ i = commAt xs c i := by
  have he : ((cM : Memref sig .tc .vmem S8x1x256 .f32).access (slotR 0) : View sig .tc _ _ _).emb (low i) = i :=
    emb_low 0 hi
  have hw := View.write_emb_of_mem (v := ((cM : Memref sig .tc .vmem S8x1x256 .f32).access (slotR 0) : View sig .tc _ _ _))
    (Val := Elt F) f (k0_pay1 (xs c)) (M := Finset.univ) (x := low i) (Finset.mem_univ _)
  rw [he] at hw
  rw [hw]
  have hs : src c (i 0) = c := by
    have h0 : (i 0 : Fin 8) = (0 : Fin 8) := Fin.ext ((mem_K 0 i).mp hi)
    exact (congrArg (src c) h0).trans (src_zero c)
  show k0_pay1 (xs c) (low i) = k0_pay1 (xs (src c (i 0))) (low i)
  rw [hs]

/-- The same fact with slot 0's rectangle spelt by its literal offsets. -/
theorem store_slot0_lit (xs : Dev nD → Vec F S512x256 .f32) (c : Dev nD) (f : Vec F S8x1x256 .f32)
    {i : S8x1x256.Idx} (hi : i ∈ K 0) :
    ((cM : Memref sig .tc .vmem S8x1x256 .f32).access
        (Rect.unit (s := S8x1x256) ![0, 0, 0] S1x1x256.size inb_S8x1x256_S1x1x256_0_0_0) : View sig .tc _ _ _).write (Elt F) f
        (k0_pay1 (xs c)) Finset.univ i = commAt xs c i :=
  store_slot0 xs c f hi

/-! ## The landing -/

/-- Slot 0 of the sender `c`, landed on slot `d` of the device `d` places after it, is that receiver's table
    there: both are the row sum of `c`'s block, since `c` is the device `d` places before `peer c d`. -/
theorem landing (xs : Dev nD → Vec F S512x256 .f32) (c : Dev nD) (d : Fin 8) (fd : Vec F S8x1x256 .f32)
    {i : S8x1x256.Idx} (hi : i ∈ K d) :
    (slotM d).view.write (Elt F) fd ((slotM 0).view.read (Elt F) (commAt xs c)) Finset.univ i
      = commAt xs (peer c d) i := by
  -- the one-row index matched with `i`'s in-slot reading (row-major numbering of the two shapes agrees)
  obtain ⟨z, hz⟩ : ∃ z : S1x256.Idx, Shape.reshapeEquiv squeezes_S1x1x256_S1x256.numel_eq z = low i :=
    ⟨(Shape.reshapeEquiv squeezes_S1x1x256_S1x256.numel_eq).symm (low i), Equiv.apply_symm_apply _ _⟩
  have he : (slotM d).view.emb z = i := by
    show (slotR d).emb (Shape.reshapeEquiv squeezes_S1x1x256_S1x256.numel_eq z) = i
    rw [hz]; exact emb_low d hi
  have he0 : (slotM 0).view.emb z = (slotR 0).emb (low i) := by
    show (slotR 0).emb (Shape.reshapeEquiv squeezes_S1x1x256_S1x256.numel_eq z) = _
    rw [hz]
  have hw := View.write_emb_of_mem (v := (slotM d).view) (Val := Elt F) fd
    ((slotM 0).view.read (Elt F) (commAt xs c)) (M := Finset.univ) (x := z) (Finset.mem_univ _)
  rw [he] at hw
  rw [hw, View.read_apply, he0]
  have hd : i 0 = d := Fin.ext ((mem_K d i).mp hi)
  show k0_pay1 (xs (src c (((slotR 0).emb (low i)) 0))) (low ((slotR 0).emb (low i)))
    = k0_pay1 (xs (src (peer c d) (i 0))) (low i)
  rw [emb_zero, low_emb, src_zero, hd, src_peer]

end Cert.Kernel.Slots

end
-- ==== Proof.KTblMem.lean ====
/-
  The table's memory, cut and rejoined. A device's table is one buffer of eight slots; the protocol holds it slot by
  slot, and slot 0 share by share (one read share per transfer that reads it, and the share the device keeps). Here
  are the cuts and the joins: the whole table into its eight slots, slot 0 into its read shares, the whole table at
  the one kept read share out of what the device holds while its transfers fly (and the way back), and everything
  rejoined at the end.
-/
import proofs.«900956_g7700000000000957_dist_mean_ax0_shard0_i_m512_n256_v7x_i8_bf16_1_alg».proof.Proof.KProto
import proofs.«900956_g7700000000000957_dist_mean_ax0_shard0_i_m512_n256_v7x_i8_bf16_1_alg».proof.Proof.KSlots
import Idealize.ShloMosaic.Rules.PointsTo
import Idealize.ShloMosaic.Lib.Transfers
import Idealize.ShloMosaic.Lib.Pipeline.Kit

set_option maxRecDepth 16384

noncomputable section

namespace Cert.Kernel.TblMem

open Cert.Kernel Cert.Kernel.Gen Cert.Kernel.Spec Cert.Kernel.Mem Cert.Kernel.Proto
open Cert.Kernel.Slots
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The location of device `c`'s table. -/
abbrev ℓt (c : Dev nD) : Loc nD τ sig := (c : Thread nD τ).loc cc0_scratch0

/-! ## Accesses to slot 0 through the whole table's memref stay inside slot 0 -/

/-- A load of slot 0's rectangle through the whole table reads only slot 0's elements. -/
theorem load_slot0_sub :
    (cM : Memref sig .tc .vmem S8x1x256 .f32).view.setOn
        (Rect.unit (s := S8x1x256) ![0, 0, 0] S1x1x256.size inb_S8x1x256_S1x1x256_0_0_0).toLoadRect.set
      ⊆ (slotM 0).view.set := by
  rw [slot_set]
  intro i hi
  obtain ⟨x, hx, rfl⟩ := Finset.mem_map.mp hi
  exact hx

/-- An unmasked store over slot 0's rectangle through the whole table writes only slot 0's elements. -/
theorem store_slot0_sub :
    ((cM : Memref sig .tc .vmem S8x1x256 .f32).access
        (Rect.unit (s := S8x1x256) ![0, 0, 0] S1x1x256.size inb_S8x1x256_S1x1x256_0_0_0) : View sig .tc _ _ _).setOn Finset.univ
      ⊆ (slotM 0).view.set := by
  rw [slot_set, View.setOn_univ]
  show ((View.whole cc0_scratch0).slice
    (Rect.unit (s := S8x1x256) ![0, 0, 0] S1x1x256.size inb_S8x1x256_S1x1x256_0_0_0)).set ⊆ K 0
  rw [View.set_slice_whole]
  exact subset_rfl

/-! ## Separating conjunctions over the offsets, written out -/

omit [FloatOps F] in
theorem bigSep_ds (Φ : Fin 8 → sProp 𝕄) : bigSep ds Φ = iprop(Φ 1 ∗ Φ 2 ∗ Φ 3 ∗ Φ 4 ∗ Φ 5 ∗ Φ 6 ∗ Φ 7) := by
  rw [ds_eq, bigSep_insert (by decide), bigSep_insert (by decide), bigSep_insert (by decide), bigSep_insert (by decide),
    bigSep_insert (by decide), bigSep_insert (by decide), bigSep_singleton]
  rfl

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## Slots as element sets of the one buffer -/

omit [FloatOps F] in
/-- Slot `d` held whole is the table's buffer held on the indices of slot `d`. -/
theorem slotPts_eq (c : Dev nD) (d : Fin 8) (f : Buf (Elt F) (ℓt c)) :
    (slotPts c d f : sProp 𝕄) = (ℓt c ↦[K d]{fullShare} f) := by
  unfold slotPts
  rw [slot_set]

/-- Slot 0 at the read share of offset `d`, the same way. -/
theorem srcPts_eq (c : Dev nD) (d : Fin 8) :
    (srcPts m c d : sProp 𝕄) = (ℓt c ↦[K 0]{qTok d} tbl m c) := by
  unfold srcPts
  rw [slot_set]

omit [FloatOps F] in
/-- The whole table at any share is slot 0 and the seven other slots at that share. -/
theorem tbl_cut (c : Dev nD) (q : PosShare TreeShare) (g : Buf (Elt F) (ℓt c)) :
    (ℓt c ↦[Finset.univ]{q} g : sProp 𝕄) = iprop((ℓt c ↦[K 0]{q} g) ∗ bigSep ds fun d => ℓt c ↦[K d]{q} g) := by
  refine Eq.trans (congrArg (fun S => (ℓt c ↦[S]{q} g : sProp 𝕄)) ?_)
    ((pointsTo_biUnion (ℓ := ℓt c) (q := q) (f := g) (Finset.univ : Finset (Fin 8)) K
      (fun t _ t' _ hne => K_disjoint hne)).trans ?_)
  · symm
    ext i
    simp only [Finset.mem_biUnion, Finset.mem_univ, true_and, iff_true]
    exact ⟨i 0, (mem_K (i 0) i).mpr rfl⟩
  · rw [bigSep_univ_split (0 : Fin 8)]
    rfl

omit [FloatOps F] in
/-- A slot held whole is its kept read share and its eight read shares. -/
theorem slot_keep (c : Dev nD) (d : Fin 8) (f : Buf (Elt F) (ℓt c)) :
    (ℓt c ↦[K d]{fullShare} f : sProp 𝕄)
      = iprop((ℓt c ↦[K d]{qKeep} f) ∗ bigSep Finset.univ fun i : Fin 8 => ℓt c ↦[K d]{qTok i} f) := by
  have h : (ℓt c ↦[K d]{fullShare} f : sProp 𝕄)
      ⊣⊢ iprop((ℓt c ↦[K d]{qKeep} f) ∗ bigSep Finset.univ fun i : Fin 8 => ℓt c ↦[K d]{qTok i} f) :=
    Transfers.pointsTo_toks fullShare 8
  exact BI.equiv_iff.mp ⟨h.1, h.2⟩

omit [FloatOps F] in
/-- Slot 0 held whole is the kept read share, the read share of offset 0 (which no transfer uses), and the seven
    read shares the transfers are lent. -/
theorem slot0_shares (c : Dev nD) (f : Buf (Elt F) (ℓt c)) :
    (ℓt c ↦[K 0]{fullShare} f : sProp 𝕄)
      = iprop((ℓt c ↦[K 0]{qKeep} f) ∗ (ℓt c ↦[K 0]{qTok 0} f) ∗ bigSep ds fun d => ℓt c ↦[K 0]{qTok d} f) := by
  rw [slot_keep c 0 f, bigSep_univ_split (0 : Fin 8)]
  rfl

/-! ## The table cut into its eight slots -/

omit [FloatOps F] in
theorem begin0 (c : Dev nD) (g : Buf (Elt F) (ℓt c)) :
    (ℓt c ↦{fullShare} g : sProp 𝕄) ⊢ iprop(slotPts c 0 g ∗ bigSep ds fun d => slotPts c d g) := by
  refine Entails.of_eq ?_
  rw [bigSep_congr (fun d _ => slotPts_eq c d g), slotPts_eq]
  exact tbl_cut c fullShare g

/-! ## Slot 0's read shares -/

theorem lend0 (c : Dev nD) :
    (slotPts c 0 (tbl m c) : sProp 𝕄)
      ⊢ iprop((ℓt c ↦[K 0]{qKeep} tbl m c) ∗ (ℓt c ↦[K 0]{qTok 0} tbl m c) ∗ bigSep ds fun d => srcPts m c d) := by
  refine Entails.of_eq ?_
  rw [bigSep_congr (fun d _ => srcPts_eq m c d), slotPts_eq]
  exact slot0_shares c (tbl m c)

/-! ## While the transfers fly -/

/-- What a device holds of its table while its transfers fly: of slot 0 the kept read share and the read share of
    offset 0 (which no transfer uses), and the seven other slots whole. -/
def Held (c : Dev nD) : sProp 𝕄 :=
  iprop((ℓt c ↦[K 0]{qKeep} tbl m c) ∗ (ℓt c ↦[K 0]{qTok 0} tbl m c) ∗ bigSep ds fun d => slotPts c d (tbl m c))

/-- What stays behind while the whole table is read at the kept read share: slot 0's unused read share and the
    eight read shares of each other slot. -/
def Rest (c : Dev nD) : sProp 𝕄 :=
  iprop((ℓt c ↦[K 0]{qTok 0} tbl m c)
    ∗ bigSep ds fun d => bigSep Finset.univ fun i : Fin 8 => ℓt c ↦[K d]{qTok i} tbl m c)

/-- Each of the slots 1 to 7 cut into its kept read share and its eight read shares, the eight kept parts gathered
    over the partition of the table. -/
theorem Held_split (c : Dev nD) : Held m c ⊢ iprop((ℓt c ↦[Finset.univ]{qKeep} tbl m c) ∗ Rest m c) := by
  unfold Held Rest
  rw [bigSep_congr (fun d _ => (slotPts_eq c d (tbl m c)).trans (slot_keep c d (tbl m c))), bigSep_sep',
    tbl_cut c qKeep (tbl m c)]
  iintro ⟨A, B, X, Y⟩
  isplitl [A X]
  · isplitl [A]; · iexact A
    iexact X
  · isplitl [B]; · iexact B
    iexact Y

/-- And back. -/
theorem Held_join (c : Dev nD) : iprop((ℓt c ↦[Finset.univ]{qKeep} tbl m c) ∗ Rest m c) ⊢ Held m c := by
  unfold Held Rest
  rw [bigSep_congr (fun d _ => (slotPts_eq c d (tbl m c)).trans (slot_keep c d (tbl m c))), bigSep_sep',
    tbl_cut c qKeep (tbl m c)]
  iintro ⟨⟨A, X⟩, B, Y⟩
  isplitl [A]; · iexact A
  isplitl [B]; · iexact B
  isplitl [X]; · iexact X
  iexact Y

/-- The whole table at the one kept read share, and the way back. -/
theorem load_open (c : Dev nD) :
    Held m c ⊢ iprop((ℓt c ↦[Finset.univ]{qKeep} tbl m c) ∗ ((ℓt c ↦[Finset.univ]{qKeep} tbl m c) -∗ Held m c)) := by
  refine (Held_split m c).trans ?_
  iintro ⟨HW, HR⟩
  isplitl [HW]; · iexact HW
  iintro HW
  iapply (Held_join m c)
  isplitl [HW]; · iexact HW
  iexact HR

/-! ## Everything back -/

/-- Slot 0's shares rejoined, then the eight slots. -/
theorem finish (c : Dev nD) :
    iprop(Held m c ∗ bigSep ds fun d => srcPts m c d) ⊢ (ℓt c ↦{fullShare} tbl m c : sProp 𝕄) := by
  unfold Held
  rw [bigSep_congr (fun d _ => srcPts_eq m c d), bigSep_congr (fun d _ => slotPts_eq c d (tbl m c)),
    tbl_cut c fullShare (tbl m c), slot0_shares c (tbl m c)]
  iintro ⟨⟨A, B, S⟩, R⟩
  isplitl [A B R]
  · isplitl [A]; · iexact A
    isplitl [B]; · iexact B
    iexact R
  · iexact S

end Cert.Kernel.TblMem

end
-- ==== Proof.KBody.lean ====
/-
  One device's body, stepped once at a symbolic device `c` of the ring of eight.
  In program order: it tells each of the seven other devices, on that device's barrier cell, that it is inside the kernel,
  and with each of these signals hands over the one slot of its table that device will write; it sums the rows of its block
  into slot 0; it waits until the seven others have told it the same, which brings it their slots; it sends slot 0 into slot
  `d` of the device `d` places after it, lending each of the seven transfers one read share of slot 0; it waits for the seven
  rows addressed to it, after which slot `d` holds the row sum of the device `d` places before it; it reads the whole table
  through the read share it kept, sums the eight slots, scales and stores the result; it waits for its own seven transfers,
  which returns the read shares; and it hands the table back whole with its sixteen own semaphores at zero.
  A transfer is one rule of the rounds discipline stated at a variable offset `d` (`wp_snd`), the program's text its
  instances at the literal offsets; the signals and the waits are read off the schedule's tables, stated as equations with
  the table's entry on the left.
-/
import proofs.«900956_g7700000000000957_dist_mean_ax0_shard0_i_m512_n256_v7x_i8_bf16_1_alg».proof.Proof.KProto
import proofs.«900956_g7700000000000957_dist_mean_ax0_shard0_i_m512_n256_v7x_i8_bf16_1_alg».proof.Proof.KSlots
import proofs.«900956_g7700000000000957_dist_mean_ax0_shard0_i_m512_n256_v7x_i8_bf16_1_alg».proof.Proof.KTblMem
import proofs.«900956_g7700000000000957_dist_mean_ax0_shard0_i_m512_n256_v7x_i8_bf16_1_alg».proof.Proof.Gen.Kernel.Skeleton
import Idealize.ShloMosaic.Lib.Tactic

set_option maxRecDepth 65536

noncomputable section

namespace Cert.Kernel.Body

open Cert.Kernel Cert.Kernel.Gen Cert.Kernel.Spec Cert.Kernel.Mem Cert.Kernel.Proto Cert.Kernel.Slots Cert.Kernel.TblMem
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 1 := Fin.ext (k0_dev8_eq c)
theorem dev9_eq (c : Dev nD) : (⟨k0_dev9 c, k0_dev9_lt c⟩ : Dev nD) = peer c 2 := Fin.ext (k0_dev9_eq c)
theorem dev10_eq (c : Dev nD) : (⟨k0_dev10 c, k0_dev10_lt c⟩ : Dev nD) = peer c 3 := Fin.ext (k0_dev10_eq c)
theorem dev11_eq (c : Dev nD) : (⟨k0_dev11 c, k0_dev11_lt c⟩ : Dev nD) = peer c 4 := Fin.ext (k0_dev11_eq c)
theorem dev12_eq (c : Dev nD) : (⟨k0_dev12 c, k0_dev12_lt c⟩ : Dev nD) = peer c 5 := Fin.ext (k0_dev12_eq c)
theorem dev13_eq (c : Dev nD) : (⟨k0_dev13 c, k0_dev13_lt c⟩ : Dev nD) = peer c 6 := Fin.ext (k0_dev13_eq c)
theorem dev14_eq (c : Dev nD) : (⟨k0_dev14 c, k0_dev14_lt c⟩ : Dev nD) = peer c 7 := Fin.ext (k0_dev14_eq c)

/-! ## The point, the windows -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The transfer, at a variable offset -/
/-- The transfer of slot `0` into slot `d` of `peer c d`: the read share `d` of slot 0 is lent until the send cell's round
    is waited for, and slot `d` of the receiver lands holding the receiver's final table there. -/
theorem wp_snd (K : Dev nD × CI → ℕ) (c : Dev nD) (d : Fin 8) (hd : d ≠ 0) (n : Dev nD) (hn : n = peer c d)
    {hsc : (slotM d : Memref sig (Dev.tc n : Thread nD τ).2.kind .vmem S1x256 .f32).view.ref.isScScratch = false}
    {hsrc : (slotM 0 : Memref sig .tc .vmem S1x256 .f32).view.WordExact} {hdst : (slotM d : Memref sig .tc .vmem S1x256 .f32).view.WordExact}
    {hsem : DmaTarget.Typed .vmem (.dma (recvQ d)) (.remote (Dev.tc n : Thread nD τ) (slotM d : Memref sig .tc .vmem S1x256 .f32) (.dma (sendQ d)) hsc)}
    {α : Type} {Q : α → sProp 𝕄} {k : PUnit → Prog (TpuEff nD τ sig (Elt F) Λ₀ .tc) α}
    (fn : Buf (Elt F) ((slotM d).view.loc (peer c d : Thread nD τ))) (O : CellTallies nD τ sig Unit) (W : Waits sig Unit) :
    iprop(records m K ∗ srcPts m c d ∗ slotPts (peer c d) d fn ∗ owes (c : Thread nD τ) (O + Rt c d) W
        ∗ dutyTok ER (sendCell c d) 0 (0 : Fin 8) ∗ dutyTok ER (recvCell (peer c d) d) 0 (0 : Fin 8))
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM d) (.dma (sendQ d)) hsc) (.dma (recvQ d)) hsrc hdst hsem) k) Q) := by
  subst hn
  unfold srcPts slotPts
  refine BIBase.Entails.trans ?_ (Rounds.wp_send_pointsTo 𝒱₀ ER (Rd m) (c : Thread nD τ) none (c' := (peer c d : Thread nD τ))
    (src := slotM 0) (dst := slotM d) (q := qTok d) (fs := tbl m c) (κ₁ := K (c, kSend d)) (κ₂ := K (peer c d, kRecv d))
    (r₁ := 0) (r₂ := 0) (d₁ := 0) (d₂ := 0) (fd := fn)
    (by rw [duties_send m c hd]; exact Finset.mem_singleton_self _) (by rw [duties_recv m (peer c d) hd]; exact Finset.mem_singleton_self _)
    () () N rfl (amount_send m c hd 0) (amount_recv m (peer c d) hd 0) O rfl (W := W)
    (by rw [payload_send m c hd]; unfold sendPay srcPts; exact BI.Entails.refl _)
    (by
      rw [payload_recv m (peer c d) hd]; unfold recvPay slotPts
      exact Entails.of_eq (pointsTo_congr fun i hi => landing (xstg m) c d fn (slot_set d ▸ hi))))
  iintro ⟨#HR, Hsrc, Hdst, HO, Ht1, Ht2⟩
  isplitr; · iapply (inv_at m K (c, kSend d)); iexact HR
  isplitr; · iapply (inv_at m K (peer c d, kRecv d)); iexact HR
  isplitl [Hsrc]; · iexact Hsrc
  isplitl [Hdst]; · iexact Hdst
  isplitl [HO]; · iexact HO
  isplitl [Ht1]; · iexact Ht1
  isplitr; · iapply (reached_at m K (c, kSend d)); iexact HR
  isplitl [Ht2]; · iexact Ht2
  iapply (reached_at m K (peer c d, kRecv d)); iexact HR

/-- Slot 0 once the row sum is stored: it holds the final table there. -/
theorem slot0_stored (c : Dev nD) (f0 : Buf (Elt F) ((slotM 0).view.loc (c : Thread nD τ))) :
    ((slotM 0).view.loc (c : Thread nD τ)
        ↦[(slotM 0).view.set]{fullShare}
          (((cM : Memref sig .tc .vmem S8x1x256 .f32).access (Rect.unit (s := S8x1x256) ![0, 0, 0] S1x1x256.size inb_S8x1x256_S1x1x256_0_0_0) : View sig .tc _ _ _).write (Elt F) f0 (k0_pay1 (xstg m c)) Finset.univ) : sProp 𝕄)
      ⊢ slotPts c 0 (tbl m c) := by
  unfold slotPts
  exact Entails.of_eq (pointsTo_congr fun i hi => store_slot0_lit (xstg m) c f0 (slot_set 0 ▸ hi))

omit [FloatOps F] in
/-- The one store over the whole result row, as a one-piece list of writes, leaves the stored row. -/
theorem writes_out (f w : Vec F S1x256 .f32) :
    (oM : Memref sig .tc .vmem S1x256 .f32).view.writes (Elt F) f
      [⟨Rect.unit (s := S1x256) ![0, 0] S1x256.size inb_S1x256_S1x256_0_0, w⟩] = w :=
  write_out f w

/-! ## The cells' invariants and marks by name, and the schedule's tables as equations with the entry on the left -/

attribute [local sl_canon] dev1_eq dev2_eq dev3_eq dev4_eq dev5_eq dev6_eq dev7_eq

theorem neg1 : neg 1 = 7 := by decide
theorem neg2 : neg 2 = 6 := by decide
theorem neg3 : neg 3 = 5 := by decide
theorem neg4 : neg 4 = 4 := by decide
theorem neg5 : neg 5 = 3 := by decide
theorem neg6 : neg 6 = 2 := by decide
theorem neg7 : neg 7 = 1 := by decide

section Tables
variable (K : Dev nD × CI → ℕ)

theorem inv_bar (p : Dev nD) : records m K ⊢ cellInv ER (Rd m) (K (p, kBar)) (barCell p) := inv_at m K (p, kBar)
theorem inv_send (c : Dev nD) (d : Fin 8) : records m K ⊢ cellInv ER (Rd m) (K (c, kSend d)) (sendCell c d) := inv_at m K (c, kSend d)
theorem inv_recv (p : Dev nD) (d : Fin 8) : records m K ⊢ cellInv ER (Rd m) (K (p, kRecv d)) (recvCell p d) := inv_at m K (p, kRecv d)
theorem reached_bar (p : Dev nD) : records m K ⊢ reached ER (barCell p) 0 := reached_at m K (p, kBar)
theorem reached_recv (p : Dev nD) (d : Fin 8) : records m K ⊢ reached ER (recvCell p d) 0 := reached_at m K (p, kRecv d)

/-- A barrier cell's duties, listed. -/
theorem duties_barL (p : Dev nD) : (Rd (F := F) m).duties (barCell p) 0 = ({1, 2, 3, 4, 5, 6, 7} : Finset (Fin 8)) := (duties_bar m p).trans ds_eq

/-- What the device `e` places after `p` hands `p` with its signal, that device named `q`. -/
theorem barPay_at (p q : Dev nD) (e : Fin 8) (h : peer p e = q) :
    barPay (F := F) p e = iprop((∃ f, (slotM e).view.loc (q : Thread nD τ) ↦[(slotM e).view.set]{fullShare} f) ∗ reached ER (recvCell q e) 0) := by
  subst h; rfl

/-- The payload of duty `e` on device `c`'s own barrier cell. -/
theorem pay_own (c : Dev nD) (e : Fin 8) : (Rd (F := F) m).payload (barCell c) 0 e
    = iprop((∃ f, (slotM e).view.loc (peer c e : Thread nD τ) ↦[(slotM e).view.set]{fullShare} f) ∗ reached ER (recvCell (peer c e) e) 0) :=
  (payload_bar m c e).trans (barPay_at _ _ e rfl)
-- The payload of the duty device `c` pays on the barrier cell of `peer c d`: the payer is `c` itself.
theorem pay1 (c : Dev nD) : (Rd (F := F) m).payload (barCell (peer c 1)) 0 7
    = iprop((∃ f, (slotM 7).view.loc (c : Thread nD τ) ↦[(slotM 7).view.set]{fullShare} f) ∗ reached ER (recvCell c 7) 0) :=
  (payload_bar m (peer c 1) 7).trans (barPay_at _ _ 7 (peer_peer_neg c 1))
theorem pay2 (c : Dev nD) : (Rd (F := F) m).payload (barCell (peer c 2)) 0 6
    = iprop((∃ f, (slotM 6).view.loc (c : Thread nD τ) ↦[(slotM 6).view.set]{fullShare} f) ∗ reached ER (recvCell c 6) 0) :=
  (payload_bar m (peer c 2) 6).trans (barPay_at _ _ 6 (peer_peer_neg c 2))
theorem pay3 (c : Dev nD) : (Rd (F := F) m).payload (barCell (peer c 3)) 0 5
    = iprop((∃ f, (slotM 5).view.loc (c : Thread nD τ) ↦[(slotM 5).view.set]{fullShare} f) ∗ reached ER (recvCell c 5) 0) :=
  (payload_bar m (peer c 3) 5).trans (barPay_at _ _ 5 (peer_peer_neg c 3))
theorem pay4 (c : Dev nD) : (Rd (F := F) m).payload (barCell (peer c 4)) 0 4
    = iprop((∃ f, (slotM 4).view.loc (c : Thread nD τ) ↦[(slotM 4).view.set]{fullShare} f) ∗ reached ER (recvCell c 4) 0) :=
  (payload_bar m (peer c 4) 4).trans (barPay_at _ _ 4 (peer_peer_neg c 4))
theorem pay5 (c : Dev nD) : (Rd (F := F) m).payload (barCell (peer c 5)) 0 3
    = iprop((∃ f, (slotM 3).view.loc (c : Thread nD τ) ↦[(slotM 3).view.set]{fullShare} f) ∗ reached ER (recvCell c 3) 0) :=
  (payload_bar m (peer c 5) 3).trans (barPay_at _ _ 3 (peer_peer_neg c 5))
theorem pay6 (c : Dev nD) : (Rd (F := F) m).payload (barCell (peer c 6)) 0 2
    = iprop((∃ f, (slotM 2).view.loc (c : Thread nD τ) ↦[(slotM 2).view.set]{fullShare} f) ∗ reached ER (recvCell c 2) 0) :=
  (payload_bar m (peer c 6) 2).trans (barPay_at _ _ 2 (peer_peer_neg c 6))
theorem pay7 (c : Dev nD) : (Rd (F := F) m).payload (barCell (peer c 7)) 0 1
    = iprop((∃ f, (slotM 1).view.loc (c : Thread nD τ) ↦[(slotM 1).view.set]{fullShare} f) ∗ reached ER (recvCell c 1) 0) :=
  (payload_bar m (peer c 7) 1).trans (barPay_at _ _ 1 (peer_peer_neg c 7))

-- The send and receive cells' tables at the seven offsets in use.
theorem dsend1 (c : Dev nD) : (Rd (F := F) m).duties (sendCell c 1) 0 = {0} := duties_send m c (by decide)
theorem drecv1 (p : Dev nD) : (Rd (F := F) m).duties (recvCell p 1) 0 = {0} := duties_recv m p (by decide)
theorem asend1 (c : Dev nD) (e : Fin 8) : (Rd (F := F) m).amount (sendCell c 1) 0 e = N := amount_send m c (by decide) e
theorem arecv1 (p : Dev nD) (e : Fin 8) : (Rd (F := F) m).amount (recvCell p 1) 0 e = N := amount_recv m p (by decide) e
theorem esend1 (c : Dev nD) : (Rd (F := F) m).expect (sendCell c 1) 0 = N := expect_send m c (by decide)
theorem erecv1 (p : Dev nD) : (Rd (F := F) m).expect (recvCell p 1) 0 = N := expect_recv m p (by decide)
theorem psend1 (c : Dev nD) (e : Fin 8) : (Rd (F := F) m).payload (sendCell c 1) 0 e
    = ((slotM 0).view.loc (c : Thread nD τ) ↦[(slotM 0).view.set]{qTok 1} tbl m c) := payload_send m c (by decide) e
theorem precv1 (p : Dev nD) (e : Fin 8) : (Rd (F := F) m).payload (recvCell p 1) 0 e
    = ((slotM 1).view.loc (p : Thread nD τ) ↦[(slotM 1).view.set]{fullShare} tbl m p) := payload_recv m p (by decide) e
theorem dsend2 (c : Dev nD) : (Rd (F := F) m).duties (sendCell c 2) 0 = {0} := duties_send m c (by decide)
theorem drecv2 (p : Dev nD) : (Rd (F := F) m).duties (recvCell p 2) 0 = {0} := duties_recv m p (by decide)
theorem asend2 (c : Dev nD) (e : Fin 8) : (Rd (F := F) m).amount (sendCell c 2) 0 e = N := amount_send m c (by decide) e
theorem arecv2 (p : Dev nD) (e : Fin 8) : (Rd (F := F) m).amount (recvCell p 2) 0 e = N := amount_recv m p (by decide) e
theorem esend2 (c : Dev nD) : (Rd (F := F) m).expect (sendCell c 2) 0 = N := expect_send m c (by decide)
theorem erecv2 (p : Dev nD) : (Rd (F := F) m).expect (recvCell p 2) 0 = N := expect_recv m p (by decide)
theorem psend2 (c : Dev nD) (e : Fin 8) : (Rd (F := F) m).payload (sendCell c 2) 0 e
    = ((slotM 0).view.loc (c : Thread nD τ) ↦[(slotM 0).view.set]{qTok 2} tbl m c) := payload_send m c (by decide) e
theorem precv2 (p : Dev nD) (e : Fin 8) : (Rd (F := F) m).payload (recvCell p 2) 0 e
    = ((slotM 2).view.loc (p : Thread nD τ) ↦[(slotM 2).view.set]{fullShare} tbl m p) := payload_recv m p (by decide) e
theorem dsend3 (c : Dev nD) : (Rd (F := F) m).duties (sendCell c 3) 0 = {0} := duties_send m c (by decide)
theorem drecv3 (p : Dev nD) : (Rd (F := F) m).duties (recvCell p 3) 0 = {0} := duties_recv m p (by decide)
theorem asend3 (c : Dev nD) (e : Fin 8) : (Rd (F := F) m).amount (sendCell c 3) 0 e = N := amount_send m c (by decide) e
theorem arecv3 (p : Dev nD) (e : Fin 8) : (Rd (F := F) m).amount (recvCell p 3) 0 e = N := amount_recv m p (by decide) e
theorem esend3 (c : Dev nD) : (Rd (F := F) m).expect (sendCell c 3) 0 = N := expect_send m c (by decide)
theorem erecv3 (p : Dev nD) : (Rd (F := F) m).expect (recvCell p 3) 0 = N := expect_recv m p (by decide)
theorem psend3 (c : Dev nD) (e : Fin 8) : (Rd (F := F) m).payload (sendCell c 3) 0 e
    = ((slotM 0).view.loc (c : Thread nD τ) ↦[(slotM 0).view.set]{qTok 3} tbl m c) := payload_send m c (by decide) e
theorem precv3 (p : Dev nD) (e : Fin 8) : (Rd (F := F) m).payload (recvCell p 3) 0 e
    = ((slotM 3).view.loc (p : Thread nD τ) ↦[(slotM 3).view.set]{fullShare} tbl m p) := payload_recv m p (by decide) e
theorem dsend4 (c : Dev nD) : (Rd (F := F) m).duties (sendCell c 4) 0 = {0} := duties_send m c (by decide)
theorem drecv4 (p : Dev nD) : (Rd (F := F) m).duties (recvCell p 4) 0 = {0} := duties_recv m p (by decide)
theorem asend4 (c : Dev nD) (e : Fin 8) : (Rd (F := F) m).amount (sendCell c 4) 0 e = N := amount_send m c (by decide) e
theorem arecv4 (p : Dev nD) (e : Fin 8) : (Rd (F := F) m).amount (recvCell p 4) 0 e = N := amount_recv m p (by decide) e
theorem esend4 (c : Dev nD) : (Rd (F := F) m).expect (sendCell c 4) 0 = N := expect_send m c (by decide)
theorem erecv4 (p : Dev nD) : (Rd (F := F) m).expect (recvCell p 4) 0 = N := expect_recv m p (by decide)
theorem psend4 (c : Dev nD) (e : Fin 8) : (Rd (F := F) m).payload (sendCell c 4) 0 e
    = ((slotM 0).view.loc (c : Thread nD τ) ↦[(slotM 0).view.set]{qTok 4} tbl m c) := payload_send m c (by decide) e
theorem precv4 (p : Dev nD) (e : Fin 8) : (Rd (F := F) m).payload (recvCell p 4) 0 e
    = ((slotM 4).view.loc (p : Thread nD τ) ↦[(slotM 4).view.set]{fullShare} tbl m p) := payload_recv m p (by decide) e
theorem dsend5 (c : Dev nD) : (Rd (F := F) m).duties (sendCell c 5) 0 = {0} := duties_send m c (by decide)
theorem drecv5 (p : Dev nD) : (Rd (F := F) m).duties (recvCell p 5) 0 = {0} := duties_recv m p (by decide)
theorem asend5 (c : Dev nD) (e : Fin 8) : (Rd (F := F) m).amount (sendCell c 5) 0 e = N := amount_send m c (by decide) e
theorem arecv5 (p : Dev nD) (e : Fin 8) : (Rd (F := F) m).amount (recvCell p 5) 0 e = N := amount_recv m p (by decide) e
theorem esend5 (c : Dev nD) : (Rd (F := F) m).expect (sendCell c 5) 0 = N := expect_send m c (by decide)
theorem erecv5 (p : Dev nD) : (Rd (F := F) m).expect (recvCell p 5) 0 = N := expect_recv m p (by decide)
theorem psend5 (c : Dev nD) (e : Fin 8) : (Rd (F := F) m).payload (sendCell c 5) 0 e
    = ((slotM 0).view.loc (c : Thread nD τ) ↦[(slotM 0).view.set]{qTok 5} tbl m c) := payload_send m c (by decide) e
theorem precv5 (p : Dev nD) (e : Fin 8) : (Rd (F := F) m).payload (recvCell p 5) 0 e
    = ((slotM 5).view.loc (p : Thread nD τ) ↦[(slotM 5).view.set]{fullShare} tbl m p) := payload_recv m p (by decide) e
theorem dsend6 (c : Dev nD) : (Rd (F := F) m).duties (sendCell c 6) 0 = {0} := duties_send m c (by decide)
theorem drecv6 (p : Dev nD) : (Rd (F := F) m).duties (recvCell p 6) 0 = {0} := duties_recv m p (by decide)
theorem asend6 (c : Dev nD) (e : Fin 8) : (Rd (F := F) m).amount (sendCell c 6) 0 e = N := amount_send m c (by decide) e
theorem arecv6 (p : Dev nD) (e : Fin 8) : (Rd (F := F) m).amount (recvCell p 6) 0 e = N := amount_recv m p (by decide) e
theorem esend6 (c : Dev nD) : (Rd (F := F) m).expect (sendCell c 6) 0 = N := expect_send m c (by decide)
theorem erecv6 (p : Dev nD) : (Rd (F := F) m).expect (recvCell p 6) 0 = N := expect_recv m p (by decide)
theorem psend6 (c : Dev nD) (e : Fin 8) : (Rd (F := F) m).payload (sendCell c 6) 0 e
    = ((slotM 0).view.loc (c : Thread nD τ) ↦[(slotM 0).view.set]{qTok 6} tbl m c) := payload_send m c (by decide) e
theorem precv6 (p : Dev nD) (e : Fin 8) : (Rd (F := F) m).payload (recvCell p 6) 0 e
    = ((slotM 6).view.loc (p : Thread nD τ) ↦[(slotM 6).view.set]{fullShare} tbl m p) := payload_recv m p (by decide) e
theorem dsend7 (c : Dev nD) : (Rd (F := F) m).duties (sendCell c 7) 0 = {0} := duties_send m c (by decide)
theorem drecv7 (p : Dev nD) : (Rd (F := F) m).duties (recvCell p 7) 0 = {0} := duties_recv m p (by decide)
theorem asend7 (c : Dev nD) (e : Fin 8) : (Rd (F := F) m).amount (sendCell c 7) 0 e = N := amount_send m c (by decide) e
theorem arecv7 (p : Dev nD) (e : Fin 8) : (Rd (F := F) m).amount (recvCell p 7) 0 e = N := amount_recv m p (by decide) e
theorem esend7 (c : Dev nD) : (Rd (F := F) m).expect (sendCell c 7) 0 = N := expect_send m c (by decide)
theorem erecv7 (p : Dev nD) : (Rd (F := F) m).expect (recvCell p 7) 0 = N := expect_recv m p (by decide)
theorem psend7 (c : Dev nD) (e : Fin 8) : (Rd (F := F) m).payload (sendCell c 7) 0 e
    = ((slotM 0).view.loc (c : Thread nD τ) ↦[(slotM 0).view.set]{qTok 7} tbl m c) := payload_send m c (by decide) e
theorem precv7 (p : Dev nD) (e : Fin 8) : (Rd (F := F) m).payload (recvCell p 7) 0 e
    = ((slotM 7).view.loc (p : Thread nD τ) ↦[(slotM 7).view.set]{fullShare} tbl m p) := payload_recv m p (by decide) e

omit [FloatOps F] in
/-- The staged block, held through its whole memref's location. -/
theorem hold_x (c : Dev nD) (f : Buf (Elt F) ((c : Thread nD τ).loc cc0_stg0_0)) :
    (((c : Thread nD τ).loc cc0_stg0_0) ↦{fullShare} f : sProp 𝕄) ⊢ ((xM).view.loc (c : Thread nD τ) ↦{fullShare} f) := BI.Entails.refl _
omit [FloatOps F] in
theorem hold_o (c : Dev nD) (f : Buf (Elt F) ((c : Thread nD τ).loc cc0_stg1_0)) :
    (((c : Thread nD τ).loc cc0_stg1_0) ↦{fullShare} f : sProp 𝕄) ⊢ ((oM).view.loc (c : Thread nD τ) ↦{fullShare} f) := BI.Entails.refl _
omit [FloatOps F] in
theorem held_x (c : Dev nD) (f : Buf (Elt F) ((c : Thread nD τ).loc cc0_stg0_0)) :
    ((xM).view.loc (c : Thread nD τ) ↦{fullShare} f : sProp 𝕄) ⊢ (((c : Thread nD τ).loc cc0_stg0_0) ↦{fullShare} f) := BI.Entails.refl _
omit [FloatOps F] in
theorem held_o (c : Dev nD) (f : Buf (Elt F) ((c : Thread nD τ).loc cc0_stg1_0)) :
    ((oM).view.loc (c : Thread nD τ) ↦{fullShare} f : sProp 𝕄) ⊢ (((c : Thread nD τ).loc cc0_stg1_0) ↦{fullShare} f) := BI.Entails.refl _

omit [FloatOps F] in
/-- A chain of seven, re-bracketed. -/
theorem chain7 (A1 A2 A3 A4 A5 A6 A7 : sProp 𝕄) :
    BI.sep A1 (BI.sep A2 (BI.sep A3 (BI.sep A4 (BI.sep A5 (BI.sep A6 A7))))) ⊢ iprop(A1 ∗ A2 ∗ A3 ∗ A4 ∗ A5 ∗ A6 ∗ A7) := BI.Entails.refl _

omit [FloatOps F] in
/-- The table cut into its eight slots, the last slot first. -/
theorem begin7 (c : Dev nD) (g : Buf (Elt F) (ℓt c)) :
    (ℓt c ↦{fullShare} g : sProp 𝕄) ⊢ iprop(slotPts c 7 g ∗ slotPts c 6 g ∗ slotPts c 5 g ∗ slotPts c 4 g ∗ slotPts c 3 g ∗ slotPts c 2 g ∗ slotPts c 1 g ∗ slotPts c 0 g) := by
  refine (begin0 c g).trans ?_
  rw [bigSep_ds]
  iintro ⟨H0, H1, H2, H3, H4, H5, H6, H7⟩
  isplitl [H7]; · iexact H7
  isplitl [H6]; · iexact H6
  isplitl [H5]; · iexact H5
  isplitl [H4]; · iexact H4
  isplitl [H3]; · iexact H3
  isplitl [H2]; · iexact H2
  isplitl [H1]; · iexact H1
  iexact H0

end Tables

attribute [local sl_rounds] duties_barL amount_bar expect_bar pay_own dsend1 drecv1 asend1 arecv1 esend1 erecv1 psend1 precv1 dsend2 drecv2 asend2 arecv2 esend2 erecv2 psend2 precv2 dsend3 drecv3 asend3 arecv3 esend3 erecv3 psend3 precv3 dsend4 drecv4 asend4 arecv4 esend4 erecv4 psend4 precv4 dsend5 drecv5 asend5 arecv5 esend5 erecv5 psend5 precv5 dsend6 drecv6 asend6 arecv6 esend6 erecv6 psend6 precv6 dsend7 drecv7 asend7 arecv7 esend7 erecv7 psend7 precv7
attribute [local sl_rounds high] pay1 pay2 pay3 pay4 pay5 pay6 pay7

/-! ## The body -/

section Body

variable (K : Dev nD × CI → ℕ)

def bodyPre (c : Dev nD) : sProp 𝕄 :=
  iprop((ghost m K c ∗ cred (tallyAt (barCell c) () 7) ∗ (bigSep ds fun d => cred (tallyAt (recvCell c d) () N)) ∗ levAts L lv ∗ tblAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m c) ∗ stg c cc0_stg1_0 (outAt (xstg m) c))

/-- After the point the device owes nothing, whatever waits it has recorded. -/
theorem owes_done (c : Dev nD) (W' : Waits sig Unit) : owes (c : Thread nD τ) 0 W' ⊢ (dats m ρ 0 c).owesAt () t₀.succ := by
  unfold Dat.owesAt Pipeline.owesWithin
  rw [show (dats m ρ 0 c).owed t₀.succ = 0 from rfl]
  iintro HO
  iexists W'
  isplitr; · ipureintro; exact fun _ _ => Or.inl trivial
  iexact HO

set_option maxHeartbeats 8000000 in
/-- The body on device `c`, in program order: the seven signals (each hands one slot of the table to the device that will
    write it), the row sum stored into slot 0, the wait for the seven peers' units (their slots come with it), the seven
    transfers (each lent one read share of slot 0), the seven receive waits (the slots come back holding the peers' row
    sums), the table read whole at the share the device kept, the result stored, the seven send waits (the read shares come
    back), the sixteen own cells closed and the table put together again. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre ghost positions payToks tblAny
  simp only [bigSep_ds, bigSep_fin8, neg1, neg2, neg3, neg4, neg5, neg6, neg7]
  iintro ⟨⟨⟨⟨#HR, ⟨HatB, ⟨HaS0, HaS1, HaS2, HaS3, HaS4, HaS5, HaS6, HaS7⟩, ⟨HaV0, HaV1, HaV2, HaV3, HaV4, HaV5, HaV6, HaV7⟩⟩, ⟨⟨HtB1, HtB2, HtB3, HtB4, HtB5, HtB6, HtB7⟩, ⟨HtV1, HtV2, HtV3, HtV4, HtV5, HtV6, HtV7⟩, ⟨HtS1, HtS2, HtS3, HtS4, HtS5, HtS6, HtS7⟩⟩⟩, HcB, ⟨HcV1, HcV2, HcV3, HcV4, HcV5, HcV6, HcV7⟩, #Hlev, ⟨%f0, Htbl⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ Bt
  -- the table cut into its eight slots
  ihave Hs := (begin7 c f0) $$ Htbl
  icases Hs with ⟨Hs7, Hs6, Hs5, Hs4, Hs3, Hs2, Hs1, Hs0⟩
  -- the seven peers' barrier invariants and reached marks, this device's own, and its receive cells' marks
  ihave #HIb1 := (inv_bar m K (peer c 1)) $$ HR
  ihave #Hrb1 := (reached_bar m K (peer c 1)) $$ HR
  ihave #Hrv1 := (reached_recv m K c 1) $$ HR
  ihave #HIb2 := (inv_bar m K (peer c 2)) $$ HR
  ihave #Hrb2 := (reached_bar m K (peer c 2)) $$ HR
  ihave #Hrv2 := (reached_recv m K c 2) $$ HR
  ihave #HIb3 := (inv_bar m K (peer c 3)) $$ HR
  ihave #Hrb3 := (reached_bar m K (peer c 3)) $$ HR
  ihave #Hrv3 := (reached_recv m K c 3) $$ HR
  ihave #HIb4 := (inv_bar m K (peer c 4)) $$ HR
  ihave #Hrb4 := (reached_bar m K (peer c 4)) $$ HR
  ihave #Hrv4 := (reached_recv m K c 4) $$ HR
  ihave #HIb5 := (inv_bar m K (peer c 5)) $$ HR
  ihave #Hrb5 := (reached_bar m K (peer c 5)) $$ HR
  ihave #Hrv5 := (reached_recv m K c 5) $$ HR
  ihave #HIb6 := (inv_bar m K (peer c 6)) $$ HR
  ihave #Hrb6 := (reached_bar m K (peer c 6)) $$ HR
  ihave #Hrv6 := (reached_recv m K c 6) $$ HR
  ihave #HIb7 := (inv_bar m K (peer c 7)) $$ HR
  ihave #Hrb7 := (reached_bar m K (peer c 7)) $$ HR
  ihave #Hrv7 := (reached_recv m K c 7) $$ HR
  ihave #HIb0 := (inv_bar m K c) $$ HR
  unfold slotPts
  ihave Hx := (hold_x c _) $$ Hx
  ihave Hout := (hold_o c _) $$ Hout
  have hmw := mayWait_bar (F := F) c
  -- the seven signals (to the barrier of `peer c d`, handing over slot `8 - d`), the block loaded, slot 0 loaded and
  -- overwritten with the block's row sum, the wait for the seven units on its own barrier owing the seven rows' credit
  sl_exec
  -- slot 0 holds the final table there
  sl_unfold_run_names
  rw [read_x]
  ihave Hs0 := (slot0_stored m c f0) $$ Hs0
  -- the seven peers' slots, out of the barrier round's payloads
  ihave Hp := (chain7 _ _ _ _ _ _ _) $$ HatB_pay1
  icases Hp with ⟨⟨⟨%fn1, Hn1⟩, -⟩, ⟨⟨%fn2, Hn2⟩, -⟩, ⟨⟨%fn3, Hn3⟩, -⟩, ⟨⟨%fn4, Hn4⟩, -⟩, ⟨⟨%fn5, Hn5⟩, -⟩, ⟨⟨%fn6, Hn6⟩, -⟩, ⟨⟨%fn7, Hn7⟩, -⟩⟩
  -- slot 0's read shares
  ihave H0 := (lend0 m c) $$ Hs0
  rw [bigSep_ds]
  icases H0 with ⟨Hk0, Hq0, Hsr1, Hsr2, Hsr3, Hsr4, Hsr5, Hsr6, Hsr7⟩
  unfold OR
  -- the seven transfers
  iapply (wp_snd m K c 1 (by decide) _ (dev8_eq c) fn1 _ _) $$ [HO Hsr1 Hn1 HtS1 HtV1]
  · unfold slotPts srcPts
    isplitr; · iexact HR
    isplitl [Hsr1]; · iexact Hsr1
    isplitl [Hn1]; · iexact Hn1
    isplitl [HO]; · iexact HO
    isplitl [HtS1]; · iexact HtS1
    iexact HtV1
  iintro ⟨HcS1, HO⟩
  iapply (wp_snd m K c 2 (by decide) _ (dev9_eq c) fn2 _ _) $$ [HO Hsr2 Hn2 HtS2 HtV2]
  · unfold slotPts srcPts
    isplitr; · iexact HR
    isplitl [Hsr2]; · iexact Hsr2
    isplitl [Hn2]; · iexact Hn2
    isplitl [HO]; · iexact HO
    isplitl [HtS2]; · iexact HtS2
    iexact HtV2
  iintro ⟨HcS2, HO⟩
  iapply (wp_snd m K c 3 (by decide) _ (dev10_eq c) fn3 _ _) $$ [HO Hsr3 Hn3 HtS3 HtV3]
  · unfold slotPts srcPts
    isplitr; · iexact HR
    isplitl [Hsr3]; · iexact Hsr3
    isplitl [Hn3]; · iexact Hn3
    isplitl [HO]; · iexact HO
    isplitl [HtS3]; · iexact HtS3
    iexact HtV3
  iintro ⟨HcS3, HO⟩
  iapply (wp_snd m K c 4 (by decide) _ (dev11_eq c) fn4 _ _) $$ [HO Hsr4 Hn4 HtS4 HtV4]
  · unfold slotPts srcPts
    isplitr; · iexact HR
    isplitl [Hsr4]; · iexact Hsr4
    isplitl [Hn4]; · iexact Hn4
    isplitl [HO]; · iexact HO
    isplitl [HtS4]; · iexact HtS4
    iexact HtV4
  iintro ⟨HcS4, HO⟩
  iapply (wp_snd m K c 5 (by decide) _ (dev12_eq c) fn5 _ _) $$ [HO Hsr5 Hn5 HtS5 HtV5]
  · unfold slotPts srcPts
    isplitr; · iexact HR
    isplitl [Hsr5]; · iexact Hsr5
    isplitl [Hn5]; · iexact Hn5
    isplitl [HO]; · iexact HO
    isplitl [HtS5]; · iexact HtS5
    iexact HtV5
  iintro ⟨HcS5, HO⟩
  iapply (wp_snd m K c 6 (by decide) _ (dev13_eq c) fn6 _ _) $$ [HO Hsr6 Hn6 HtS6 HtV6]
  · unfold slotPts srcPts
    isplitr; · iexact HR
    isplitl [Hsr6]; · iexact Hsr6
    isplitl [Hn6]; · iexact Hn6
    isplitl [HO]; · iexact HO
    isplitl [HtS6]; · iexact HtS6
    iexact HtV6
  iintro ⟨HcS6, HO⟩
  iapply (wp_snd m K c 7 (by decide) _ (dev14_eq c) fn7 _ _) $$ [HO Hsr7 Hn7 HtS7 HtV7]
  · unfold slotPts srcPts
    isplitr; · iexact HR
    isplitl [Hsr7]; · iexact Hsr7
    isplitl [Hn7]; · iexact Hn7
    isplitl [HO]; · iexact HO
    isplitl [HtS7]; · iexact HtS7
    iexact HtV7
  iintro ⟨HcS7, HO⟩
  -- the seven receive waits: slot `d` comes back holding the final table there
  ihave #HIv1 := (inv_recv m K c 1) $$ HR
  ihave #HIv2 := (inv_recv m K c 2) $$ HR
  ihave #HIv3 := (inv_recv m K c 3) $$ HR
  ihave #HIv4 := (inv_recv m K c 4) $$ HR
  ihave #HIv5 := (inv_recv m K c 5) $$ HR
  ihave #HIv6 := (inv_recv m K c 6) $$ HR
  ihave #HIv7 := (inv_recv m K c 7) $$ HR
  sl_exec
  -- the table read whole, at the share the device kept
  ihave HH := (load_open m c) $$ [Hk0 Hq0 HaV1_pay1 HaV2_pay1 HaV3_pay1 HaV4_pay1 HaV5_pay1 HaV6_pay1 HaV7_pay1]
  · unfold Held slotPts; rw [bigSep_ds]
    isplitl [Hk0]; · iexact Hk0
    isplitl [Hq0]; · iexact Hq0
    isplitl [HaV1_pay1]; · iexact HaV1_pay1
    isplitl [HaV2_pay1]; · iexact HaV2_pay1
    isplitl [HaV3_pay1]; · iexact HaV3_pay1
    isplitl [HaV4_pay1]; · iexact HaV4_pay1
    isplitl [HaV5_pay1]; · iexact HaV5_pay1
    isplitl [HaV6_pay1]; · iexact HaV6_pay1
    iexact HaV7_pay1
  icases HH with ⟨Hall, Hback⟩
  iapply (wp_load 𝒱₀ (c : Thread nD τ) none Set.univ (m := cM) (Finset.subset_univ _)) $$ Hall; iintro Hall
  rw [read_comm]
  ihave HH := Hback $$ Hall
  -- the result row loaded and stored, and the seven send waits: the read shares of slot 0 come back
  ihave #HIs1 := (inv_send m K c 1) $$ HR
  ihave #HIs2 := (inv_send m K c 2) $$ HR
  ihave #HIs3 := (inv_send m K c 3) $$ HR
  ihave #HIs4 := (inv_send m K c 4) $$ HR
  ihave #HIs5 := (inv_send m K c 5) $$ HR
  ihave #HIs6 := (inv_send m K c 6) $$ HR
  ihave #HIs7 := (inv_send m K c 7) $$ HR
  sl_exec
  rw [writes_out]
  ihave Hx := (held_x c _) $$ Hx
  ihave Hout := (held_o c _) $$ Hout
  -- the sixteen own cells close
  imod (Rounds.cell_close ER (Rd m) (Set.mem_univ (K (c, kSend 0))) (fun h => h) (R := 0) (fun r _ => duties_send0 m c r)) $$ [HaS0] with HzS0
  · isplitr; · iapply (inv_at m K (c, kSend 0)); iexact HR
    iexact HaS0
  imod (Rounds.cell_close ER (Rd m) (Set.mem_univ (K (c, kSend 1))) (fun h => h) (R := 1) (duties_later m (sendCell c 1))) $$ [HaS1] with HzS1
  · isplitr; · iapply (inv_at m K (c, kSend 1)); iexact HR
    iexact HaS1
  imod (Rounds.cell_close ER (Rd m) (Set.mem_univ (K (c, kSend 2))) (fun h => h) (R := 1) (duties_later m (sendCell c 2))) $$ [HaS2] with HzS2
  · isplitr; · iapply (inv_at m K (c, kSend 2)); iexact HR
    iexact HaS2
  imod (Rounds.cell_close ER (Rd m) (Set.mem_univ (K (c, kSend 3))) (fun h => h) (R := 1) (duties_later m (sendCell c 3))) $$ [HaS3] with HzS3
  · isplitr; · iapply (inv_at m K (c, kSend 3)); iexact HR
    iexact HaS3
  imod (Rounds.cell_close ER (Rd m) (Set.mem_univ (K (c, kSend 4))) (fun h => h) (R := 1) (duties_later m (sendCell c 4))) $$ [HaS4] with HzS4
  · isplitr; · iapply (inv_at m K (c, kSend 4)); iexact HR
    iexact HaS4
  imod (Rounds.cell_close ER (Rd m) (Set.mem_univ (K (c, kSend 5))) (fun h => h) (R := 1) (duties_later m (sendCell c 5))) $$ [HaS5] with HzS5
  · isplitr; · iapply (inv_at m K (c, kSend 5)); iexact HR
    iexact HaS5
  imod (Rounds.cell_close ER (Rd m) (Set.mem_univ (K (c, kSend 6))) (fun h => h) (R := 1) (duties_later m (sendCell c 6))) $$ [HaS6] with HzS6
  · isplitr; · iapply (inv_at m K (c, kSend 6)); iexact HR
    iexact HaS6
  imod (Rounds.cell_close ER (Rd m) (Set.mem_univ (K (c, kSend 7))) (fun h => h) (R := 1) (duties_later m (sendCell c 7))) $$ [HaS7] with HzS7
  · isplitr; · iapply (inv_at m K (c, kSend 7)); iexact HR
    iexact HaS7
  imod (Rounds.cell_close ER (Rd m) (Set.mem_univ (K (c, kRecv 0))) (fun h => h) (R := 0) (fun r _ => duties_recv0 m c r)) $$ [HaV0] with HzV0
  · isplitr; · iapply (inv_at m K (c, kRecv 0)); iexact HR
    iexact HaV0
  imod (Rounds.cell_close ER (Rd m) (Set.mem_univ (K (c, kRecv 1))) (fun h => h) (R := 1) (duties_later m (recvCell c 1))) $$ [HaV1] with HzV1
  · isplitr; · iapply (inv_at m K (c, kRecv 1)); iexact HR
    iexact HaV1
  imod (Rounds.cell_close ER (Rd m) (Set.mem_univ (K (c, kRecv 2))) (fun h => h) (R := 1) (duties_later m (recvCell c 2))) $$ [HaV2] with HzV2
  · isplitr; · iapply (inv_at m K (c, kRecv 2)); iexact HR
    iexact HaV2
  imod (Rounds.cell_close ER (Rd m) (Set.mem_univ (K (c, kRecv 3))) (fun h => h) (R := 1) (duties_later m (recvCell c 3))) $$ [HaV3] with HzV3
  · isplitr; · iapply (inv_at m K (c, kRecv 3)); iexact HR
    iexact HaV3
  imod (Rounds.cell_close ER (Rd m) (Set.mem_univ (K (c, kRecv 4))) (fun h => h) (R := 1) (duties_later m (recvCell c 4))) $$ [HaV4] with HzV4
  · isplitr; · iapply (inv_at m K (c, kRecv 4)); iexact HR
    iexact HaV4
  imod (Rounds.cell_close ER (Rd m) (Set.mem_univ (K (c, kRecv 5))) (fun h => h) (R := 1) (duties_later m (recvCell c 5))) $$ [HaV5] with HzV5
  · isplitr; · iapply (inv_at m K (c, kRecv 5)); iexact HR
    iexact HaV5
  imod (Rounds.cell_close ER (Rd m) (Set.mem_univ (K (c, kRecv 6))) (fun h => h) (R := 1) (duties_later m (recvCell c 6))) $$ [HaV6] with HzV6
  · isplitr; · iapply (inv_at m K (c, kRecv 6)); iexact HR
    iexact HaV6
  imod (Rounds.cell_close ER (Rd m) (Set.mem_univ (K (c, kRecv 7))) (fun h => h) (R := 1) (duties_later m (recvCell c 7))) $$ [HaV7] with HzV7
  · isplitr; · iapply (inv_at m K (c, kRecv 7)); iexact HR
    iexact HaV7
  -- the table whole again
  ihave Ht := (finish m c) $$ [HH HaS1_pay1 HaS2_pay1 HaS3_pay1 HaS4_pay1 HaS5_pay1 HaS6_pay1 HaS7_pay1]
  · isplitl [HH]; · iexact HH
    rw [bigSep_ds]; unfold srcPts
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    isplitl [HaS6_pay1]; · iexact HaS6_pay1
    iexact HaS7_pay1
  rw [wp_ret]; imodintro
  iapply Hk
  unfold bodyPost Φ₁ tblAny
  rw [bigSep_fin8, bigSep_fin8]
  isplitl [Ht HzS0 HzS1 HzS2 HzS3 HzS4 HzS5 HzS6 HzS7 HzV0 HzV1 HzV2 HzV3 HzV4 HzV5 HzV6 HzV7]
  · isplitl [Ht]; · iexists _; iexact Ht
    isplitl [HzS0 HzS1 HzS2 HzS3 HzS4 HzS5 HzS6 HzS7]
    ·
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      iexact HzS7
    ·
      isplitl [HzV0]; · iexact HzV0
      isplitl [HzV1]; · iexact HzV1
      isplitl [HzV2]; · iexact HzV2
      isplitl [HzV3]; · iexact HzV3
      isplitl [HzV4]; · iexact HzV4
      isplitl [HzV5]; · iexact HzV5
      isplitl [HzV6]; · iexact HzV6
      iexact HzV7
  isplitl [HO]
  · iapply (owes_done m ρ c _); iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Htb⟩, Ho, Hx, Hout⟩
  iapply (sound_body m ρ K c fun _ => bodyPost m ρ c)
  unfold bodyPre
  isplitr []
  · isplitl [Hg Hrest Htb]
    · isplitl [Hg]; · iexact Hg
      icases Hrest with ⟨H1, H2, H3⟩
      isplitl [H1]; · iexact H1
      isplitl [H2]; · iexact H2
      isplitl [H3]; · iexact H3
      iexact Htb
    isplitl [Ho]; · iexact Ho
    isplitl [Hx] <;> iassumption
  · iintro H; iexact H

end Body

end Cert.Kernel.Body
end
-- ==== Proof.KLaunch.lean ====
/-
  The launch of the eight devices. Every device is dealt, under one update, the round state of its seventeen cells —
  its barrier cell, its eight send cells and its eight receive cells —, its positions on them, and the duty tokens of
  its own cells; with every device's semaphores at zero each cell's invariant is allocated, and the tokens are dealt
  around the ring to the devices that pay the duties: the barrier token of duty `e` of device `p` to `peer p e`, the
  receive token of offset `d` of `p` to `src p d`, the send tokens stay. What the others owe a device at launch is
  seven units on its barrier and a row's credit on each of its seven receive cells. The run then ends with every
  window's array at the contents the proof data name: the input unchanged, the result row the kernel's value.
-/
import proofs.«900956_g7700000000000957_dist_mean_ax0_shard0_i_m512_n256_v7x_i8_bf16_1_alg».proof.Proof.KProto
import Idealize.ShloMosaic.Lib.Pipeline.Launch
import Idealize.ShloMosaic.Lib.Pipeline.Kit
import Idealize.ShloMosaic.Lib.Tactic

set_option maxRecDepth 16384

noncomputable section

namespace Cert.Kernel.Launch

open Cert.Kernel Cert.Kernel.Gen Cert.Kernel.Spec Cert.Kernel.Mem Cert.Kernel.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the protocol's cells -/

/-- The kernel's own sixteen semaphores: the eight send and the eight receive. -/
abbrev osem : Fin 8 ⊕ Fin 8 → SemLoc sig
  | .inl d => .dma (sendQ d)
  | .inr d => .dma (recvQ d)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's seventeen cells. -/
def protoCells : Finset (GSem nD τ sig) := Finset.univ.map ⟨kcell, kcell_injective⟩

/-! ## The duty tokens -/

/-- The offsets in use, as a type. -/
abbrev D7 : Type := {d : Fin 8 // d ≠ 0}

/-- A sum over the used offsets is a sum over that type. -/
theorem bigSep_ds (Ψ : Fin 8 → sProp 𝕄) : bigSep ds Ψ = bigSep Finset.univ fun x : D7 => Ψ x.1 :=
  (bigSep_subtype_ne (0 : Fin 8) Ψ).symm

/-- A device's own cells' duty tokens as minted: its barrier's duty `e`, its send cell's and its receive cell's duty
    `0` at offset `d`. -/
abbrev TK : Type := D7 ⊕ (D7 ⊕ D7)
abbrev tokOf (cj : Dev nD × TK) : GSem nD τ sig × ℕ × Fin 8 := match cj.2 with
  | .inl e => (barCell cj.1, 0, e.1)
  | .inr (.inl d) => (sendCell cj.1 d.1, 0, 0)
  | .inr (.inr d) => (recvCell cj.1 d.1, 0, 0)

theorem tokOf_injective : Function.Injective (tokOf : Dev nD × TK → GSem nD τ sig × ℕ × Fin 8) := by
  rintro ⟨c, k⟩ ⟨c', k'⟩ h
  have h1 : c = c' := by
    have := congrArg (fun x : GSem nD τ sig × ℕ × Fin 8 => x.1.1.1) h
    rcases k with e | d | d <;> rcases k' with e' | d' | d' <;> exact this
  subst h1
  have hs := congrArg (fun x : GSem nD τ sig × ℕ × Fin 8 => x.1.2) h
  have hd := congrArg (fun x : GSem nD τ sig × ℕ × Fin 8 => x.2.2) h
  rcases k with e | d | d <;> rcases k' with e' | d' | d'
  · rw [Subtype.ext (show e.1 = e'.1 from hd)]
  · exact absurd (csem_injective (a₁ := kBar) (a₂ := kSend d'.1) hs) (by simp)
  · exact absurd (csem_injective (a₁ := kBar) (a₂ := kRecv d'.1) hs) (by simp)
  · exact absurd (csem_injective (a₁ := kSend d.1) (a₂ := kBar) hs) (by simp)
  · have := csem_injective (a₁ := kSend d.1) (a₂ := kSend d'.1) hs
    rw [Subtype.ext (show d.1 = d'.1 from Sum.inl.inj (Sum.inr.inj this))]
  · exact absurd (csem_injective (a₁ := kSend d.1) (a₂ := kRecv d'.1) hs) (by simp)
  · exact absurd (csem_injective (a₁ := kRecv d.1) (a₂ := kBar) hs) (by simp)
  · exact absurd (csem_injective (a₁ := kRecv d.1) (a₂ := kSend d'.1) hs) (by simp)
  · have := csem_injective (a₁ := kRecv d.1) (a₂ := kRecv d'.1) hs
    rw [Subtype.ext (show d.1 = d'.1 from Sum.inr.inj (Sum.inr.inj this))]

def protoToks : Finset (GSem nD τ sig × ℕ × Fin 8) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep ds fun e => dutyTok ER (barCell c) 0 e) ∗ (bigSep ds fun d => dutyTok ER (sendCell c d) 0 (0 : Fin 8))
    ∗ (bigSep ds fun d => dutyTok ER (recvCell c d) 0 (0 : Fin 8)))

/-- What the launch element deals device `c`. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop(∃ K, ghost m K c)

theorem toks_eq (c : Dev nD) :
    (bigSep Finset.univ fun k : TK => (dutyTok ER (tokOf (c, k)).1 (tokOf (c, k)).2.1 (tokOf (c, k)).2.2 : sProp 𝕄)) = toks c := by
  unfold toks
  rw [bigSep_univ_sum, bigSep_univ_sum, bigSep_ds, bigSep_ds, bigSep_ds]
  rfl

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : CI => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => toks_eq c
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun d : Fin 8 => semVal (sendCell c d) 0) ∗ (bigSep Finset.univ fun d : Fin 8 => semVal (recvCell c d) 0)) := by
  unfold Pipeline.ownSems0; rw [bigSep_univ_sum]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a device's cells: the barrier's, the eight send cells', the eight receive cells'. -/
theorem bigSep_CI (Φ : CI → sProp 𝕄) : bigSep Finset.univ Φ
    = iprop(Φ kBar ∗ (bigSep Finset.univ fun d : Fin 8 => Φ (kSend d)) ∗ (bigSep Finset.univ fun d : Fin 8 => Φ (kRecv d))) := by
  rw [bigSep_univ_sum, bigSep_univ_sum, bigSep_univ_of_subsingleton ()]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 := iprop(positions c ∗ payToks c)

theorem ghost_intro (K : Dev nD × CI → ℕ) (c : Dev nD) : iprop(records m K ∗ linear c) ⊢ G' m c := by
  unfold linear G' ghost
  iintro ⟨HR, HL⟩
  iexists K
  isplitl [HR]; · iexact HR
  iexact HL

/-- Offset `d` as a walk around the ring: forwards, with the walk backwards its inverse. -/
def ringAt (d : Fin 8) : Dev nD ≃ Dev nD := ⟨(peer · d), (src · d), fun c => src_peer c d, fun c => peer_src c d⟩
/-- The offset that undoes a used offset is a used offset. -/
def negD : D7 ≃ D7 := ⟨fun d => ⟨neg d.1, neg_ne_zero d.2⟩, fun d => ⟨neg d.1, neg_ne_zero d.2⟩,
  fun d => Subtype.ext (neg_neg d.1), fun d => Subtype.ext (neg_neg d.1)⟩

/-- The barrier tokens dealt around the ring: the token of duty `neg d` of the barrier of `peer c d` goes to `c`. -/
theorem bar_around :
    (bigSep Finset.univ fun c : Dev nD => bigSep ds fun e => (dutyTok ER (barCell c) 0 e : sProp 𝕄))
      = bigSep Finset.univ fun c : Dev nD => bigSep ds fun d => (dutyTok ER (barCell (peer c d)) 0 (neg d) : sProp 𝕄) := by
  simp only [bigSep_ds]
  rw [bigSep_univ_comm (fun (p : Dev nD) (e : D7) => (dutyTok ER (barCell p) 0 e.1 : sProp 𝕄)),
    bigSep_univ_comm (fun (c : Dev nD) (d : D7) => (dutyTok ER (barCell (peer c d.1)) 0 (neg d.1) : sProp 𝕄)),
    bigSep_univ_equiv negD (fun e : D7 => bigSep Finset.univ fun p : Dev nD => (dutyTok ER (barCell p) 0 e.1 : sProp 𝕄))]
  exact bigSep_congr fun d _ => bigSep_univ_equiv (ringAt d.1) (fun p : Dev nD => (dutyTok ER (barCell p) 0 (neg d.1) : sProp 𝕄))

/-- The receive tokens dealt around the ring: the token of the receive cell `d` of `peer c d` goes to `c`. -/
theorem recv_around :
    (bigSep Finset.univ fun c : Dev nD => bigSep ds fun d => (dutyTok ER (recvCell c d) 0 (0 : Fin 8) : sProp 𝕄))
      = bigSep Finset.univ fun c : Dev nD => bigSep ds fun d => (dutyTok ER (recvCell (peer c d) d) 0 (0 : Fin 8) : sProp 𝕄) := by
  simp only [bigSep_ds]
  rw [bigSep_univ_comm (fun (p : Dev nD) (d : D7) => (dutyTok ER (recvCell p d.1) 0 (0 : Fin 8) : sProp 𝕄)),
    bigSep_univ_comm (fun (c : Dev nD) (d : D7) => (dutyTok ER (recvCell (peer c d.1) d.1) 0 (0 : Fin 8) : sProp 𝕄))]
  exact bigSep_congr fun d _ => bigSep_univ_equiv (ringAt d.1) (fun p : Dev nD => (dutyTok ER (recvCell p d.1) 0 (0 : Fin 8) : sProp 𝕄))

theorem toks_around : (bigSep Finset.univ fun c : Dev nD => (toks c : sProp 𝕄)) ⊢ bigSep Finset.univ fun c : Dev nD => payToks c := by
  unfold toks payToks
  rw [bigSep_sep', bigSep_sep', bigSep_sep', bigSep_sep', bar_around, recv_around]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => show _ ⊢ linear c from Entails.of_eq (by unfold linear positions; rw [bigSep_CI])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- Units on one cell, one per member of a set, are that many units. -/
theorem sum_unit (g : GSem nD τ sig) (s : Finset (Fin 8)) :
    ∑ _d ∈ s, (tallyAt g () 1 : CellTallies nD τ sig Unit) = tallyAt g () s.card := by
  induction s using Finset.induction_on with
  | empty => rw [Finset.sum_empty, Finset.card_empty, tallyAt_zero]
  | insert a s ha ih => rw [Finset.sum_insert ha, ih, tallyAt_add, Finset.card_insert_of_notMem ha, Nat.add_comm]

/-- What the others owe device `c` at launch: seven units on its barrier, a row's credit on each receive cell. -/
theorem creds (c : Dev nD) :
    (Pipeline.launchCred O₀ c : sProp 𝕄) ⊢ iprop(cred (tallyAt (barCell c) () 7) ∗ bigSep ds fun d => cred (tallyAt (recvCell c d) () N)) := by
  have hO : (O₀ : Dev nD → CellTallies nD τ sig Unit) = fun c' => ∑ d ∈ ds, (fun (d : Fin 8) (c'' : Dev nD) => Rt c'' d + Bt c'' d) d c' := funext O₀_eq_sum
  rw [hO, Pipeline.launchCred_sum]
  have h1 : ∀ d ∈ ds, (Pipeline.launchCred (fun c'' : Dev nD => Rt c'' d + Bt c'' d) c : sProp 𝕄)
      ⊢ iprop(cred (tallyAt (recvCell c d) () N) ∗ cred (tallyAt (barCell c) () 1)) := fun d _ => by
    rw [Pipeline.launchCred_add (fun c'' : Dev nD => Rt c'' d) (fun c'' : Dev nD => Bt c'' d) c]
    exact BI.sep_mono (Pipeline.launchCred_tallyAt (.dma (recvQ d)) (peer · d) (src · d) (fun c => peer_src c d) (fun c => src_peer c d) () N c)
      (Pipeline.launchCred_tallyAt (.reg barS) (peer · d) (src · d) (fun c => peer_src c d) (fun c => src_peer c d) () 1 c)
  refine (bigSep_mono h1).trans ?_
  rw [bigSep_sep', ← Pipeline.cred_finsetSum ds (fun _ => (tallyAt (barCell c) () 1 : CellTallies nD τ sig Unit)), sum_unit, show ds.card = 7 from by decide]
  exact (sep_symm : iprop((bigSep ds fun d => cred (tallyAt (recvCell c d) () N)) ∗ cred (tallyAt (barCell c) () 7)) ⊢ (iprop(cred (tallyAt (barCell c) () 7) ∗ bigSep ds fun d => cred (tallyAt (recvCell c d) () N)) : sProp 𝕄))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ tblAny
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ tblAny
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
/-- At the compiled mesh of eight devices, for any float values, from any memory with zero counters: every weakly fair
    execution of @main terminates, and every final state has each window's array at the contents the proof data name. -/
theorem run_main (hbody : ∀ c, BodyObligation (dats (F := F) m ρ 0 c) (defs₀ (F := F)) 𝒱₀ () Set.univ) :
    θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

/-- The result array's one block is the whole array: after the run it holds what the body left in the staging buffer. -/
theorem finalA_blk (c : Dev nD) :
    (win0_1.blk (0 : Fin 1)).view.read (Elt F) (finalA m ρ c (1 : Fin 2)) = outAt (xstg m) c := by
  unfold finalA
  rw [show cfg0.N = ((0 : Fin 1) : Fin cfg0.N).val + 1 from rfl, (dats m ρ 0 c).arrAt_succ (1 : Fin 2) (0 : Fin 1)]
  rw [flush0_1 (0 : Fin 1), if_pos rfl]
  exact View.read_write_univ _ _

theorem finalA_out (c : Dev nD) :
    (finalA m ρ c (1 : Fin 2) : S1x256.Idx → Elt F .f32) = outAt (xstg m) c := by
  rw [← finalA_blk m ρ c]
  symm
  exact Memref.read_access_unit_zero (Elt F) main_v1 (off := fun a => win0_1.index (0 : Fin 1) a * win0_1.size a)
    (funext fun a => Nat.zero_mul _) _ _

/-- The staged input block is the device's whole input array: the window's one block covers it. -/
theorem xstg_eq (c : Dev nD) : xstg m c = m ((c : Thread nD τ).loc main_arg0) := by
  unfold xstg
  exact Memref.read_access_unit_zero (Elt F) main_arg0 (off := fun a => win0_0.index (0 : Fin 1) a * win0_0.size a)
    (funext fun a => Nat.zero_mul _) _ _

/-- info: 'Cert.Kernel.Launch.run_main' depends on axioms: [propext, Classical.choice, Quot.sound] -/
#guard_msgs in #print axioms run_main

/-- info: 'Cert.Kernel.Launch.finalA_out' depends on axioms: [propext, Classical.choice, Quot.sound] -/
#guard_msgs in #print axioms finalA_out

end Cert.Kernel.Launch
end
-- ==== Proof.Value.lean ====
/-
  The value of the kernel against the reference, free of the protocol. For a column `j`, device `c` adds the
  eight column sums of its table — slot `d` holding the sum over the 512 rows of the block of the device `d` places
  before `c` — and scales by 2^-12; the reference adds the 4096 rows of the whole array from zero and divides by
  4096. Walking the ring backwards from `c` visits each of the eight blocks once, the 4096 rows are the eight blocks
  of 512 rows laid end to end, and division by the real 4096 is multiplication by 1/4096 on every extended real; sums
  on the extended reals commute and associate, so nothing here asks the entries to be finite.
-/
import proofs.«900956_g7700000000000957_dist_mean_ax0_shard0_i_m512_n256_v7x_i8_bf16_1_alg».proof.Proof.Spec
import proofs.«900956_g7700000000000957_dist_mean_ax0_shard0_i_m512_n256_v7x_i8_bf16_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws
import Mathlib.Logic.Equiv.Fin.Basic
import Mathlib.Algebra.BigOperators.Fin

noncomputable section

namespace Cert.KernelIdeal.RefValue

open Cert.KernelIdeal Cert.KernelIdeal.Gen Cert.KernelIdeal.Spec
open Idealize.ShloMosaic Idealize.ShloMosaic.ValueIdx
open scoped BigOperators

/-! ## The two float literals -/

/-- The word 0x45800000 denotes the real 4096. -/
theorem ofBits_4096 : Ideal.ofBits .f32 0x45800000#32 = ((4096 : ℝ) : EReal) := by
  simp [Ideal.ofBits, Ideal.ieee, -EReal.coe_mul]; norm_num

/-- The word 0x39800000 denotes the real 1/4096. -/
theorem ofBits_inv4096 : Ideal.ofBits .f32 0x39800000#32 = (((1 : ℝ) / 4096 : ℝ) : EReal) := by
  simp [Ideal.ofBits, Ideal.ieee, -EReal.coe_mul]; norm_num

/-! ## Regrouping sums -/

/-- A sum over 4096 rows is the sum over 8 blocks of the sums over each block's 512 rows. -/
theorem sum_blocks {M : Type*} [AddCommMonoid M] (g : Fin 4096 → M) :
    ∑ k : Fin 4096, g k = ∑ e : Fin 8, ∑ r : Fin 512, g ⟨e.val * 512 + r.val, by omega⟩ := by
  rw [← Equiv.sum_comp (finProdFinEquiv (m := 8) (n := 512)) g, Fintype.sum_prod_type]
  refine Finset.sum_congr rfl fun e _ => Finset.sum_congr rfl fun r _ => congrArg g (Fin.ext ?_)
  show r.val + 512 * e.val = e.val * 512 + r.val
  omega

/-- Walking the ring backwards from `c` visits every device once. -/
theorem sum_src {M : Type*} [AddCommMonoid M] (c : Dev nD) (f : Fin 8 → M) :
    ∑ d : Fin 8, f (src c d) = ∑ e : Fin 8, f e := by
  have hinv : ∀ d : Fin 8, src c (src c d) = d := by revert c; decide
  exact Equiv.sum_comp (Function.Involutive.toPerm (src c) hinv) f

/-! ## The kernel's payloads at an index -/

/-- The first payload is the column sum of the block. -/
theorem pay1_apply (x : Vec Ideal S512x256 .f32) (u v : Fin 1) (j : Fin 256) :
    k0_pay1 (F := Ideal) x (ix3 u v j) = ∑ r : Fin 512, x (ix2 r j) := by
  unfold k0_pay1
  dsimp only
  refine (shapeCast_ab_1ab_apply _ _ u v j).trans ?_
  refine (shapeCast_a_1a_apply _ _ v j).trans ?_
  refine (Ideal.multiReduction_add_single _ _ reduces_S512x256_S256 _ _ (ix1 j)).trans ?_
  rw [shapeCast_self]
  refine Finset.sum_congr rfl fun r _ => congrArg x (funext fun a => Fin.ext ?_)
  match a with
  | ⟨0, _⟩ => rfl
  | ⟨1, _⟩ => rfl

/-- The table at slot `d`: the column sum of the block of the device `d` places before. -/
theorem commAt_apply (xs : Dev nD → Vec Ideal S512x256 .f32) (c : Dev nD) (d : Fin 8) (u : Fin 1) (j : Fin 256) :
    commAt (F := Ideal) xs c (ix3 d u j) = ∑ r : Fin 512, xs (src c d) (ix2 r j) := by
  show k0_pay1 (F := Ideal) (xs (src c d)) (low (ix3 d u j)) = _
  have hl : low (ix3 d u j) = ix3 (0 : Fin 1) u j := by
    funext a
    match a with
    | ⟨0, _⟩ => rfl
    | ⟨1, _⟩ => rfl
    | ⟨2, _⟩ => rfl
  rw [hl, pay1_apply]

/-- The second payload: the eight slots summed, times the literal. -/
theorem pay2_apply (t : Vec Ideal S8x1x256 .f32) (u : Fin 1) (j : Fin 256) :
    k0_pay2 (F := Ideal) t (ix2 u j) = (∑ d : Fin 8, t (ix3 d u j)) * Ideal.ofBits .f32 0x39800000#32 := by
  unfold k0_pay2
  dsimp only
  rw [mulf_apply]
  refine congrArg₂ (· * ·) ?_ rfl
  refine (Ideal.multiReduction_add_single _ _ reduces_S8x1x256_S1x256 _ _ (ix2 u j)).trans ?_
  refine Finset.sum_congr rfl fun d _ => congrArg t (funext fun a => Fin.ext ?_)
  match a with
  | ⟨0, _⟩ => rfl
  | ⟨1, _⟩ => rfl
  | ⟨2, _⟩ => rfl

/-- The kernel's result at column `j`: the eight column sums, added and scaled. -/
theorem outAt_apply (xs : Dev nD → Vec Ideal S512x256 .f32) (c : Dev nD) (u : Fin 1) (j : Fin 256) :
    outAt (F := Ideal) xs c (ix2 u j)
      = (∑ d : Fin 8, ∑ r : Fin 512, xs (src c d) (ix2 r j)) * Ideal.ofBits .f32 0x39800000#32 := by
  show k0_pay2 (F := Ideal) (commAt (F := Ideal) xs c) (ix2 u j) = _
  rw [pay2_apply]
  refine congrArg₂ (· * ·) (Finset.sum_congr rfl fun d _ => commAt_apply xs c d u j) rfl

/-! ## The blocks and the reference at an index -/

/-- Row `r` of block `e` is row `512 e + r` of the whole array. -/
theorem block_at (X : (⟨Cert.ReferenceIdeal.S4096x256, .f32⟩ : BufTy).Contents (Elt Ideal)) (e : Fin 8)
    (r : Fin 512) (j : Fin 256) :
    (Layout.block ⟨2, ![512, 256]⟩ ⟨2, ![4096, 256]⟩ 0 8 e X) (ix2 r j)
      = X (ix2 (⟨e.val * 512 + r.val, by omega⟩ : Fin 4096) j) := by
  rw [Layout.block_apply]
  refine congrArg X (funext fun a => Fin.ext ?_)
  match a with
  | ⟨0, _⟩ => rfl
  | ⟨1, _⟩ => rfl

/-- The reference at column `j`: zero plus the sum of the column, divided by the literal 4096. -/
theorem ref_apply (X : (⟨Cert.ReferenceIdeal.S4096x256, .f32⟩ : BufTy).Contents (Elt Ideal)) (u : Fin 1) (j : Fin 256) :
    Cert.ReferenceIdeal.Read.val_main_v3 (F := Ideal) X (ix2 u j)
      = Ideal.div (Ideal.ofBits .f32 0x00000000#32 + ∑ k : Fin 4096, X (ix2 k j)) (Ideal.ofBits .f32 0x45800000#32) := by
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  simp only [Ideal.hostDivf_def, Ideal.ofBits_def]
  refine congrArg₂ Ideal.div (congrArg (_ + ·) (Finset.sum_congr rfl fun k _ => congrArg X (funext fun a => Fin.ext ?_))) rfl
  match a with
  | ⟨0, _⟩ => rfl
  | ⟨1, _⟩ => rfl

/-! ## The kernel's result is the reference's -/

theorem out_eq_ref (X : (⟨Cert.ReferenceIdeal.S4096x256, .f32⟩ : BufTy).Contents (Elt Ideal))
    (xs : Dev Cert.KernelIdeal.nD → Vec Ideal Cert.KernelIdeal.S512x256 .f32)
    (hxs : ∀ c, xs c = Layout.block ⟨2, ![512, 256]⟩ ⟨2, ![4096, 256]⟩ 0 8 c X)
    (c : Dev Cert.KernelIdeal.nD) :
    Cert.KernelIdeal.Spec.outAt (F := Ideal) xs c = Cert.ReferenceIdeal.Read.val_main_v3 (F := Ideal) X := by
  funext i
  obtain ⟨u, j, rfl⟩ : ∃ (u : Fin 1) (j : Fin 256), i = ix2 u j := ⟨i 0, i 1, eq_ix2 i⟩
  rw [outAt_apply, ref_apply, ofBits_inv4096, ofBits_4096, Ideal.ofBits_zero_f32, zero_add,
    Ideal.div_coe (by norm_num : (4096 : ℝ) ≠ 0)]
  refine congrArg₂ (· * ·) ?_ rfl
  rw [sum_src c (fun e => ∑ r : Fin 512, xs e (ix2 r j)), sum_blocks (fun k => X (ix2 k j))]
  refine Finset.sum_congr rfl fun e _ => Finset.sum_congr rfl fun r _ => ?_
  rw [hxs e]
  exact block_at X e r j

end Cert.KernelIdeal.RefValue
end
-- ==== Proof.lean ====
/-
  The claim for the mean over the rows of a 4096 × 256 array cut into eight blocks of 512 rows, one per device.
  Each device sums its block's rows, the eight row sums are gathered on every device over a barrier handshake and seven
  remote copies per device, and every device adds the eight and multiplies by 2⁻¹²; the reference sums the 4096 rows on one
  device and divides by 4096.
  * The two kernel frames are the run of the eight bodies under the rounds discipline (the launch theorem over the body
    obligation), read at the input array: it ends as it began. The word-level program's is the same text at the other
    float instance.
  * The reference's frame is its generated run with the result dropped.
  * Nothing was rewritten by the idealization, so `preserves` is trivial.
  * For `algebraic`: the same run of the idealized kernel names every device's result, the eight slots' sum times 2⁻¹²
    of the row sums of the blocks `src c d`; with each block its part of the whole array, regrouping the 4096 rows as
    eight blocks of 512 — addition of extended reals is commutative and associative, so no finiteness is used — and reading the
    division by 4096 as the product with 2⁻¹² makes it the reference's value at every column, on every device.
-/
import proofs.«900956_g7700000000000957_dist_mean_ax0_shard0_i_m512_n256_v7x_i8_bf16_1_alg».proof.Defs
import proofs.«900956_g7700000000000957_dist_mean_ax0_shard0_i_m512_n256_v7x_i8_bf16_1_alg».proof.Proof.Gen.Kernel
import proofs.«900956_g7700000000000957_dist_mean_ax0_shard0_i_m512_n256_v7x_i8_bf16_1_alg».proof.Proof.Gen.KernelIdeal
import proofs.«900956_g7700000000000957_dist_mean_ax0_shard0_i_m512_n256_v7x_i8_bf16_1_alg».proof.Proof.Gen.ReferenceIdeal
import proofs.«900956_g7700000000000957_dist_mean_ax0_shard0_i_m512_n256_v7x_i8_bf16_1_alg».proof.Proof.Gen.Pre_finite_inputs_Kernel
import proofs.«900956_g7700000000000957_dist_mean_ax0_shard0_i_m512_n256_v7x_i8_bf16_1_alg».proof.Proof.Gen.Pre_finite_inputs_ReferenceIdeal
import proofs.«900956_g7700000000000957_dist_mean_ax0_shard0_i_m512_n256_v7x_i8_bf16_1_alg».proof.Proof.Gen.ReferenceIdeal.Run
import proofs.«900956_g7700000000000957_dist_mean_ax0_shard0_i_m512_n256_v7x_i8_bf16_1_alg».proof.Proof.Gen.ReferenceIdeal.Read
import proofs.«900956_g7700000000000957_dist_mean_ax0_shard0_i_m512_n256_v7x_i8_bf16_1_alg».proof.Proof.Body
import proofs.«900956_g7700000000000957_dist_mean_ax0_shard0_i_m512_n256_v7x_i8_bf16_1_alg».proof.Proof.Launch
import proofs.«900956_g7700000000000957_dist_mean_ax0_shard0_i_m512_n256_v7x_i8_bf16_1_alg».proof.Proof.KBody
import proofs.«900956_g7700000000000957_dist_mean_ax0_shard0_i_m512_n256_v7x_i8_bf16_1_alg».proof.Proof.KLaunch
import proofs.«900956_g7700000000000957_dist_mean_ax0_shard0_i_m512_n256_v7x_i8_bf16_1_alg».proof.Proof.Value

noncomputable section

namespace Cert.Proof

open Idealize.ShloMosaic Idealize.ShloMosaic.TcCoe Idealize.SL.Sem

/-- The word-level kernel runs and leaves each device's block as it was. -/
theorem frame_k : Cert.frame_Kernel := fun m ρ _ =>
  (θ_run (Cert.Kernel.defs (F := Bits)) _ _).mono (fun r h c => (h c (0 : Fin 2)).trans (Cert.Kernel.Launch.finalA_x m ρ c))
    (Cert.Kernel.Launch.run_main m ρ (Cert.Kernel.Body.body_obligation m ρ))

/-- The idealized kernel runs and leaves each device's block as it was. -/
theorem frame_ki : Cert.frame_KernelIdeal := fun m ρ _ =>
  (θ_run (Cert.KernelIdeal.defs (F := Ideal)) _ _).mono (fun r h c => (h c (0 : Fin 2)).trans (Cert.KernelIdeal.Launch.finalA_x m ρ c))
    (Cert.KernelIdeal.Launch.run_main m ρ (Cert.KernelIdeal.Body.body_obligation m ρ))

/-- The reference runs and leaves the whole array as it was. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Every device's result is the reference's: the mean of each column over the 4096 rows. -/
theorem algebraic : Cert.algebraic_KernelIdeal_ReferenceIdeal := by
  intro m ρ m' ρ' _ hagree
  refine ⟨Cert.ReferenceIdeal.Read.val_main_v3 (F := Ideal)
      (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨?_, (h c (0 : Fin 2)).trans (Cert.KernelIdeal.Launch.finalA_x m ρ c)⟩)
      (Cert.KernelIdeal.Launch.run_main m ρ (Cert.KernelIdeal.Body.body_obligation m ρ))
    exact (h c (1 : Fin 2)).trans ((Cert.KernelIdeal.Launch.finalA_out m ρ c).trans
      (Cert.KernelIdeal.RefValue.out_eq_ref _ (Cert.KernelIdeal.Proto.xstg m)
        (fun c => (Cert.KernelIdeal.Launch.xstg_eq m c).trans (hagree c)) c))
  · refine (θ_run Cert.ReferenceIdeal.defs _ _).mono (fun r h => ⟨(h 0).1.trans (Cert.ReferenceIdeal.Read.val_main_v3_eq _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
